-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v46)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_arg11 : FVec F S32 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg6 : FVec F S128 .f32) (main_arg7 : FVec F S128x32 .f32) (main_arg8 : FVec F S32 .f32) (main_arg9 : FVec F S128x1 .f32) (main_arg10 : FVec F S1 .f32) (main_arg11 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x32 .f32) (main_arg8 : FVec F S32 .f32) (main_arg9 : FVec F S128x1 .f32) (main_arg10 : FVec F S1 .f32) (main_arg11 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S1x32 : Shape := ⟨2, ![1, 32]⟩
abbrev S1x1 : Shape := ⟨2, ![1, 1]⟩
abbrev S64x32 : Shape := ⟨2, ![64, 32]⟩
abbrev S64x1 : Shape := ⟨2, ![64, 1]⟩
abbrev S64x128 : Shape := ⟨2, ![64, 128]⟩
abbrev S1x64 : Shape := ⟨2, ![1, 64]⟩
abbrev S5000x64 : Shape := ⟨2, ![5000, 64]⟩
abbrev S64 : Shape := ⟨1, ![64]⟩

abbrev nBuf : Space → Nat
  | .hbm => 70
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S128x1, .f32⟩
  | .hbm, ⟨10, _⟩ => ⟨S1, .f32⟩
  | .hbm, ⟨11, _⟩ => ⟨S32, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S1x128, .f32⟩
  | .hbm, ⟨46, _⟩ => ⟨S100000x128, .bf16⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .bf16⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S1x128, .f32⟩
  | .hbm, ⟨63, _⟩ => ⟨S100000x1, .i32⟩
  | .hbm, ⟨64, _⟩ => ⟨S1x32, .f32⟩
  | .hbm, ⟨65, _⟩ => ⟨S1x1, .f32⟩
  | .hbm, ⟨66, _⟩ => ⟨S64x32, .f32⟩
  | .hbm, ⟨67, _⟩ => ⟨S64x1, .f32⟩
  | .hbm, ⟨68, _⟩ => ⟨S64, .f32⟩
  | .hbm, ⟨69, _⟩ => ⟨S32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x128, .bf16⟩
  | .local _ .vmem, ⟨10, _⟩ => ⟨S5000x128, .bf16⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .bf16⟩
  | .local _ .vmem, ⟨20, _⟩ => ⟨S5000x128, .bf16⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S5000x1, .i32⟩
  | .local _ .vmem, ⟨25, _⟩ => ⟨S5000x1, .i32⟩
  | .local _ .vmem, ⟨26, _⟩ => ⟨S128x32, .f32⟩
  | .local _ .vmem, ⟨27, _⟩ => ⟨S1x32, .f32⟩
  | .local _ .vmem, ⟨28, _⟩ => ⟨S128x1, .f32⟩
  | .local _ .vmem, ⟨29, _⟩ => ⟨S1x1, .f32⟩
  | .local _ .vmem, ⟨30, _⟩ => ⟨S64x32, .f32⟩
  | .local _ .vmem, ⟨31, _⟩ => ⟨S64x1, .f32⟩
  | .local _ .vmem, ⟨32, _⟩ => ⟨S64x128, .f32⟩
  | .local _ .vmem, ⟨33, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_scratch0 : Ref sig .tc := ⟨.vmem, 32, rfl⟩
abbrev cc2_scratch1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v42 : BitVec 1 := Scalar.cmpi .eq arg0 c19_i32
  let v43 : BitVec 32 := Scalar.extui v42
  let c0_i32_21 : BitVec 32 := 0#32
  let v44 : BitVec 1 := Scalar.cmpi .ne v43 c0_i32_21
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S32_S1x32 : S32.ShapeCasts S1x32
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  broadcasts_S64x1_S64x128 : S64x1.Broadcasts S64x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S64x32_S64x32_0_0 : ∀ a, (![0, 0] : Fin 2 → Nat) a + S64x32.size a ≤ S64x32.size a
  h_S64x32 : 0 < S64x32.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S64x1_S64 : S64x1.ShapeCasts S64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x32_S64x32_1_0_0_1_n_n_wf : DotDims.WF S64x128 S128x32 S64x32 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .bf16 = 32 ∨ (Rect.block (s := S100000x128) S5000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .i32 = 32 ∨ (Rect.block (s := S100000x1) S5000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x32.size a ≤ S128x32.size a
  hwx2_5 : ∀ i : grid2.Coords, EltTy.bits .f32 = 32 ∨ (Rect.block (s := S128x32) S128x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x32.size a ≤ S64x32.size a
  hwx2_9 : ∀ i : grid2.Coords, EltTy.bits .f32 = 32 ∨ (Rect.block (s := S64x32) S64x32.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x1.size a ≤ S64x1.size a
  hwx2_10 : ∀ i : grid2.Coords, EltTy.bits .f32 = 32 ∨ (Rect.block (s := S64x1) S64x1.size (cc2_transform_10 i) (hinb2_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v43) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v44_0) S64x32.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v44_1) S64x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev idle2 : Fin 11 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | 10 => fun i => !(k2_cond2 i == 1#1) | ⟨_ + 11, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x32 : Shape := ⟨2, ![64, 32]⟩
abbrev S1x32 : Shape := ⟨2, ![1, 32]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S128x1, .f32⟩
  | 10 => ⟨S1, .f32⟩
  | 11 => ⟨S32, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000x128, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000x1, .f32⟩
  | 48 => ⟨S1600000x128, .f32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x1, .f32⟩
  | 55 => ⟨S100000x128, .f32⟩
  | 56 => ⟨S100000x128, .f32⟩
  | 57 => ⟨S100000, .f32⟩
  | 58 => ⟨S100000x1, .f32⟩
  | 59 => ⟨S100000x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S1600000x1, .f32⟩
  | 88 => ⟨S1600000x128, .f32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x1, .f32⟩
  | 95 => ⟨S100000x128, .f32⟩
  | 96 => ⟨S100000x128, .f32⟩
  | 97 => ⟨S100000, .f32⟩
  | 98 => ⟨S100000x1, .f32⟩
  | 99 => ⟨S100000x128, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S_, .f32⟩
  | 106 => ⟨S100000x128, .f32⟩
  | 107 => ⟨S100000x128, .f32⟩
  | 108 => ⟨S_, .f32⟩
  | 109 => ⟨S100000, .f32⟩
  | 110 => ⟨S_, .f32⟩
  | 111 => ⟨S64, .f32⟩
  | 112 => ⟨S100000x1, .i32⟩
  | 113 => ⟨S64, .f32⟩
  | 114 => ⟨S_, .f32⟩
  | 115 => ⟨S64x128, .f32⟩
  | 116 => ⟨S100000x1, .i32⟩
  | 117 => ⟨S64x128, .f32⟩
  | 118 => ⟨S_, .f32⟩
  | 119 => ⟨S64, .f32⟩
  | 120 => ⟨S64, .f32⟩
  | 121 => ⟨S64x1, .f32⟩
  | 122 => ⟨S64x128, .f32⟩
  | 123 => ⟨S64x128, .f32⟩
  | 124 => ⟨S64x32, .f32⟩
  | 125 => ⟨S1x32, .f32⟩
  | 126 => ⟨S64x32, .f32⟩
  | 127 => ⟨S64x32, .f32⟩
  | _ => ⟨S100000x128, .f32⟩

abbrev hbmTy0_1 (i : Nat) : BufTy := match i % 128 with
  | 0 => ⟨S64x1, .f32⟩
  | 1 => ⟨S1x1, .f32⟩
  | 2 => ⟨S64x1, .f32⟩
  | 3 => ⟨S64x1, .f32⟩
  | 4 => ⟨S64, .f32⟩
  | 5 => ⟨S32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_call0_cst : Ref sig .tc := ⟨.hbm, 65, rfl⟩
abbrev main_call0_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_call1_cst : Ref sig .tc := ⟨.hbm, 105, rfl⟩
abbrev main_call1_v0 : Ref sig .tc := ⟨.hbm, 106, rfl⟩
abbrev main_v77 : Ref sig .tc := ⟨.hbm, 107, rfl⟩
abbrev main_cst_12 : Ref sig .tc := ⟨.hbm, 108, rfl⟩
abbrev main_v78 : Ref sig .tc := ⟨.hbm, 109, rfl⟩
abbrev main_cst_13 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x32_S64x32_1_0_0_1_n_n_wf : DotDims.WF S64x128 S128x32 S64x32 [1] [0] [0] [1] [] []
  dot_S64x128_S128x1_S64x1_1_0_0_1_n_n_wf : DotDims.WF S64x128 S128x1 S64x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.R0.lean ====
/- The frame proof's half for pallas_call 0 (`cc0__dense_scale_kernel`, pipeline `cfg0`: grid 20, four windows), stated at
   a PARAMETER `V` — the TensorCore's buffer contents when the region is entered — and at any `F`.
   Windows 0, 1, 2 are inputs: the row block `t` of `x` (5000×128), the whole of `W` (128×128, block index (0,0) at every
   point, so fetched at the first point only) and the row block `t` of the column `dinv` (5000×1). Window 3 is the one
   output, the row block `t` (5000×128, bf16). The body loads each input's staging buffer whole, loads the output's
   staging buffer whole (the value is not used) and stores one whole-buffer piece, the payload `k0_pay1` of the three
   input loads, into the output's staging buffer. So what it leaves there is a closed function of the three input
   blocks at the point (`out0_3`), and what it finds in an input buffer is that window's block at the point, fetched
   there or not. -/
import proofs.«401564_j70566312673591_2_alg».proof.Proof.Gen.Kernel.Launch
import proofs.«401564_j70566312673591_2_alg».proof.Proof.Gen.Kernel.Skeleton
import proofs.«401564_j70566312673591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` (window 0): its current staging buffer holds the block at every point, for ANY proof data whose
    array is `V`'s (`hA`) and whose body leaves the block in place (`hafter`). The window is uncut and never idle; it is
    fetched at every point, and the statement does not need to know. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of `W` (window 1): its block index is (0,0) at every point, so it is fetched at the first point only; at a
    later point the index has not moved and the buffer still holds the block, which the body left in place. Uncut,
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The row block of the column `dinv` (window 2): as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

/-- The whole of a 5000×128 buffer (the `x` block's, and the output block's). -/
abbrev rRows : Rect S5000x128 := Rect.unit (s := S5000x128) ![0, 0] S5000x128.size inb_S5000x128_S5000x128_0_0
/-- The whole of the 128×128 buffer (`W`'s). -/
abbrev rW : Rect S128x128 := Rect.unit (s := S128x128) ![0, 0] S128x128.size inb_S128x128_S128x128_0_0
/-- The whole of a 5000×1 buffer (the `dinv` block's). -/
abbrev rCol : Rect S5000x1 := Rect.unit (s := S5000x1) ![0, 0] S5000x1.size inb_S5000x1_S5000x1_0_0

/-! ## What the body leaves in the output window's buffer -/

/-- Window 3's staging buffer after the body, from the three input windows' blocks: its one store as a piece, the
    payload taken at the three input loads (the load of the output's own buffer does not enter it). -/
def out0_3 (x0 : Vec F S5000x128 .f32) (x1 : Vec F S128x128 .f32) (x2 : Vec F S5000x1 .f32) : Vec F S5000x128 .bf16 :=
  View.canon [⟨rRows, k0_pay1 (View.ld x0 rRows) (View.ld x1 rW) (View.ld x2 rCol)⟩]

/-- The one store is the whole buffer (one block of the buffer's own size), so it covers it. -/
theorem cover0_3 (p0 : Vec F S5000x128 .bf16) (y : S5000x128.Idx) :
    ∃ pc ∈ ([⟨rRows, p0⟩] : List (View.Piece (Elt F) S5000x128 .bf16)), y ∈ pc.1.set :=
  View.cover_of_tiled [⟨rRows, p0⟩] S5000x128.size (by rfl) y

/-! ## The body's triple -/

set_option maxHeartbeats 1000000 in
/-- The kernel body at any grid point `i`, on whole staging memrefs — the three inputs' at read contents `x0`, `x1`, `x2`
    and the output's at anything —, runs to the continuation holding the inputs' as they were and the output's at
    `out0_3` of the inputs': the printed function is its skeleton, four loads and one store, which the executor runs. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_scale_kernel i arg1 harg1 arg2 harg2 arg3 harg3 arg4 harg4) K := by
  rw [cc0__dense_scale_kernel_eq_skeleton]; unfold cc0__dense_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t` each
    input's buffer at its block and the output's at `out0_3` of the three input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies at the point's
    coordinates; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.R1.lean ====
import proofs.«401564_j70566312673591_2_alg».proof.Proof.Gen.Kernel.Launch
import proofs.«401564_j70566312673591_2_alg».proof.Proof.Gen.Kernel.Skeleton
import proofs.«401564_j70566312673591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The second pallas_call's half of the frame proof, at a PARAMETER `V`: the TensorCore's buffer contents when the
    region is entered. Six windows over a grid of 20 row blocks: the aggregate block, the scaled-feature block and the
    inverse-degree column block move with the point; the bias row and the weight matrix are whole arrays, fetched once;
    the one output is the row block of the result. The body reads every input's staging buffer whole (the column block
    twice), reads the output's staging buffer whole without using the value, and writes the output's staging buffer
    whole. What it leaves there is therefore a closed function of the five input blocks at the point. -/

-- membership in a rectangle of the long axes: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): where the pipeline
    does not fetch, the block index has not moved, and the previous point's block is this point's. The window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): where the pipeline
    does not fetch, the block index has not moved, and the previous point's block is this point's. The window is
    uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): where the pipeline
    does not fetch, the block index has not moved, and the previous point's block is this point's. The window is
    uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`) (its index map is constant: it is fetched at the first point only): where the pipeline
    does not fetch, the block index has not moved, and the previous point's block is this point's. The window is
    uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`) (its index map is constant: it is fetched at the first point only): where the pipeline
    does not fetch, the block index has not moved, and the previous point's block is this point's. The window is
    uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole rectangle of each staging-buffer shape: every access of the body is through one of these. -/
abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 5's staging buffer after the body, from the input windows' blocks: its one store as a piece, the payload
    taking the body's loads in their order (the column block is loaded twice, so it appears twice). -/
def out1_5 (x0 : Vec F S5000x128 .f32) (x1 : Vec F S5000x128 .bf16) (x2 : Vec F S5000x1 .f32) (x3 : Vec F S1x128 .f32) (x4 : Vec F S128x128 .f32) : Vec F S5000x128 .bf16 :=
  View.canon [⟨r1_0, k1_pay1 (View.ld x0 r1_0) (View.ld x1 r1_0) (View.ld x2 r1_1) (View.ld x3 r1_2) (View.ld x4 r1_3) (View.ld x2 r1_1)⟩]

/-- The one store is of the whole buffer, so it covers it. -/
theorem cover1_5 (p0 : Vec F S5000x128 .bf16) (y : S5000x128.Idx) :
    ∃ pc ∈ ([⟨r1_0, p0⟩] : List (View.Piece (Elt F) S5000x128 .bf16)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. The grid coordinate
    `i` is an argument the body never reads. -/
theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_dense_kernel i arg1 harg1 arg2 harg2 arg3 harg3 arg4 harg4 arg5 harg5 arg6 harg6) K := by
  rw [cc1__combine_dense_kernel_eq_skeleton]; unfold cc1__combine_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second pallas_call's pipeline on core `c`: the arrays as the region finds them (`V`); after
    the body at point `t` each input's buffer at its block and the output's at `out1_5` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end
end Cert.Kernel.Hand
-- ==== Proof.K.R2Runs.lean ====
import proofs.«401564_j70566312673591_2_alg».proof.Proof.Gen.Kernel.Launch
import proofs.«401564_j70566312673591_2_alg».proof.Proof.Gen.Kernel.Skeleton
import proofs.«401564_j70566312673591_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2: the body's triple in each of its three control cases

The kernel pools 20 blocks of rows into two scratch accumulators (sums [64,128], counts [64,1]), resetting both at the
first point and computing the two heads from them at the last. Three cases over the grid: A the first point, B the
middle points, C the last. Each triple is stated in closed form over the skeleton's payloads. -/

/-! ## The body's two conditions, in closed form over the grid -/

/-- The condition of the reset (the first `scf.if`, inside the printed part): the point is the first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the heads (the second `scf.if`): the point is the last. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-- The zero offsets of the whole-buffer rectangles, as the constant function. -/
theorem hz2 : (![0, 0] : Fin 2 → Nat) = fun _ => 0 := funext fun a => by fin_cases a <;> rfl

/-- A list of writes whose LAST is through the whole-shape rectangle at zero offsets reads back that write's payload,
    whatever the earlier writes and the prior contents were: the last piece alone covers the shape. -/
theorem read_writes_last_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in
/-- CASE A (the first point: the reset taken, the heads not). On whole memrefs, the five streamed inputs at their contents and the two scratch buffers at anything, the body runs to the continuation holding the inputs as they were, the pooled sums at this block's contribution over the reset's zeros and the counts likewise: each buffer's last store is through its whole rectangle, so it reads back that store's payload, and a load after a whole store of the same run reads that store's payload. -/
theorem sound_kernel2_A (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S128x32 .f32) (harg6 : arg6.IsWhole) (arg7 : Memref sig .tc .vmem S1x32 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S64x32 .f32) (harg10 : arg10.IsWhole) (arg11 : Memref sig .tc .vmem S64x1 .f32) (harg11 : arg11.IsWhole) (arg12 : Memref sig .tc .vmem S64x128 .f32) (harg12 : arg12.IsWhole) (arg13 : Memref sig .tc .vmem S64x1 .f32) (harg13 : arg13.IsWhole) (hc0 : cond2_0 i) (hc1 : ¬cond2_1 i)
    (x0 : Vec F S5000x128 .f32) (x1 : Vec F S5000x128 .bf16) (x2 : Vec F S5000x1 .f32) (x3 : Vec F S1x128 .f32) (x4 : Vec F S5000x1 .i32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg12 fullShare d)
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg12 fullShare (k2_pay9 x0 x1 x2 x3 x4 (k2_pay5 (F := F)))
            ∗ owns (c : Thread nD τ) arg13 fullShare (k2_pay1 (k2_pay7 x4) (k2_pay8 (F := F)) (k2_pay6 (F := F)))) -∗ K ⟨⟩))
      ⊢ wp frame (wpE (defs₀ (F := F)) Variants.none c none) E (cc2__combine_pool_heads_kernel i arg1 harg1 arg2 harg2 arg3 harg3 arg4 harg4 arg5 harg5 arg6 harg6 arg7 harg7 arg8 harg8 arg9 harg9 arg10 harg10 arg11 harg11 arg12 harg12 arg13 harg13) K := by
  simp only [cc2__combine_pool_heads_kernel_eq_skeleton]; unfold cc2__combine_pool_heads_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_run_names
    rw [read_writes_last_whole (S := S64x128) _ _ hz2]
    simp only [View.readAt_eq_ld, harg1.read_unread, harg2.read_unread, harg3.read_unread, harg4.read_unread, harg5.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  iexists _; isplitr
  swap; · iexact HS1
  ipureintro
  sl_unfold_run_names
  rw [read_writes_last_whole (S := S64x1) _ _ hz2]
  simp only [View.readAt_eq_ld, harg1.read_unread, harg2.read_unread, harg3.read_unread, harg4.read_unread, harg5.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]

set_option maxHeartbeats 1000000 in
/-- CASE B (a point neither first nor last). The two scratch buffers come in at what the point before left (xs0, xs1) and go out with this block's contribution added. -/
theorem sound_kernel2_B (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S128x32 .f32) (harg6 : arg6.IsWhole) (arg7 : Memref sig .tc .vmem S1x32 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S64x32 .f32) (harg10 : arg10.IsWhole) (arg11 : Memref sig .tc .vmem S64x1 .f32) (harg11 : arg11.IsWhole) (arg12 : Memref sig .tc .vmem S64x128 .f32) (harg12 : arg12.IsWhole) (arg13 : Memref sig .tc .vmem S64x1 .f32) (harg13 : arg13.IsWhole) (hc0 : ¬cond2_0 i) (hc1 : ¬cond2_1 i)
    (x0 : Vec F S5000x128 .f32) (x1 : Vec F S5000x128 .bf16) (x2 : Vec F S5000x1 .f32) (x3 : Vec F S1x128 .f32) (x4 : Vec F S5000x1 .i32) (xs0 : Vec F S64x128 .f32) (xs1 : Vec F S64x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg12 fullShare xs0
        ∗ owns (c : Thread nD τ) arg13 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg12 fullShare (k2_pay9 x0 x1 x2 x3 x4 xs0)
            ∗ owns (c : Thread nD τ) arg13 fullShare (k2_pay1 (k2_pay7 x4) (k2_pay8 (F := F)) xs1)) -∗ K ⟨⟩))
      ⊢ wp frame (wpE (defs₀ (F := F)) Variants.none c none) E (cc2__combine_pool_heads_kernel i arg1 harg1 arg2 harg2 arg3 harg3 arg4 harg4 arg5 harg5 arg6 harg6 arg7 harg7 arg8 harg8 arg9 harg9 arg10 harg10 arg11 harg11 arg12 harg12 arg13 harg13) K := by
  simp only [cc2__combine_pool_heads_kernel_eq_skeleton]; unfold cc2__combine_pool_heads_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_run_names
    rw [read_writes_last_whole (S := S64x128) _ _ hz2]
    simp only [View.readAt_eq_ld, harg1.read_unread, harg2.read_unread, harg3.read_unread, harg4.read_unread, harg5.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  iexists _; isplitr
  swap; · iexact HS1
  ipureintro
  sl_unfold_run_names
  rw [read_writes_last_whole (S := S64x1) _ _ hz2]
  simp only [View.readAt_eq_ld, harg1.read_unread, harg2.read_unread, harg3.read_unread, harg4.read_unread, harg5.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]

set_option maxHeartbeats 1000000 in
/-- CASE C (the last point: no reset, the heads taken). As case B for the scratch buffers; the two outputs' buffers come in at anything and go out at the heads of the FINAL pooled sums and counts (the loads of the scratch buffers after their stores read those stores' payloads) and the four whole weight windows. -/
theorem sound_kernel2_C (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S128x32 .f32) (harg6 : arg6.IsWhole) (arg7 : Memref sig .tc .vmem S1x32 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S64x32 .f32) (harg10 : arg10.IsWhole) (arg11 : Memref sig .tc .vmem S64x1 .f32) (harg11 : arg11.IsWhole) (arg12 : Memref sig .tc .vmem S64x128 .f32) (harg12 : arg12.IsWhole) (arg13 : Memref sig .tc .vmem S64x1 .f32) (harg13 : arg13.IsWhole) (hc0 : ¬cond2_0 i) (hc1 : cond2_1 i)
    (x0 : Vec F S5000x128 .f32) (x1 : Vec F S5000x128 .bf16) (x2 : Vec F S5000x1 .f32) (x3 : Vec F S1x128 .f32) (x4 : Vec F S5000x1 .i32) (x5 : Vec F S128x32 .f32) (x6 : Vec F S1x32 .f32) (x7 : Vec F S128x1 .f32) (x8 : Vec F S1x1 .f32) (xs0 : Vec F S64x128 .f32) (xs1 : Vec F S64x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ owns (c : Thread nD τ) arg12 fullShare xs0
        ∗ owns (c : Thread nD τ) arg13 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (k2_pay3 (k2_pay1 (k2_pay7 x4) (k2_pay8 (F := F)) xs1) (k2_pay9 x0 x1 x2 x3 x4 xs0) x5 x6)
            ∗ owns (c : Thread nD τ) arg11 fullShare (k2_pay4 (k2_pay1 (k2_pay7 x4) (k2_pay8 (F := F)) xs1) (k2_pay9 x0 x1 x2 x3 x4 xs0) x7 x8)
            ∗ owns (c : Thread nD τ) arg12 fullShare (k2_pay9 x0 x1 x2 x3 x4 xs0)
            ∗ owns (c : Thread nD τ) arg13 fullShare (k2_pay1 (k2_pay7 x4) (k2_pay8 (F := F)) xs1)) -∗ K ⟨⟩))
      ⊢ wp frame (wpE (defs₀ (F := F)) Variants.none c none) E (cc2__combine_pool_heads_kernel i arg1 harg1 arg2 harg2 arg3 harg3 arg4 harg4 arg5 harg5 arg6 harg6 arg7 harg7 arg8 harg8 arg9 harg9 arg10 harg10 arg11 harg11 arg12 harg12 arg13 harg13) K := by
  simp only [cc2__combine_pool_heads_kernel_eq_skeleton]; unfold cc2__combine_pool_heads_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do9, %fo9, -, HO9⟩, ⟨%do10, %fo10, -, HO10⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HO9]
  · iexists _; isplitr
    swap; · iexact HO9
    ipureintro
    sl_unfold_run_names
    rw [read_writes_last_whole (S := S64x32) _ _ hz2]
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  isplitl [HO10]
  · iexists _; isplitr
    swap; · iexact HO10
    ipureintro
    sl_unfold_run_names
    rw [read_writes_last_whole (S := S64x1) _ _ hz2]
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  isplitl [HS0]
  · iexists _; isplitr
    swap; · iexact HS0
    ipureintro
    sl_unfold_run_names
    rw [read_writes_last_whole (S := S64x128) _ _ hz2]
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  iexists _; isplitr
  swap; · iexact HS1
  ipureintro
  sl_unfold_run_names
  rw [read_writes_last_whole (S := S64x1) _ _ hz2]
  simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]

end Cert.Kernel.Hand

end
-- ==== Proof.K.R2.lean ====
import proofs.«401564_j70566312673591_2_alg».proof.Proof.K.R2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2's half of the frame proof, at the region-entry contents `V`

The windows' blocks, the two scratch accumulators point by point (`pool2`), the invariant that carries both between
points (`PhiS2`), the proof data (`dat2`), the body obligation by cases on the closed forms of the body's two
conditions (first point / middle points / last point), the invariant from and back to the class's, and what the last
point leaves in the two outputs' buffers. -/

section
-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (a window whose
    block index does not move is fetched at the first point only, and the block it holds is still this point's), for
    ANY proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The two scratch accumulators, point by point -/

/-- The two scratch buffers after point n: (pooled sums [64,128], counts [64,1]). At the first point the reset's
    zeros take this block's contribution; afterwards what the point before left does. -/
def pool2 (c : Dev nD) : (n : ℕ) → n < cfg2.N → Vec F S64x128 .f32 × Vec F S64x1 .f32
  | 0, h => (k2_pay9 (iblk2 V c 0 ⟨0, h⟩) (iblk2 V c 1 ⟨0, h⟩) (iblk2 V c 2 ⟨0, h⟩) (iblk2 V c 3 ⟨0, h⟩) (iblk2 V c 4 ⟨0, h⟩) (k2_pay5 (F := F)),
      k2_pay1 (k2_pay7 (iblk2 V c 4 ⟨0, h⟩)) (k2_pay8 (F := F)) (k2_pay6 (F := F)))
  | n + 1, h => (k2_pay9 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (pool2 c n (Nat.lt_of_succ_lt h)).1,
      k2_pay1 (k2_pay7 (iblk2 V c 4 ⟨n + 1, h⟩)) (k2_pay8 (F := F)) (pool2 c n (Nat.lt_of_succ_lt h)).2)

theorem pool2_zero (c : Dev nD) (h : 0 < cfg2.N) :
    pool2 V c 0 h = (k2_pay9 (iblk2 V c 0 ⟨0, h⟩) (iblk2 V c 1 ⟨0, h⟩) (iblk2 V c 2 ⟨0, h⟩) (iblk2 V c 3 ⟨0, h⟩) (iblk2 V c 4 ⟨0, h⟩) (k2_pay5 (F := F)),
      k2_pay1 (k2_pay7 (iblk2 V c 4 ⟨0, h⟩)) (k2_pay8 (F := F)) (k2_pay6 (F := F))) := rfl

theorem pool2_succ (c : Dev nD) (n : ℕ) (h : n + 1 < cfg2.N) :
    pool2 V c (n + 1) h = (k2_pay9 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (pool2 V c n (by omega)).1,
      k2_pay1 (k2_pay7 (iblk2 V c 4 ⟨n + 1, h⟩)) (k2_pay8 (F := F)) (pool2 V c n (by omega)).2) := rfl

/-- `pool2` at the first point, stated at a point of the grid. -/
theorem pool2_first (c : Dev nD) (t : Fin cfg2.N) (ht : t.val = 0) :
    pool2 V c t.val t.isLt = (k2_pay9 (iblk2 V c 0 t) (iblk2 V c 1 t) (iblk2 V c 2 t) (iblk2 V c 3 t) (iblk2 V c 4 t) (k2_pay5 (F := F)),
      k2_pay1 (k2_pay7 (iblk2 V c 4 t)) (k2_pay8 (F := F)) (k2_pay6 (F := F))) := by
  obtain ⟨n, hn⟩ := t
  cases n with
  | zero => rfl
  | succ n => exact absurd ht (Nat.succ_ne_zero n)

/-- `pool2` at a later point, over what the point before left. -/
theorem pool2_later (c : Dev nD) (t : Fin cfg2.N) (ht : t.val ≠ 0) :
    pool2 V c t.val t.isLt = (k2_pay9 (iblk2 V c 0 t) (iblk2 V c 1 t) (iblk2 V c 2 t) (iblk2 V c 3 t) (iblk2 V c 4 t) (pool2 V c (t.val - 1) (Nat.lt_of_le_of_lt (Nat.sub_le _ _) t.isLt)).1,
      k2_pay1 (k2_pay7 (iblk2 V c 4 t)) (k2_pay8 (F := F)) (pool2 V c (t.val - 1) (Nat.lt_of_le_of_lt (Nat.sub_le _ _) t.isLt)).2) := by
  obtain ⟨n, hn⟩ := t
  cases n with
  | zero => exact absurd rfl ht
  | succ n => rfl

/-! ## The invariant -/

/-- The scratch operands: whole scoped buffers of the kernel's own, passed beside the windows. -/
abbrev scM2_0 : Memref sig .tc .vmem S64x128 .f32 := Memref.whole cc2_scratch0
abbrev scM2_1 : Memref sig .tc .vmem S64x1 .f32 := Memref.whole cc2_scratch1

/-- The core's scoped buffers that are neither staging buffers of this call nor its scratch: the other two calls'
    staging buffers, each whole at some contents. The body touches none of them. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class's invariant with the two scratch operands as memrefs owned at some contents, the other scoped buffers
    apart: what the body obligation hands the body at the first point. -/
theorem PhiA2_eq (c : Dev nD) :
    (Pipeline.ΦA spec2 c : sProp 𝕄)
      = iprop((others2 (F := F) c ∗ (∃ d, owns (c : Thread nD τ) scM2_0 fullShare d) ∗ (∃ d, owns (c : Thread nD τ) scM2_1 fullShare d)) ∗ (∃ r, prngReg c r)) := by
  unfold Pipeline.ΦA others2; rw [scopedRest2_eq]; simp only [scM2_0, scM2_1, owns_whole]
  refine Idealize.SL.BI.equiv_iff.mp ⟨?_, ?_⟩
  · show (_ : sProp 𝕄) ⊢ _
    iintro ⟨⟨R1, R2, R3, R4, R5, R6, R7, R8, R9, R10, R11, R12, R13, R14, R15, R16, R17, H0, H1⟩, Hg⟩
    isplitr [Hg]
    · isplitl [R1 R2 R3 R4 R5 R6 R7 R8 R9 R10 R11 R12 R13 R14 R15 R16 R17]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        iexact R17
      isplitl [H0]; · iexact H0
      iexact H1
    iexact Hg
  · show (_ : sProp 𝕄) ⊢ _
    iintro ⟨⟨⟨R1, R2, R3, R4, R5, R6, R7, R8, R9, R10, R11, R12, R13, R14, R15, R16, R17⟩, H0, H1⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [H0]; · iexact H0
      iexact H1
    iexact Hg

/-- The region invariant before position `n`: before the first point the class's (every scratch at anything);
    afterwards the scoped rest with BOTH scratch accumulators at what the point before left in them, the other scoped
    buffers at anything, and the generator register at some state. -/
def PhiS2 (c : Dev nD) : (n : ℕ) → n ≤ cfg2.N → sProp 𝕄
  | 0, _ => Pipeline.ΦA spec2 c
  | n + 1, hn => iprop((others2 (F := F) c ∗ owns (c : Thread nD τ) scM2_0 fullShare ((pool2 V c n hn).1) ∗ owns (c : Thread nD τ) scM2_1 fullShare ((pool2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((others2 (F := F) c ∗ owns (c : Thread nD τ) scM2_0 fullShare ((pool2 V c n hn).1) ∗ owns (c : Thread nD τ) scM2_1 fullShare ((pool2 V c n hn).2)) ∗ (∃ r, prngReg c r)) := rfl

theorem PhiS2_pos (c : Dev nD) (n : ℕ) (h : n ≤ cfg2.N) (hz : n ≠ 0) :
    PhiS2 V c n h = iprop((others2 (F := F) c ∗ owns (c : Thread nD τ) scM2_0 fullShare ((pool2 V c (n - 1) (by omega)).1) ∗ owns (c : Thread nD τ) scM2_1 fullShare ((pool2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, each output's at the head of the accumulators as they then stand (what the LAST
    point stores: at the other points the window is idle and not written back, and nothing consults the entry); the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => k2_pay3 (pool2 V c t.val t.isLt).2 (pool2 V c t.val t.isLt).1 (iblk2 V c 5 t) (iblk2 V c 6 t)
    | ⟨10, _⟩ => k2_pay4 (pool2 V c t.val t.isLt).2 (pool2 V c t.val t.isLt).1 (iblk2 V c 7 t) (iblk2 V c 8 t)
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = k2_pay3 (pool2 V c t.val t.isLt).2 (pool2 V c t.val t.isLt).1 (iblk2 V c 5 t) (iblk2 V c 6 t) := by dsimp only [dat2]
theorem after2_10 (c : Dev nD) (t : Fin cfg2.N) : (dat2 V c).after 10 t = k2_pay4 (pool2 V c t.val t.isLt).2 (pool2 V c t.val t.isLt).1 (iblk2 V c 7 t) (iblk2 V c 8 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## Where the outputs are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
/-- Off the last point the printed configuration calls both outputs idle, and the pipeline does not write them back. -/
theorem idleAt2_9 : ∀ t : Fin cfg2.N, ¬cond2_1 (grid2.coords t) → cfg2.idle 9 (grid2.coords t) = true := by decide +kernel
theorem idleAt2_10 : ∀ t : Fin cfg2.N, ¬cond2_1 (grid2.coords t) → cfg2.idle 10 (grid2.coords t) = true := by decide +kernel
theorem noFlush2_9 : ∀ t : Fin cfg2.N, ¬cond2_1 (grid2.coords t) → (cfg2.win 9).flush t = false := by decide +kernel
theorem noFlush2_10 : ∀ t : Fin cfg2.N, ¬cond2_1 (grid2.coords t) → (cfg2.win 10).flush t = false := by decide +kernel
/-- At the last point both are live. -/
theorem liveAt2_9 : ∀ t : Fin cfg2.N, cond2_1 (grid2.coords t) → cfg2.idle 9 (grid2.coords t) = false := by decide +kernel
theorem liveAt2_10 : ∀ t : Fin cfg2.N, cond2_1 (grid2.coords t) → cfg2.idle 10 (grid2.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 4800000 in
/-- The body at any point: the inputs' memrefs hold their blocks; the closed forms of the two conditions say which case
    the point is in, so that case's triple applies; the invariant hands the body the two scratch accumulators at what the
    point before left (at anything at the first point), the other scoped buffers and the generator register pass through
    untouched, and it takes the accumulators back at this point's contents; off the last point the outputs' buffers are
    handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  by_cases h0 : t.val % 20 = 0
  · have h1 : ¬t.val % 20 = 19 := by omega
    have hz : t.val = 0 := by omega
    have hc0 : cond2_0 (grid2.coords t) := (hcond2_0 t).mpr h0
    have hc1 : ¬cond2_1 (grid2.coords t) := fun h => h1 ((hcond2_1 t).mp h)
    rw [Dat.leavesExact_idle (dat2 V c) 9 t (idleAt2_9 t hc1) (noFlush2_9 t hc1), Dat.leavesExact_idle (dat2 V c) 10 t (idleAt2_10 t hc1) (noFlush2_10 t hc1)]
    rw [pool2_first V c t hz]
    rw [PhiS2_castSucc V c t, PhiS2_zero V c _ _ hz, PhiA2_eq]
    iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2_A c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HR HS0 HS1 Hg]
    · isplitl [HR HS0 HS1]
      · isplitl [HR]; · iexact HR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hz : t.val ≠ 0 := by omega
    have hc0 : ¬cond2_0 (grid2.coords t) := fun h => h0 ((hcond2_0 t).mp h)
    by_cases h1 : t.val % 20 = 19
    · have hc1 : cond2_1 (grid2.coords t) := (hcond2_1 t).mpr h1
      rw [show (dat2 V c).leavesExact 9 t = owns (c : Thread nD τ) (st2_9 t) fullShare ((dat2 V c).after 9 t) from by
        unfold Dat.leavesExact; rw [liveAt2_9 t hc1], after2_9]
      rw [show (dat2 V c).leavesExact 10 t = owns (c : Thread nD τ) (st2_10 t) fullShare ((dat2 V c).after 10 t) from by
        unfold Dat.leavesExact; rw [liveAt2_10 t hc1], after2_10]
      rw [pool2_later V c t hz]
      rw [PhiS2_castSucc V c t, PhiS2_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_C c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬cond2_1 (grid2.coords t) := fun h => h1 ((hcond2_1 t).mp h)
      rw [Dat.leavesExact_idle (dat2 V c) 9 t (idleAt2_9 t hc1) (noFlush2_9 t hc1), Dat.leavesExact_idle (dat2 V c) 10 t (idleAt2_10 t hc1) (noFlush2_10 t hc1)]
      rw [pool2_later V c t hz]
      rw [PhiS2_castSucc V c t, PhiS2_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_B c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HR, HS0, HS1⟩, Hg⟩
  isplitl [HR HS0 HS1]
  · isplitl [HR]; · iexact HR
    isplitl [HS0]; · iexists _; iexact HS0
    iexists _; iexact HS1
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 20 := N_2; omega)

/-! ## What the last point leaves in the two outputs' buffers -/

theorem lt19 : 19 < cfg2.N := lt_of_lt_of_eq (by omega : 19 < 20) N_2.symm

/-- Output 9 after the last point: the first head of the FINAL accumulators. -/
theorem after2_9_last (c : Dev nD) (t : Fin cfg2.N) (ht : t.val = 19) :
    (dat2 V c).after 9 t = k2_pay3 (pool2 V c 19 lt19).2 (pool2 V c 19 lt19).1 (iblk2 V c 5 t) (iblk2 V c 6 t) := by
  rw [after2_9]
  obtain ⟨n, hn⟩ := t
  have hn' : n = 19 := ht
  subst hn'; rfl

/-- Output 10 after the last point: the second head of the FINAL accumulators. -/
theorem after2_10_last (c : Dev nD) (t : Fin cfg2.N) (ht : t.val = 19) :
    (dat2 V c).after 10 t = k2_pay4 (pool2 V c 19 lt19).2 (pool2 V c 19 lt19).1 (iblk2 V c 7 t) (iblk2 V c 8 t) := by
  rw [after2_10]
  obtain ⟨n, hn⟩ := t
  have hn' : n = 19 := ht
  subst hn'; rfl

end

end Cert.Kernel.Hand

end
-- ==== Proof.K.Run.lean ====
/-
  The program's run from launch to return: host operations, the dense transform, host operations, the fused combine and dense transform,
  host operations, the fused combine, pooling and heads, host operations. The buffers' contents at each boundary are a fold from the launch
  memory: a host stretch applies its operations; a kernel region replaces its windows' arrays by what its write-backs leave and keeps every
  other buffer. Every weakly fair execution terminates without a fault, and the final memory holds every unscoped buffer at the last
  boundary's contents; no item writes an argument array, so each argument ends as launched.
-/
import proofs.«401564_j70566312673591_2_alg».proof.Proof.K.R0
import proofs.«401564_j70566312673591_2_alg».proof.Proof.K.R1
import proofs.«401564_j70566312673591_2_alg».proof.Proof.K.R2
import proofs.«401564_j70566312673591_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the edge lists, the degrees and the normalisation weights). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- What pallas_call 0 leaves: its windows' arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (layer 1's gather and scatter-add). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- What pallas_call 1 leaves: its windows' arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (layer 2's gather and scatter-add). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- What pallas_call 2 leaves: its windows' arrays at what the write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch (the value head's column made a vector, the exponential of the log-deviations). -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_in m ρ c 0 rfl
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_in m ρ c 1 rfl
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_in m ρ c 4 rfl
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_in m ρ c 5 rfl
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_in m ρ c 7 rfl
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state the last region leaves, without the owes. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Pallas_call 0 as a segment: entered with every unscoped buffer at the contents before it, left with them at the contents after it; its arrays are
    split out of the unscoped buffers and put back at the exit contents, the generator register goes into the region's invariant and comes back,
    nothing is owed, the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at the contents before it, left with them at the contents after it; its arrays are
    split out of the unscoped buffers and put back at the exit contents, the generator register goes into the region's invariant and comes back,
    nothing is owed, the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at the contents before it, left with them at the contents after it; its arrays are
    split out of the unscoped buffers and put back at the exit contents, the generator register goes into the region's invariant and comes back,
    nothing is owed, the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

/-- The thread state at the return, without the owes: every unscoped buffer at the last boundary's contents, the generator register at some state. -/
abbrev Tend (c : Dev nD) : sProp 𝕄 := iprop(StableHlo.held (c : Thread nD τ) (Pipeline.ucRefs τ sig) (W7 m ρ c) ∗ ∃ r, prngReg c r)

set_option backward.isDefEq.respectTransparency.types false in
/-- THE RUN: from any memory with zero counters every weakly fair execution of @main terminates, nothing faulting, and the final memory holds
    every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tend m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run m ρ)

end Cert.Kernel.Hand

end
-- ==== Proof.KI.R0.lean ====
/- The frame proof's half for pallas_call 0 (`cc0__dense_scale_kernel`, pipeline `cfg0`: grid 20, four windows), stated at
   a PARAMETER `V` — the TensorCore's buffer contents when the region is entered — and at any `F`.
   Windows 0, 1, 2 are inputs: the row block `t` of `x` (5000×128), the whole of `W` (128×128, block index (0,0) at every
   point, so fetched at the first point only) and the row block `t` of the column `dinv` (5000×1). Window 3 is the one
   output, the row block `t` (5000×128, bf16). The body loads each input's staging buffer whole, loads the output's
   staging buffer whole (the value is not used) and stores one whole-buffer piece, the payload `k0_pay1` of the three
   input loads, into the output's staging buffer. So what it leaves there is a closed function of the three input
   blocks at the point (`out0_3`), and what it finds in an input buffer is that window's block at the point, fetched
   there or not. -/
import proofs.«401564_j70566312673591_2_alg».proof.Proof.Gen.KernelIdeal.Launch
import proofs.«401564_j70566312673591_2_alg».proof.Proof.Gen.KernelIdeal.Skeleton
import proofs.«401564_j70566312673591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 5000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of `x` (window 0): its current staging buffer holds the block at every point, for ANY proof data whose
    array is `V`'s (`hA`) and whose body leaves the block in place (`hafter`). The window is uncut and never idle; it is
    fetched at every point, and the statement does not need to know. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole of `W` (window 1): its block index is (0,0) at every point, so it is fetched at the first point only; at a
    later point the index has not moved and the buffer still holds the block, which the body left in place. Uncut,
    never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The row block of the column `dinv` (window 2): as window 0. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

/-- The whole of a 5000×128 buffer (the `x` block's, and the output block's). -/
abbrev rRows : Rect S5000x128 := Rect.unit (s := S5000x128) ![0, 0] S5000x128.size inb_S5000x128_S5000x128_0_0
/-- The whole of the 128×128 buffer (`W`'s). -/
abbrev rW : Rect S128x128 := Rect.unit (s := S128x128) ![0, 0] S128x128.size inb_S128x128_S128x128_0_0
/-- The whole of a 5000×1 buffer (the `dinv` block's). -/
abbrev rCol : Rect S5000x1 := Rect.unit (s := S5000x1) ![0, 0] S5000x1.size inb_S5000x1_S5000x1_0_0

/-! ## What the body leaves in the output window's buffer -/

/-- Window 3's staging buffer after the body, from the three input windows' blocks: its one store as a piece, the
    payload taken at the three input loads (the load of the output's own buffer does not enter it). -/
def out0_3 (x0 : Vec F S5000x128 .f32) (x1 : Vec F S128x128 .f32) (x2 : Vec F S5000x1 .f32) : Vec F S5000x128 .bf16 :=
  View.canon [⟨rRows, k0_pay1 (View.ld x0 rRows) (View.ld x1 rW) (View.ld x2 rCol)⟩]

/-- The one store is the whole buffer (one block of the buffer's own size), so it covers it. -/
theorem cover0_3 (p0 : Vec F S5000x128 .bf16) (y : S5000x128.Idx) :
    ∃ pc ∈ ([⟨rRows, p0⟩] : List (View.Piece (Elt F) S5000x128 .bf16)), y ∈ pc.1.set :=
  View.cover_of_tiled [⟨rRows, p0⟩] S5000x128.size (by rfl) y

/-! ## The body's triple -/

set_option maxHeartbeats 1000000 in
/-- The kernel body at any grid point `i`, on whole staging memrefs — the three inputs' at read contents `x0`, `x1`, `x2`
    and the output's at anything —, runs to the continuation holding the inputs' as they were and the output's at
    `out0_3` of the inputs': the printed function is its skeleton, four loads and one store, which the executor runs. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .bf16) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dense_scale_kernel i arg1 harg1 arg2 harg2 arg3 harg3 arg4 harg4) K := by
  rw [cc0__dense_scale_kernel_eq_skeleton]; unfold cc0__dense_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t` each
    input's buffer at its block and the output's at `out0_3` of the three input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies at the point's
    coordinates; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1.lean ====
import proofs.«401564_j70566312673591_2_alg».proof.Proof.Gen.KernelIdeal.Launch
import proofs.«401564_j70566312673591_2_alg».proof.Proof.Gen.KernelIdeal.Skeleton
import proofs.«401564_j70566312673591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The second pallas_call's half of the frame proof, at a PARAMETER `V`: the TensorCore's buffer contents when the
    region is entered. Six windows over a grid of 20 row blocks: the aggregate block, the scaled-feature block and the
    inverse-degree column block move with the point; the bias row and the weight matrix are whole arrays, fetched once;
    the one output is the row block of the result. The body reads every input's staging buffer whole (the column block
    twice), reads the output's staging buffer whole without using the value, and writes the output's staging buffer
    whole. What it leaves there is therefore a closed function of the five input blocks at the point. -/

-- membership in a rectangle of the long axes: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): where the pipeline
    does not fetch, the block index has not moved, and the previous point's block is this point's. The window is
    uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): where the pipeline
    does not fetch, the block index has not moved, and the previous point's block is this point's. The window is
    uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): where the pipeline
    does not fetch, the block index has not moved, and the previous point's block is this point's. The window is
    uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for ANY proof
    data whose array is `V`'s (`hA`) and whose body leaves the block in place (`hafter`) (its index map is constant: it is fetched at the first point only): where the pipeline
    does not fetch, the block index has not moved, and the previous point's block is this point's. The window is
    uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for ANY proof
    data whose array is `V`'s (`hA`) and whose body leaves the block in place (`hafter`) (its index map is constant: it is fetched at the first point only): where the pipeline
    does not fetch, the block index has not moved, and the previous point's block is this point's. The window is
    uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole rectangle of each staging-buffer shape: every access of the body is through one of these. -/
abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 5's staging buffer after the body, from the input windows' blocks: its one store as a piece, the payload
    taking the body's loads in their order (the column block is loaded twice, so it appears twice). -/
def out1_5 (x0 : Vec F S5000x128 .f32) (x1 : Vec F S5000x128 .bf16) (x2 : Vec F S5000x1 .f32) (x3 : Vec F S1x128 .f32) (x4 : Vec F S128x128 .f32) : Vec F S5000x128 .bf16 :=
  View.canon [⟨r1_0, k1_pay1 (View.ld x0 r1_0) (View.ld x1 r1_0) (View.ld x2 r1_1) (View.ld x3 r1_2) (View.ld x4 r1_3) (View.ld x2 r1_1)⟩]

/-- The one store is of the whole buffer, so it covers it. -/
theorem cover1_5 (p0 : Vec F S5000x128 .bf16) (y : S5000x128.Idx) :
    ∃ pc ∈ ([⟨r1_0, p0⟩] : List (View.Piece (Elt F) S5000x128 .bf16)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to
    the continuation holding the inputs' as they were and the output's at `out1_5` of the inputs'. The grid coordinate
    `i` is an argument the body never reads. -/
theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S5000x1 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S5000x128 .bf16) (harg6 : arg6.IsWhole)
    (x0 : Vec F S5000x128 .f32) (x1 : Vec F S5000x128 .bf16) (x2 : Vec F S5000x1 .f32) (x3 : Vec F S1x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__combine_dense_kernel i arg1 harg1 arg2 harg2 arg3 harg3 arg4 harg4 arg5 harg5 arg6 harg6) K := by
  rw [cc1__combine_dense_kernel_eq_skeleton]; unfold cc1__combine_dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second pallas_call's pipeline on core `c`: the arrays as the region finds them (`V`); after
    the body at point `t` each input's buffer at its block and the output's at `out1_5` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's owed count pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end
end Cert.KernelIdeal.Hand
-- ==== Proof.KI.R2Runs.lean ====
import proofs.«401564_j70566312673591_2_alg».proof.Proof.Gen.KernelIdeal.Launch
import proofs.«401564_j70566312673591_2_alg».proof.Proof.Gen.KernelIdeal.Skeleton
import proofs.«401564_j70566312673591_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2: the body's triple in each of its three control cases

The kernel pools 20 blocks of rows into two scratch accumulators (sums [64,128], counts [64,1]), resetting both at the
first point and computing the two heads from them at the last. Three cases over the grid: A the first point, B the
middle points, C the last. Each triple is stated in closed form over the skeleton's payloads. -/

/-! ## The body's two conditions, in closed form over the grid -/

/-- The condition of the reset (the first `scf.if`, inside the printed part): the point is the first. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- The condition of the heads (the second `scf.if`): the point is the last. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-- The zero offsets of the whole-buffer rectangles, as the constant function. -/
theorem hz2 : (![0, 0] : Fin 2 → Nat) = fun _ => 0 := funext fun a => by fin_cases a <;> rfl

/-- A list of writes whose LAST is through the whole-shape rectangle at zero offsets reads back that write's payload,
    whatever the earlier writes and the prior contents were: the last piece alone covers the shape. -/
theorem read_writes_last_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, View.mem_set_unit_zero h inb y⟩)).trans
    (View.canon_cons_unit_zero h inb w L)

set_option maxHeartbeats 1000000 in
/-- CASE A (the first point: the reset taken, the heads not). On whole memrefs, the five streamed inputs at their contents and the two scratch buffers at anything, the body runs to the continuation holding the inputs as they were, the pooled sums at this block's contribution over the reset's zeros and the counts likewise: each buffer's last store is through its whole rectangle, so it reads back that store's payload, and a load after a whole store of the same run reads that store's payload. -/
theorem sound_kernel2_A (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S128x32 .f32) (harg6 : arg6.IsWhole) (arg7 : Memref sig .tc .vmem S1x32 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S64x32 .f32) (harg10 : arg10.IsWhole) (arg11 : Memref sig .tc .vmem S64x1 .f32) (harg11 : arg11.IsWhole) (arg12 : Memref sig .tc .vmem S64x128 .f32) (harg12 : arg12.IsWhole) (arg13 : Memref sig .tc .vmem S64x1 .f32) (harg13 : arg13.IsWhole) (hc0 : cond2_0 i) (hc1 : ¬cond2_1 i)
    (x0 : Vec F S5000x128 .f32) (x1 : Vec F S5000x128 .bf16) (x2 : Vec F S5000x1 .f32) (x3 : Vec F S1x128 .f32) (x4 : Vec F S5000x1 .i32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg12 fullShare d)
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg12 fullShare (k2_pay9 x0 x1 x2 x3 x4 (k2_pay5 (F := F)))
            ∗ owns (c : Thread nD τ) arg13 fullShare (k2_pay1 (k2_pay7 x4) (k2_pay8 (F := F)) (k2_pay6 (F := F)))) -∗ K ⟨⟩))
      ⊢ wp frame (wpE (defs₀ (F := F)) Variants.none c none) E (cc2__combine_pool_heads_kernel i arg1 harg1 arg2 harg2 arg3 harg3 arg4 harg4 arg5 harg5 arg6 harg6 arg7 harg7 arg8 harg8 arg9 harg9 arg10 harg10 arg11 harg11 arg12 harg12 arg13 harg13) K := by
  simp only [cc2__combine_pool_heads_kernel_eq_skeleton]; unfold cc2__combine_pool_heads_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_run_names
    rw [read_writes_last_whole (S := S64x128) _ _ hz2]
    simp only [View.readAt_eq_ld, harg1.read_unread, harg2.read_unread, harg3.read_unread, harg4.read_unread, harg5.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  iexists _; isplitr
  swap; · iexact HS1
  ipureintro
  sl_unfold_run_names
  rw [read_writes_last_whole (S := S64x1) _ _ hz2]
  simp only [View.readAt_eq_ld, harg1.read_unread, harg2.read_unread, harg3.read_unread, harg4.read_unread, harg5.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]

set_option maxHeartbeats 1000000 in
/-- CASE B (a point neither first nor last). The two scratch buffers come in at what the point before left (xs0, xs1) and go out with this block's contribution added. -/
theorem sound_kernel2_B (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S128x32 .f32) (harg6 : arg6.IsWhole) (arg7 : Memref sig .tc .vmem S1x32 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S64x32 .f32) (harg10 : arg10.IsWhole) (arg11 : Memref sig .tc .vmem S64x1 .f32) (harg11 : arg11.IsWhole) (arg12 : Memref sig .tc .vmem S64x128 .f32) (harg12 : arg12.IsWhole) (arg13 : Memref sig .tc .vmem S64x1 .f32) (harg13 : arg13.IsWhole) (hc0 : ¬cond2_0 i) (hc1 : ¬cond2_1 i)
    (x0 : Vec F S5000x128 .f32) (x1 : Vec F S5000x128 .bf16) (x2 : Vec F S5000x1 .f32) (x3 : Vec F S1x128 .f32) (x4 : Vec F S5000x1 .i32) (xs0 : Vec F S64x128 .f32) (xs1 : Vec F S64x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg12 fullShare xs0
        ∗ owns (c : Thread nD τ) arg13 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg12 fullShare (k2_pay9 x0 x1 x2 x3 x4 xs0)
            ∗ owns (c : Thread nD τ) arg13 fullShare (k2_pay1 (k2_pay7 x4) (k2_pay8 (F := F)) xs1)) -∗ K ⟨⟩))
      ⊢ wp frame (wpE (defs₀ (F := F)) Variants.none c none) E (cc2__combine_pool_heads_kernel i arg1 harg1 arg2 harg2 arg3 harg3 arg4 harg4 arg5 harg5 arg6 harg6 arg7 harg7 arg8 harg8 arg9 harg9 arg10 harg10 arg11 harg11 arg12 harg12 arg13 harg13) K := by
  simp only [cc2__combine_pool_heads_kernel_eq_skeleton]; unfold cc2__combine_pool_heads_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [HS0]
  · iexists _; isplitr
    swap; · iexact HS0
    ipureintro
    sl_unfold_run_names
    rw [read_writes_last_whole (S := S64x128) _ _ hz2]
    simp only [View.readAt_eq_ld, harg1.read_unread, harg2.read_unread, harg3.read_unread, harg4.read_unread, harg5.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  iexists _; isplitr
  swap; · iexact HS1
  ipureintro
  sl_unfold_run_names
  rw [read_writes_last_whole (S := S64x1) _ _ hz2]
  simp only [View.readAt_eq_ld, harg1.read_unread, harg2.read_unread, harg3.read_unread, harg4.read_unread, harg5.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]

set_option maxHeartbeats 1000000 in
/-- CASE C (the last point: no reset, the heads taken). As case B for the scratch buffers; the two outputs' buffers come in at anything and go out at the heads of the FINAL pooled sums and counts (the loads of the scratch buffers after their stores read those stores' payloads) and the four whole weight windows. -/
theorem sound_kernel2_C (c : Dev nD) (E : Set ℕ) (i : grid2.Coords) (arg1 : Memref sig .tc .vmem S5000x128 .f32) (harg1 : arg1.IsWhole) (arg2 : Memref sig .tc .vmem S5000x128 .bf16) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x1 .i32) (harg5 : arg5.IsWhole) (arg6 : Memref sig .tc .vmem S128x32 .f32) (harg6 : arg6.IsWhole) (arg7 : Memref sig .tc .vmem S1x32 .f32) (harg7 : arg7.IsWhole) (arg8 : Memref sig .tc .vmem S128x1 .f32) (harg8 : arg8.IsWhole) (arg9 : Memref sig .tc .vmem S1x1 .f32) (harg9 : arg9.IsWhole) (arg10 : Memref sig .tc .vmem S64x32 .f32) (harg10 : arg10.IsWhole) (arg11 : Memref sig .tc .vmem S64x1 .f32) (harg11 : arg11.IsWhole) (arg12 : Memref sig .tc .vmem S64x128 .f32) (harg12 : arg12.IsWhole) (arg13 : Memref sig .tc .vmem S64x1 .f32) (harg13 : arg13.IsWhole) (hc0 : ¬cond2_0 i) (hc1 : cond2_1 i)
    (x0 : Vec F S5000x128 .f32) (x1 : Vec F S5000x128 .bf16) (x2 : Vec F S5000x1 .f32) (x3 : Vec F S1x128 .f32) (x4 : Vec F S5000x1 .i32) (x5 : Vec F S128x32 .f32) (x6 : Vec F S1x32 .f32) (x7 : Vec F S128x1 .f32) (x8 : Vec F S1x1 .f32) (xs0 : Vec F S64x128 .f32) (xs1 : Vec F S64x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ (∃ d, owns (c : Thread nD τ) arg10 fullShare d)
        ∗ (∃ d, owns (c : Thread nD τ) arg11 fullShare d)
        ∗ owns (c : Thread nD τ) arg12 fullShare xs0
        ∗ owns (c : Thread nD τ) arg13 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare (k2_pay3 (k2_pay1 (k2_pay7 x4) (k2_pay8 (F := F)) xs1) (k2_pay9 x0 x1 x2 x3 x4 xs0) x5 x6)
            ∗ owns (c : Thread nD τ) arg11 fullShare (k2_pay4 (k2_pay1 (k2_pay7 x4) (k2_pay8 (F := F)) xs1) (k2_pay9 x0 x1 x2 x3 x4 xs0) x7 x8)
            ∗ owns (c : Thread nD τ) arg12 fullShare (k2_pay9 x0 x1 x2 x3 x4 xs0)
            ∗ owns (c : Thread nD τ) arg13 fullShare (k2_pay1 (k2_pay7 x4) (k2_pay8 (F := F)) xs1)) -∗ K ⟨⟩))
      ⊢ wp frame (wpE (defs₀ (F := F)) Variants.none c none) E (cc2__combine_pool_heads_kernel i arg1 harg1 arg2 harg2 arg3 harg3 arg4 harg4 arg5 harg5 arg6 harg6 arg7 harg7 arg8 harg8 arg9 harg9 arg10 harg10 arg11 harg11 arg12 harg12 arg13 harg13) K := by
  simp only [cc2__combine_pool_heads_kernel_eq_skeleton]; unfold cc2__combine_pool_heads_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%do9, %fo9, -, HO9⟩, ⟨%do10, %fo10, -, HO10⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [HO9]
  · iexists _; isplitr
    swap; · iexact HO9
    ipureintro
    sl_unfold_run_names
    rw [read_writes_last_whole (S := S64x32) _ _ hz2]
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  isplitl [HO10]
  · iexists _; isplitr
    swap; · iexact HO10
    ipureintro
    sl_unfold_run_names
    rw [read_writes_last_whole (S := S64x1) _ _ hz2]
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  isplitl [HS0]
  · iexists _; isplitr
    swap; · iexact HS0
    ipureintro
    sl_unfold_run_names
    rw [read_writes_last_whole (S := S64x128) _ _ hz2]
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]
  iexists _; isplitr
  swap; · iexact HS1
  ipureintro
  sl_unfold_run_names
  rw [read_writes_last_whole (S := S64x1) _ _ hz2]
  simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S5000x128) hz2, View.ld_unit_zero (S := S5000x1) hz2, View.ld_unit_zero (S := S1x128) hz2, View.ld_unit_zero (S := S64x128) hz2, View.ld_unit_zero (S := S64x1) hz2, View.ld_unit_zero (S := S128x32) hz2, View.ld_unit_zero (S := S1x32) hz2, View.ld_unit_zero (S := S128x1) hz2, View.ld_unit_zero (S := S1x1) hz2, View.ld_unit_zero (S := S64x32) hz2, View.readCov_unit_zero (S := S64x128) _ hz2, View.readCov_unit_zero (S := S64x1) _ hz2]

end Cert.KernelIdeal.Hand

end
-- ==== Proof.KI.R2.lean ====
import proofs.«401564_j70566312673591_2_alg».proof.Proof.KI.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # pallas_call 2's half of the frame proof, at the region-entry contents `V`

The windows' blocks, the two scratch accumulators point by point (`pool2`), the invariant that carries both between
points (`PhiS2`), the proof data (`dat2`), the body obligation by cases on the closed forms of the body's two
conditions (first point / middle points / last point), the invariant from and back to the class's, and what the last
point leaves in the two outputs' buffers. -/

section
-- the TensorCore's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not (a window whose
    block index does not move is fetched at the first point only, and the block it holds is still this point's), for
    ANY proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The two scratch accumulators, point by point -/

/-- The two scratch buffers after point n: (pooled sums [64,128], counts [64,1]). At the first point the reset's
    zeros take this block's contribution; afterwards what the point before left does. -/
def pool2 (c : Dev nD) : (n : ℕ) → n < cfg2.N → Vec F S64x128 .f32 × Vec F S64x1 .f32
  | 0, h => (k2_pay9 (iblk2 V c 0 ⟨0, h⟩) (iblk2 V c 1 ⟨0, h⟩) (iblk2 V c 2 ⟨0, h⟩) (iblk2 V c 3 ⟨0, h⟩) (iblk2 V c 4 ⟨0, h⟩) (k2_pay5 (F := F)),
      k2_pay1 (k2_pay7 (iblk2 V c 4 ⟨0, h⟩)) (k2_pay8 (F := F)) (k2_pay6 (F := F)))
  | n + 1, h => (k2_pay9 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (pool2 c n (Nat.lt_of_succ_lt h)).1,
      k2_pay1 (k2_pay7 (iblk2 V c 4 ⟨n + 1, h⟩)) (k2_pay8 (F := F)) (pool2 c n (Nat.lt_of_succ_lt h)).2)

theorem pool2_zero (c : Dev nD) (h : 0 < cfg2.N) :
    pool2 V c 0 h = (k2_pay9 (iblk2 V c 0 ⟨0, h⟩) (iblk2 V c 1 ⟨0, h⟩) (iblk2 V c 2 ⟨0, h⟩) (iblk2 V c 3 ⟨0, h⟩) (iblk2 V c 4 ⟨0, h⟩) (k2_pay5 (F := F)),
      k2_pay1 (k2_pay7 (iblk2 V c 4 ⟨0, h⟩)) (k2_pay8 (F := F)) (k2_pay6 (F := F))) := rfl

theorem pool2_succ (c : Dev nD) (n : ℕ) (h : n + 1 < cfg2.N) :
    pool2 V c (n + 1) h = (k2_pay9 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (pool2 V c n (by omega)).1,
      k2_pay1 (k2_pay7 (iblk2 V c 4 ⟨n + 1, h⟩)) (k2_pay8 (F := F)) (pool2 V c n (by omega)).2) := rfl

/-- `pool2` at the first point, stated at a point of the grid. -/
theorem pool2_first (c : Dev nD) (t : Fin cfg2.N) (ht : t.val = 0) :
    pool2 V c t.val t.isLt = (k2_pay9 (iblk2 V c 0 t) (iblk2 V c 1 t) (iblk2 V c 2 t) (iblk2 V c 3 t) (iblk2 V c 4 t) (k2_pay5 (F := F)),
      k2_pay1 (k2_pay7 (iblk2 V c 4 t)) (k2_pay8 (F := F)) (k2_pay6 (F := F))) := by
  obtain ⟨n, hn⟩ := t
  cases n with
  | zero => rfl
  | succ n => exact absurd ht (Nat.succ_ne_zero n)

/-- `pool2` at a later point, over what the point before left. -/
theorem pool2_later (c : Dev nD) (t : Fin cfg2.N) (ht : t.val ≠ 0) :
    pool2 V c t.val t.isLt = (k2_pay9 (iblk2 V c 0 t) (iblk2 V c 1 t) (iblk2 V c 2 t) (iblk2 V c 3 t) (iblk2 V c 4 t) (pool2 V c (t.val - 1) (Nat.lt_of_le_of_lt (Nat.sub_le _ _) t.isLt)).1,
      k2_pay1 (k2_pay7 (iblk2 V c 4 t)) (k2_pay8 (F := F)) (pool2 V c (t.val - 1) (Nat.lt_of_le_of_lt (Nat.sub_le _ _) t.isLt)).2) := by
  obtain ⟨n, hn⟩ := t
  cases n with
  | zero => exact absurd rfl ht
  | succ n => rfl

/-! ## The invariant -/

/-- The scratch operands: whole scoped buffers of the kernel's own, passed beside the windows. -/
abbrev scM2_0 : Memref sig .tc .vmem S64x128 .f32 := Memref.whole cc2_scratch0
abbrev scM2_1 : Memref sig .tc .vmem S64x1 .f32 := Memref.whole cc2_scratch1

/-- The core's scoped buffers that are neither staging buffers of this call nor its scratch: the other two calls'
    staging buffers, each whole at some contents. The body touches none of them. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f))

/-- The class's invariant with the two scratch operands as memrefs owned at some contents, the other scoped buffers
    apart: what the body obligation hands the body at the first point. -/
theorem PhiA2_eq (c : Dev nD) :
    (Pipeline.ΦA spec2 c : sProp 𝕄)
      = iprop((others2 (F := F) c ∗ (∃ d, owns (c : Thread nD τ) scM2_0 fullShare d) ∗ (∃ d, owns (c : Thread nD τ) scM2_1 fullShare d)) ∗ (∃ r, prngReg c r)) := by
  unfold Pipeline.ΦA others2; rw [scopedRest2_eq]; simp only [scM2_0, scM2_1, owns_whole]
  refine Idealize.SL.BI.equiv_iff.mp ⟨?_, ?_⟩
  · show (_ : sProp 𝕄) ⊢ _
    iintro ⟨⟨R1, R2, R3, R4, R5, R6, R7, R8, R9, R10, R11, R12, R13, R14, R15, R16, R17, H0, H1⟩, Hg⟩
    isplitr [Hg]
    · isplitl [R1 R2 R3 R4 R5 R6 R7 R8 R9 R10 R11 R12 R13 R14 R15 R16 R17]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        isplitl [R12]; · iexact R12
        isplitl [R13]; · iexact R13
        isplitl [R14]; · iexact R14
        isplitl [R15]; · iexact R15
        isplitl [R16]; · iexact R16
        iexact R17
      isplitl [H0]; · iexact H0
      iexact H1
    iexact Hg
  · show (_ : sProp 𝕄) ⊢ _
    iintro ⟨⟨⟨R1, R2, R3, R4, R5, R6, R7, R8, R9, R10, R11, R12, R13, R14, R15, R16, R17⟩, H0, H1⟩, Hg⟩
    isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [H0]; · iexact H0
      iexact H1
    iexact Hg

/-- The region invariant before position `n`: before the first point the class's (every scratch at anything);
    afterwards the scoped rest with BOTH scratch accumulators at what the point before left in them, the other scoped
    buffers at anything, and the generator register at some state. -/
def PhiS2 (c : Dev nD) : (n : ℕ) → n ≤ cfg2.N → sProp 𝕄
  | 0, _ => Pipeline.ΦA spec2 c
  | n + 1, hn => iprop((others2 (F := F) c ∗ owns (c : Thread nD τ) scM2_0 fullShare ((pool2 V c n hn).1) ∗ owns (c : Thread nD τ) scM2_1 fullShare ((pool2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((others2 (F := F) c ∗ owns (c : Thread nD τ) scM2_0 fullShare ((pool2 V c n hn).1) ∗ owns (c : Thread nD τ) scM2_1 fullShare ((pool2 V c n hn).2)) ∗ (∃ r, prngReg c r)) := rfl

theorem PhiS2_pos (c : Dev nD) (n : ℕ) (h : n ≤ cfg2.N) (hz : n ≠ 0) :
    PhiS2 V c n h = iprop((others2 (F := F) c ∗ owns (c : Thread nD τ) scM2_0 fullShare ((pool2 V c (n - 1) (by omega)).1) ∗ owns (c : Thread nD τ) scM2_1 fullShare ((pool2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, each output's at the head of the accumulators as they then stand (what the LAST
    point stores: at the other points the window is idle and not written back, and nothing consults the entry); the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => k2_pay3 (pool2 V c t.val t.isLt).2 (pool2 V c t.val t.isLt).1 (iblk2 V c 5 t) (iblk2 V c 6 t)
    | ⟨10, _⟩ => k2_pay4 (pool2 V c t.val t.isLt).2 (pool2 V c t.val t.isLt).1 (iblk2 V c 7 t) (iblk2 V c 8 t)
  Φ t := PhiS2 V c t.val (Nat.le_of_lt_succ t.isLt)
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = k2_pay3 (pool2 V c t.val t.isLt).2 (pool2 V c t.val t.isLt).1 (iblk2 V c 5 t) (iblk2 V c 6 t) := by dsimp only [dat2]
theorem after2_10 (c : Dev nD) (t : Fin cfg2.N) : (dat2 V c).after 10 t = k2_pay4 (pool2 V c t.val t.isLt).2 (pool2 V c t.val t.isLt).1 (iblk2 V c 7 t) (iblk2 V c 8 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-! ## Where the outputs are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
/-- Off the last point the printed configuration calls both outputs idle, and the pipeline does not write them back. -/
theorem idleAt2_9 : ∀ t : Fin cfg2.N, ¬cond2_1 (grid2.coords t) → cfg2.idle 9 (grid2.coords t) = true := by decide +kernel
theorem idleAt2_10 : ∀ t : Fin cfg2.N, ¬cond2_1 (grid2.coords t) → cfg2.idle 10 (grid2.coords t) = true := by decide +kernel
theorem noFlush2_9 : ∀ t : Fin cfg2.N, ¬cond2_1 (grid2.coords t) → (cfg2.win 9).flush t = false := by decide +kernel
theorem noFlush2_10 : ∀ t : Fin cfg2.N, ¬cond2_1 (grid2.coords t) → (cfg2.win 10).flush t = false := by decide +kernel
/-- At the last point both are live. -/
theorem liveAt2_9 : ∀ t : Fin cfg2.N, cond2_1 (grid2.coords t) → cfg2.idle 9 (grid2.coords t) = false := by decide +kernel
theorem liveAt2_10 : ∀ t : Fin cfg2.N, cond2_1 (grid2.coords t) → cfg2.idle 10 (grid2.coords t) = false := by decide +kernel

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t
    ∗ (dat2 V c).leavesExact 10 t)

set_option maxHeartbeats 4800000 in
/-- The body at any point: the inputs' memrefs hold their blocks; the closed forms of the two conditions say which case
    the point is in, so that case's triple applies; the invariant hands the body the two scratch accumulators at what the
    point before left (at anything at the first point), the other scoped buffers and the generator register pass through
    untouched, and it takes the accumulators back at this point's contents; off the last point the outputs' buffers are
    handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  by_cases h0 : t.val % 20 = 0
  · have h1 : ¬t.val % 20 = 19 := by omega
    have hz : t.val = 0 := by omega
    have hc0 : cond2_0 (grid2.coords t) := (hcond2_0 t).mpr h0
    have hc1 : ¬cond2_1 (grid2.coords t) := fun h => h1 ((hcond2_1 t).mp h)
    rw [Dat.leavesExact_idle (dat2 V c) 9 t (idleAt2_9 t hc1) (noFlush2_9 t hc1), Dat.leavesExact_idle (dat2 V c) 10 t (idleAt2_10 t hc1) (noFlush2_10 t hc1)]
    rw [pool2_first V c t hz]
    rw [PhiS2_castSucc V c t, PhiS2_zero V c _ _ hz, PhiA2_eq]
    iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel2_A c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HR HS0 HS1 Hg]
    · isplitl [HR HS0 HS1]
      · isplitl [HR]; · iexact HR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hz : t.val ≠ 0 := by omega
    have hc0 : ¬cond2_0 (grid2.coords t) := fun h => h0 ((hcond2_0 t).mp h)
    by_cases h1 : t.val % 20 = 19
    · have hc1 : cond2_1 (grid2.coords t) := (hcond2_1 t).mpr h1
      rw [show (dat2 V c).leavesExact 9 t = owns (c : Thread nD τ) (st2_9 t) fullShare ((dat2 V c).after 9 t) from by
        unfold Dat.leavesExact; rw [liveAt2_9 t hc1], after2_9]
      rw [show (dat2 V c).leavesExact 10 t = owns (c : Thread nD τ) (st2_10 t) fullShare ((dat2 V c).after 10 t) from by
        unfold Dat.leavesExact; rw [liveAt2_10 t hc1], after2_10]
      rw [pool2_later V c t hz]
      rw [PhiS2_castSucc V c t, PhiS2_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_C c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) (iblk2 V c 5 t) (iblk2 V c 6 t) (iblk2 V c 7 t) (iblk2 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬cond2_1 (grid2.coords t) := fun h => h1 ((hcond2_1 t).mp h)
      rw [Dat.leavesExact_idle (dat2 V c) 9 t (idleAt2_9 t hc1) (noFlush2_9 t hc1), Dat.leavesExact_idle (dat2 V c) 10 t (idleAt2_10 t hc1) (noFlush2_10 t hc1)]
      rw [pool2_later V c t hz]
      rw [PhiS2_castSucc V c t, PhiS2_pos V c _ _ hz]
      iintro ⟨⟨⟨HR, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel2_B c Set.univ (grid2.coords t) _ _ _ _ _ _ _ _ _ _ _ _ _ _ _ _ _ _ _ _ _ _ _ _ _ _ hc0 hc1 (iblk2 V c 0 t) (iblk2 V c 1 t) (iblk2 V c 2 t) (iblk2 V c 3 t) (iblk2 V c 4 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HR HS0 HS1 Hg]
      · isplitl [HR HS0 HS1]
        · isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region (the class's invariant) is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨⟨HR, HS0, HS1⟩, Hg⟩
  isplitl [HR HS0 HS1]
  · isplitl [HR]; · iexact HR
    isplitl [HS0]; · iexists _; iexact HS0
    iexists _; iexact HS1
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 20 := N_2; omega)

/-! ## What the last point leaves in the two outputs' buffers -/

theorem lt19 : 19 < cfg2.N := lt_of_lt_of_eq (by omega : 19 < 20) N_2.symm

/-- Output 9 after the last point: the first head of the FINAL accumulators. -/
theorem after2_9_last (c : Dev nD) (t : Fin cfg2.N) (ht : t.val = 19) :
    (dat2 V c).after 9 t = k2_pay3 (pool2 V c 19 lt19).2 (pool2 V c 19 lt19).1 (iblk2 V c 5 t) (iblk2 V c 6 t) := by
  rw [after2_9]
  obtain ⟨n, hn⟩ := t
  have hn' : n = 19 := ht
  subst hn'; rfl

/-- Output 10 after the last point: the second head of the FINAL accumulators. -/
theorem after2_10_last (c : Dev nD) (t : Fin cfg2.N) (ht : t.val = 19) :
    (dat2 V c).after 10 t = k2_pay4 (pool2 V c 19 lt19).2 (pool2 V c 19 lt19).1 (iblk2 V c 7 t) (iblk2 V c 8 t) := by
  rw [after2_10]
  obtain ⟨n, hn⟩ := t
  have hn' : n = 19 := ht
  subst hn'; rfl

end

end Cert.KernelIdeal.Hand

end
-- ==== Proof.KI.Run.lean ====
/-
  The program's run from launch to return: host operations, the dense transform, host operations, the fused combine and dense transform,
  host operations, the fused combine, pooling and heads, host operations. The buffers' contents at each boundary are a fold from the launch
  memory: a host stretch applies its operations; a kernel region replaces its windows' arrays by what its write-backs leave and keeps every
  other buffer. Every weakly fair execution terminates without a fault, and the final memory holds every unscoped buffer at the last
  boundary's contents; no item writes an argument array, so each argument ends as launched.
-/
import proofs.«401564_j70566312673591_2_alg».proof.Proof.KI.R0
import proofs.«401564_j70566312673591_2_alg».proof.Proof.KI.R1
import proofs.«401564_j70566312673591_2_alg».proof.Proof.KI.R2
import proofs.«401564_j70566312673591_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the edge lists, the degrees and the normalisation weights). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- What pallas_call 0 leaves: its windows' arrays at what the write-backs fold to, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (layer 1's gather and scatter-add). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- What pallas_call 1 leaves: its windows' arrays at what the write-backs fold to, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (layer 2's gather and scatter-add). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- What pallas_call 2 leaves: its windows' arrays at what the write-backs fold to, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves the region as it entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch (the value head's column made a vector, the exponential of the log-deviations). -/
abbrev W7 : Dev nD → Valuation τ sig (Elt F) := fun c => StableHlo.after hostOps3 (W6 m ρ c)

/-! ## The arguments end as launched -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_in m ρ c 0 rfl
    _ = W0 m ρ c (Proc.devRef .tc main_arg0) := StableHlo.after_of_writes_sub hostOps0 _ hostOps0_writes (by decide)
    _ = m ((c : Thread nD τ).loc main_arg0) := rfl
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_in m ρ c 1 rfl
    _ = W0 m ρ c (Proc.devRef .tc main_arg3) := StableHlo.after_of_writes_sub hostOps0 _ hostOps0_writes (by decide)
    _ = m ((c : Thread nD τ).loc main_arg3) := rfl
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_in m ρ c 4 rfl
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_in m ρ c 5 rfl
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide)
    _ = W5 m ρ c (Proc.devRef .tc main_arg9) := W6_in m ρ c 7 rfl
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread state the last region leaves, without the owes. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Pallas_call 0 as a segment: entered with every unscoped buffer at the contents before it, left with them at the contents after it; its arrays are
    split out of the unscoped buffers and put back at the exit contents, the generator register goes into the region's invariant and comes back,
    nothing is owed, the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at the contents before it, left with them at the contents after it; its arrays are
    split out of the unscoped buffers and put back at the exit contents, the generator register goes into the region's invariant and comes back,
    nothing is owed, the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 2 as a segment: entered with every unscoped buffer at the contents before it, left with them at the contents after it; its arrays are
    split out of the unscoped buffers and put back at the exit contents, the generator register goes into the region's invariant and comes back,
    nothing is owed, the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (adm (F := F) 2).1
        ∗ Pipeline.scopedRest (Ix := Unit) (Name := ℕ) (U := UR sig nD τ) (Lvl := ℕ) (Val := Elt F) spec2 c) ⊢ (Pipeline.ΦA spec2 c : sProp 𝕄) := by
      unfold Pipeline.ΦA
      iintro ⟨Hp, -, Hr⟩
      isplitl [Hr]; · iexact Hr
      iexact Hp
    exact h.trans (hin2 (V5 m ρ) c)
  hout c := by
    rw [Pipeline.ownSems0_none]
    have h : (Pipeline.ΦA spec2 c : sProp 𝕄) ⊢ iprop((∃ r, prngReg c r) ∗ BI.emp
        ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (V5 m ρ) c).trans h
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

/-- The thread state at the return, without the owes: every unscoped buffer at the last boundary's contents, the generator register at some state. -/
abbrev Tend (c : Dev nD) : sProp 𝕄 := iprop(StableHlo.held (c : Thread nD τ) (Pipeline.ucRefs τ sig) (W7 m ρ c) ∗ ∃ r, prngReg c r)

set_option backward.isDefEq.respectTransparency.types false in
/-- THE RUN: from any memory with zero counters every weakly fair execution of @main terminates, nothing faulting, and the final memory holds
    every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tend m ρ c ∗ ∃ W, owes (c : Thread nD τ) (0 : CellTallies nD τ sig Unit) W)
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c)⟩) (run m ρ)

end Cert.KernelIdeal.Hand

end
-- ==== Proof.RefImports.lean ====
/-
  The reference program's run and its read-at-an-index lemmas, brought into scope for the modules that compare the two programs.
-/
import proofs.«401564_j70566312673591_2_alg».proof.Proof.Gen.ReferenceIdeal.Run
import proofs.«401564_j70566312673591_2_alg».proof.Proof.Gen.ReferenceIdeal.Read
-- ==== Proof.Val.Host.lean ====
/-
  The four stretches of array operations between the kernel regions, read back: what each leaves in the buffers a
  later region (or the program's result) reads, as the operations' composed term of the buffers' contents before the
  stretch. The stretches do the graph's bookkeeping: they split the edge list into every edge's source and destination
  node, count the edges into every node for the degree scale (deg + 1) ** (-1/2), sum, before each of the two combining
  layers, the source nodes' rows over the edges into every node, and lay vectors out as one-row or one-column matrices.
  Everything here holds for any float values.
-/
import proofs.«401564_j70566312673591_2_alg».proof.Proof.Gen.KernelIdeal.Launch
import proofs.«401564_j70566312673591_2_alg».proof.Proof.Gen.KernelIdeal.Regions
import Idealize.ShloMosaic.Lib.StableHlo.Run

noncomputable section

namespace Cert.Bridge

open Cert.KernelIdeal Cert.KernelIdeal.Gen Idealize.ShloMosaic Idealize.ShloMosaic.TcCoe Idealize.ShloMosaic.StableHlo

variable {F : FTy → Type} [FloatOps F]

/-! ## The pieces the stretches compose -/

/-- Row 0 of the 2 × E edge list as a vector of E node ids: every edge's source node. -/
def edgeRow0 (e : Vec F S2x1600000 .i32) : Vec F S1600000 .i32 :=
  shapeCast _ (extractStridedSlice S1x1600000 ![0, 0] e slices_S2x1600000_S1x1600000_0_0) shapeCasts_S1x1600000_S1600000

/-- Row 1 of the 2 × E edge list as a vector of E node ids: every edge's destination node. -/
def edgeRow1 (e : Vec F S2x1600000 .i32) : Vec F S1600000 .i32 :=
  shapeCast _ (extractStridedSlice S1x1600000 ![1, 0] e slices_S2x1600000_S1x1600000_1_0) shapeCasts_S1x1600000_S1600000

/-- A vector of E node ids as an E × 1 column of one-coordinate indices. -/
def idCol (x : Vec F S1600000 .i32) : Vec F S1600000x1 .i32 :=
  broadcastInDim S1600000x1 ![0] bcast_S1600000_S1600000x1_0 x

/-- Node ids with a negative id counted from the end: `x + N` where `x < 0`, else `x`. -/
def normIds (x : Vec F S1600000 .i32) : Vec F S1600000 .i32 :=
  select (cmpi .slt x (broadcastInDim S1600000 ![] bcast_S_S1600000 (constantI S_ 32 0#32)))
    (addi x (broadcastInDim S1600000 ![] bcast_S_S1600000 (constantI S_ 32 100000#32))) x

/-- The degree scale: (the number of edges into a node, plus one) to the power −1/2. -/
def degScale (dst : Vec F S1600000 .i32) : Vec F S100000 .f32 :=
  Host.powf (addf (Host.scatterAdd scatter_S100000_S1600000x1_S1600000_n_0_0_1
      (broadcastInDim S100000 ![] bcast_S_S100000 (constant S_ .f32 0x00000000#32)) (idCol dst)
      (broadcastInDim S1600000 ![] bcast_S_S1600000 (constant S_ .f32 0x3F800000#32)))
    (broadcastInDim S100000 ![] bcast_S_S100000 (constant S_ .f32 0x3F800000#32)))
    (broadcastInDim S100000 ![] bcast_S_S100000 (constant S_ .f32 0xBF000000#32))

/-- Into each node's row, the sum over the edges into it of the source node's row of `h`, widened to f32. -/
def aggregate (h : Vec F S100000x128 .bf16) (src dst : Vec F S1600000 .i32) : Vec F S100000x128 .f32 :=
  Host.scatterAdd scatter_S100000x128_S1600000x1_S1600000x128_1_0_0_1
    (broadcastInDim S100000x128 ![] bcast_S_S100000x128 (constant S_ .f32 0x00000000#32)) (idCol dst)
    (extf .f32 (Host.gather gather_S100000x128_S1600000x1_S1600000x128_1_0_n_n_0_1_1128 h (idCol (normIds src))) bitsLt_bf16_f32)

variable (W : Valuation τ sig (Elt F))

/-! ## The first stretch: the edge list split, and the degree scale -/

theorem host0_v1 : StableHlo.after hostOps0 W (Proc.devRef .tc main_v1) = edgeRow0 (W (Proc.devRef .tc main_arg1)) := by
  after_results; rfl

theorem host0_v3 : StableHlo.after hostOps0 W (Proc.devRef .tc main_v3) = edgeRow1 (W (Proc.devRef .tc main_arg1)) := by
  after_results; rfl

theorem host0_v11 : StableHlo.after hostOps0 W (Proc.devRef .tc main_v11) = degScale (edgeRow1 (W (Proc.devRef .tc main_arg1))) := by
  after_results; rfl

theorem host0_v12 : StableHlo.after hostOps0 W (Proc.devRef .tc main_v12)
    = shapeCast _ (degScale (edgeRow1 (W (Proc.devRef .tc main_arg1)))) shapeCasts_S100000_S100000x1 := by
  after_results; rfl

theorem host0_keep (r : Ref sig .tc) (h : r ∉ hostOps0_W) :
    StableHlo.after hostOps0 W (Proc.devRef .tc r) = W (Proc.devRef .tc r) :=
  StableHlo.after_of_writes_sub hostOps0 _ hostOps0_writes h

/-! ## The second stretch: the first layer's rows summed over the incoming edges -/

theorem host1_v24 : StableHlo.after hostOps1 W (Proc.devRef .tc main_v24)
    = aggregate (W (Proc.devRef .tc main_v13)) (W (Proc.devRef .tc main_v1)) (W (Proc.devRef .tc main_v3)) := by
  after_results; rfl

theorem host1_v25 : StableHlo.after hostOps1 W (Proc.devRef .tc main_v25)
    = shapeCast _ (W (Proc.devRef .tc main_v11)) shapeCasts_S100000_S100000x1 := by
  after_results; rfl

theorem host1_v26 : StableHlo.after hostOps1 W (Proc.devRef .tc main_v26)
    = shapeCast _ (W (Proc.devRef .tc main_arg4)) shapeCasts_S128_S1x128 := by
  after_results; rfl

theorem host1_keep (r : Ref sig .tc) (h : r ∉ hostOps1_W) :
    StableHlo.after hostOps1 W (Proc.devRef .tc r) = W (Proc.devRef .tc r) :=
  StableHlo.after_of_writes_sub hostOps1 _ hostOps1_writes h

/-! ## The third stretch: the second layer's rows summed over the incoming edges, and the pooling head's operands -/

theorem host2_v38 : StableHlo.after hostOps2 W (Proc.devRef .tc main_v38)
    = aggregate (W (Proc.devRef .tc main_v27)) (W (Proc.devRef .tc main_v1)) (W (Proc.devRef .tc main_v3)) := by
  after_results; rfl

theorem host2_v39 : StableHlo.after hostOps2 W (Proc.devRef .tc main_v39)
    = shapeCast _ (W (Proc.devRef .tc main_v11)) shapeCasts_S100000_S100000x1 := by
  after_results; rfl

theorem host2_v40 : StableHlo.after hostOps2 W (Proc.devRef .tc main_v40)
    = shapeCast _ (W (Proc.devRef .tc main_arg6)) shapeCasts_S128_S1x128 := by
  after_results; rfl

theorem host2_v41 : StableHlo.after hostOps2 W (Proc.devRef .tc main_v41)
    = shapeCast _ (W (Proc.devRef .tc main_arg2)) shapeCasts_S100000_S100000x1 := by
  after_results; rfl

theorem host2_v42 : StableHlo.after hostOps2 W (Proc.devRef .tc main_v42)
    = shapeCast _ (W (Proc.devRef .tc main_arg8)) shapeCasts_S32_S1x32 := by
  after_results; rfl

theorem host2_v43 : StableHlo.after hostOps2 W (Proc.devRef .tc main_v43)
    = shapeCast _ (W (Proc.devRef .tc main_arg10)) shapeCasts_S1_S1x1 := by
  after_results; rfl

theorem host2_keep (r : Ref sig .tc) (h : r ∉ hostOps2_W) :
    StableHlo.after hostOps2 W (Proc.devRef .tc r) = W (Proc.devRef .tc r) :=
  StableHlo.after_of_writes_sub hostOps2 _ hostOps2_writes h

/-! ## The last stretch: the per-graph column flattened, and the exponential of the last argument -/

theorem host3_v45 : StableHlo.after hostOps3 W (Proc.devRef .tc main_v45)
    = shapeCast _ (W (Proc.devRef .tc main_v44_1)) shapeCasts_S64x1_S64 := by
  after_results; rfl

theorem host3_v46 : StableHlo.after hostOps3 W (Proc.devRef .tc main_v46)
    = Host.exp (W (Proc.devRef .tc main_arg11)) := by
  after_results <;> rfl

theorem host3_keep (r : Ref sig .tc) (h : r ∉ hostOps3_W) :
    StableHlo.after hostOps3 W (Proc.devRef .tc r) = W (Proc.devRef .tc r) :=
  StableHlo.after_of_writes_sub hostOps3 _ hostOps3_writes h

end Cert.Bridge
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Val.Pay01.lean ====
/-
  The two dense layers' stored values read at an index, at the exact instance: floats are extended reals, a change of
  float format is the identity, and the matrix unit's product into a zero accumulator is a plain sum over the
  contracted coordinate.
-/
import proofs.«401564_j70566312673591_2_alg».proof.Proof.Gen.KernelIdeal.Skeleton
import proofs.«401564_j70566312673591_2_alg».proof.Proof.LibRowLayers
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge

open Cert.KernelIdeal Cert.KernelIdeal.Gen Idealize.ShloMosaic Idealize.ShloMosaic.ValueIdx

/-! ## The product of a block of rows with the square weight matrix

The left operand's axis 1 is contracted with the right operand's axis 0; the result's axes are the left operand's
axis 0 and the right operand's axis 1. -/

/-- The left operand is read in the result's row. -/
theorem dense_lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand is read at the contracted coordinate along its columns. -/
theorem dense_lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand is read at the contracted coordinate along its rows. -/
theorem dense_rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand is read in the result's column. -/
theorem dense_rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Rows times the weight matrix, accumulated into the zero splat, at (p, q): the sum over the contracted coordinate of
    the products of the entries. -/
theorem denseProduct_apply {φ₁ φ₂ : FTy} (A : FVec Ideal S5000x128 φ₁) (B : FVec Ideal S128x128 φ₂) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  refine (Ideal.matmul_constant_zero_apply dot_S5000x128_S128x128_S5000x128_1_0_0_1_n_n none A B (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dense_lhs_0 _ _
    | ⟨1, _⟩ => exact (dense_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dense_rhs_0 _ _).trans hk
    | ⟨1, _⟩ => exact dense_rhs_1 _ _)
  rw [el, er]

/-! ## The stored values -/

/-- x·W scaled by the row's weight -/
theorem pay0_apply (x : Vec Ideal S5000x128 .f32) (w : Vec Ideal S128x128 .f32) (d : Vec Ideal S5000x1 .f32) (p : Fin 5000) (q : Fin 128) :
    k0_pay1 (F := Ideal) x w d (ix2 p q) = (∑ k : Fin 128, x (ix2 p k) * w (ix2 k q)) * d (ix2 p (0 : Fin 1)) := by
  unfold k0_pay1
  rw [truncf_apply, mulf_apply, denseProduct_apply, RowLayers.broadcastColumn_apply, shapeCast_self]
  rfl

/-- relu((a + hs)·d + b)·W scaled by the row's weight (the weight column is loaded twice: d and d') -/
theorem pay1_apply (a : Vec Ideal S5000x128 .f32) (hs : Vec Ideal S5000x128 .bf16) (d : Vec Ideal S5000x1 .f32) (b : Vec Ideal S1x128 .f32)
    (w : Vec Ideal S128x128 .f32) (d' : Vec Ideal S5000x1 .f32) (p : Fin 5000) (q : Fin 128) :
    k1_pay1 (F := Ideal) a hs d b w d' (ix2 p q)
      = (∑ k : Fin 128, max ((a (ix2 p k) + hs (ix2 p k)) * d (ix2 p (0 : Fin 1)) + b (ix2 (0 : Fin 1) k)) 0 * w (ix2 k q)) * d' (ix2 p (0 : Fin 1)) := by
  unfold k1_pay1
  simp only [shapeCast_self]
  rw [truncf_apply, mulf_apply, denseProduct_apply, RowLayers.broadcastColumn_apply]
  refine congrArg (· * d' (ix2 p (0 : Fin 1))) (Finset.sum_congr rfl fun k _ => ?_)
  rw [truncf_apply, truncf_apply, maximumf_apply, addf_apply, mulf_apply, addf_apply, extf_apply,
    RowLayers.broadcastColumn_apply, broadcastTo_1b_ab_apply, broadcast_apply]
  show max _ (Ideal.ofBits .f32 0x00000000#32) * _ = _
  rw [Ideal.ofBits_zero_f32]

end Cert.Bridge

end
-- ==== Proof.Val.Arr1.lean ====
import proofs.«401564_j70566312673591_2_alg».proof.Proof.KI.R1
import proofs.«401564_j70566312673591_2_alg».proof.Proof.Val.Pay01
import Idealize.ShloMosaic.PureOps.Ideal.Laws
import Idealize.ShloMosaic.Lib.ValueIdx
import Idealize.ShloMosaic.Lib.Pipeline.Value

/-! The second dense layer's result array after its region, at the exact instance (floats are extended reals), as ONE
    function of the five arrays the region reads, index by index: row `n`, column `j` holds
    `(∑ₖ max ((agg n k + hs n k) · d n + b k) 0 · W k j) · d n`. Each grid point writes rows `5000·t … 5000·t + 4999`;
    the blocks of the aggregate, of the scaled features and of the weight column at that point are the same rows of
    their arrays, the bias row and the weight matrix are whole; the twenty row blocks cover the array, the point that
    covers row `n` being `n / 5000`. -/

noncomputable section

open scoped BigOperators

namespace Cert.Bridge

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-! ## The result as a function of the arrays -/

/-- Row `n`, column `j` of the second dense layer over arrays given as functions of their indices: the aggregate `agg`
    and the scaled features `hs` added, scaled by the row's weight `d`, the bias row `b` added, clamped below at zero,
    multiplied by the weight matrix `w`, scaled by the row's weight again. -/
def combineDense (agg hs : S100000x128.Idx → EReal) (d : S100000x1.Idx → EReal) (b : S1x128.Idx → EReal) (w : S128x128.Idx → EReal)
    (n : Fin 100000) (j : Fin 128) : EReal :=
  (∑ k : Fin 128, max ((agg (ix2 n k) + hs (ix2 n k)) * d (ix2 n (0 : Fin 1)) + b (ix2 (0 : Fin 1) k)) 0 * w (ix2 k j)) * d (ix2 n (0 : Fin 1))

/-- The layer's value at a row and a column, spelt out. -/
theorem combineDense_apply (agg hs : S100000x128.Idx → EReal) (d : S100000x1.Idx → EReal) (b : S1x128.Idx → EReal) (w : S128x128.Idx → EReal)
    (n : Fin 100000) (j : Fin 128) :
    combineDense agg hs d b w n j
      = (∑ k : Fin 128, max ((agg (ix2 n k) + hs (ix2 n k)) * d (ix2 n (0 : Fin 1)) + b (ix2 (0 : Fin 1) k)) 0 * w (ix2 k j)) * d (ix2 n (0 : Fin 1)) := rfl

/-- Row `n`, column `j` of the result, from the five arrays as the region finds them. -/
def g1 (c : Dev nD) (n : Fin 100000) (j : Fin 128) : EReal :=
  combineDense (V c main_v24) (V c main_v13) (V c main_v25) (V c main_v26) (V c main_arg5) n j

/-- The whole result array. -/
def G1 (c : Dev nD) : S100000x128.Idx → Elt Ideal .bf16 := fun i => g1 V c (i 0) (i 1)

/-! ## The printed index maps, decided over the grid -/

/-- The moving windows (aggregate, scaled features, weight column, result) are at row block `t`, column block 0;
    the bias row and the weight matrix stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block as rows of its array -/

/-- The aggregate's block at point `t` is rows `5000·t …` of the aggregate. -/
theorem iblk1_0_apply (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v24 : S100000x128.Idx → EReal) k := by
  obtain ⟨e0, e1, -⟩ := idx_facts1 t
  unfold iblk1
  rw [View.read_apply]
  show V c main_v24 _ = V c main_v24 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 128 + 1 * (x 1).val = (k 1).val; rw [e1, hk1]; omega

/-- The scaled features' block at point `t` is the same rows of the scaled features. -/
theorem iblk1_1_apply (c : Dev nD) (t : Fin cfg1.N) (x : S5000x128.Idx) (k : S100000x128.Idx)
    (hk0 : (k 0).val = 5000 * t.val + (x 0).val) (hk1 : (k 1).val = (x 1).val) :
    (iblk1 V c 1 t : Vec Ideal S5000x128 .bf16) x = (V c main_v13 : S100000x128.Idx → EReal) k := by
  obtain ⟨-, -, e0, e1, -⟩ := idx_facts1 t
  unfold iblk1
  rw [View.read_apply]
  show V c main_v13 _ = V c main_v13 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 128 + 1 * (x 1).val = (k 1).val; rw [e1, hk1]; omega

/-- The weight column's block at point `t` is the same rows of the weight column. -/
theorem iblk1_2_apply (c : Dev nD) (t : Fin cfg1.N) (x : S5000x1.Idx) (k : S100000x1.Idx)
    (hk0 : (k 0).val = 5000 * t.val + (x 0).val) (hk1 : (k 1).val = (x 1).val) :
    (iblk1 V c 2 t : Vec Ideal S5000x1 .f32) x = (V c main_v25 : S100000x1.Idx → EReal) k := by
  obtain ⟨-, -, -, -, e0, e1, -⟩ := idx_facts1 t
  unfold iblk1
  rw [View.read_apply]
  show V c main_v25 _ = V c main_v25 _
  congr 1
  funext a
  apply Fin.ext
  match a with
  | ⟨0, _⟩ => show win1_2.index t (0 : Fin 2) * 5000 + 1 * (x 0).val = (k 0).val; rw [e0, hk0]; omega
  | ⟨1, _⟩ => show win1_2.index t (1 : Fin 2) * 1 + 1 * (x 1).val = (k 1).val; rw [e1, hk1]; omega

/-- The bias row's block is the bias row. -/
theorem iblk1_3_apply (c : Dev nD) (t : Fin cfg1.N) (x : S1x128.Idx) :
    (iblk1 V c 3 t : Vec Ideal S1x128 .f32) x = (V c main_v26 : S1x128.Idx → EReal) x := by
  obtain ⟨-, -, -, -, -, -, e0, e1, -⟩ := idx_facts1 t
  unfold iblk1
  rw [View.read_apply]
  show V c main_v26 _ = V c main_v26 _
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 128 + 1 * (x 1).val = (x 1).val; rw [e1]; omega

/-- The weight matrix's block is the weight matrix. -/
theorem iblk1_4_apply (c : Dev nD) (t : Fin cfg1.N) (x : S128x128.Idx) :
    (iblk1 V c 4 t : Vec Ideal S128x128 .f32) x = (V c main_arg5 : S128x128.Idx → EReal) x := by
  obtain ⟨-, -, -, -, -, -, -, -, e0, e1, -⟩ := idx_facts1 t
  unfold iblk1
  rw [View.read_apply]
  show V c main_arg5 _ = V c main_arg5 _
  congr 1
  funext a
  apply Fin.ext
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-! ## What a point writes back -/

/-- The body's stored value at point `t`, at a block index `y`, is the result at the array index `i` that `y` sits at:
    row `5000·t + y₀`, column `y₁`. -/
theorem pay1_at (c : Dev nD) (t : Fin cfg1.N) (p : Fin 5000) (q : Fin 128) (n : Fin 100000) (hn : n.val = 5000 * t.val + p.val) :
    k1_pay1 (F := Ideal) (iblk1 V c 0 t) (iblk1 V c 1 t) (iblk1 V c 2 t) (iblk1 V c 3 t) (iblk1 V c 4 t) (iblk1 V c 2 t) (ix2 p q) = g1 V c n q := by
  rw [pay1_apply]
  unfold g1 combineDense
  rw [iblk1_2_apply V c t (ix2 p (0 : Fin 1)) (ix2 n (0 : Fin 1)) hn rfl]
  refine congrArg (fun s : EReal => s * (V c main_v25 : S100000x1.Idx → EReal) (ix2 n (0 : Fin 1))) (Finset.sum_congr rfl fun k _ => ?_)
  rw [iblk1_0_apply V c t (ix2 p k) (ix2 n k) hn rfl, iblk1_1_apply V c t (ix2 p k) (ix2 n k) hn rfl,
    iblk1_3_apply V c t (ix2 (0 : Fin 1) k), iblk1_4_apply V c t (ix2 k q)]

/-- WHAT POINT `t` WRITES BACK is block `t` of `G1` of the arrays as the region finds them. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz1]
  simp only [View.ld_unit_zero (S := S5000x128) hz1, View.ld_unit_zero (S := S5000x1) hz1, View.ld_unit_zero (S := S1x128) hz1, View.ld_unit_zero (S := S128x128) hz1]
  obtain ⟨-, -, -, -, -, -, -, -, -, -, e0, e1⟩ := idx_facts1 t
  funext y
  show k1_pay1 (F := Ideal) (iblk1 V c 0 t) (iblk1 V c 1 t) (iblk1 V c 2 t) (iblk1 V c 3 t) (iblk1 V c 4 t) (iblk1 V c 2 t) (y : S5000x128.Idx)
      = g1 V c ((((cfg1.win 5).blk t).view.emb y) 0) ((((cfg1.win 5).blk t).view.emb y) 1)
  have hy0 : ((y : S5000x128.Idx) 0).val < 5000 := ((y : S5000x128.Idx) 0).isLt
  have h0 : (((((cfg1.win 5).blk t).view.emb y) 0 : Fin 100000)).val = 5000 * t.val + ((y : S5000x128.Idx) 0).val := by
    show win1_5.index t (0 : Fin 2) * 5000 + 1 * ((y : S5000x128.Idx) 0).val = _
    rw [e0]; omega
  have h1 : ((((cfg1.win 5).blk t).view.emb y) 1 : Fin 128) = (y : S5000x128.Idx) 1 := by
    apply Fin.ext
    show win1_5.index t (1 : Fin 2) * 128 + 1 * ((y : S5000x128.Idx) 1).val = _
    rw [e1]; omega
  rw [h1, eq_ix2 (y : S5000x128.Idx)]
  exact pay1_at V c t _ _ _ h0

/-! ## The blocks cover the array -/

/-- An index of the array is in point `t`'s block iff each coordinate is in the block's range on its axis. -/
theorem mem_blk1_5 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- Every index is in the block of the point its row falls in. -/
theorem cover1_5_arr (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 5000, by show (i 0).val / 5000 < 20; omega⟩, flush1_5 _, ?_⟩
  obtain ⟨-, -, -, -, -, -, -, -, -, -, e0, e1⟩ := idx_facts1 ⟨(i 0).val / 5000, by show (i 0).val / 5000 < 20; omega⟩
  rw [mem_blk1_5]
  intro a
  match a with
  | ⟨0, _⟩ => show win1_5.index _ (0 : Fin 2) * 5000 ≤ (i 0).val ∧ (i 0).val < win1_5.index _ (0 : Fin 2) * 5000 + 5000; rw [e0]; show (i 0).val / 5000 * 5000 ≤ (i 0).val ∧ (i 0).val < (i 0).val / 5000 * 5000 + 5000; omega
  | ⟨1, _⟩ => show win1_5.index _ (1 : Fin 2) * 128 ≤ (i 1).val ∧ (i 1).val < win1_5.index _ (1 : Fin 2) * 128 + 128; rw [e1]; omega

/-! ## The array after the region -/

/-- The result array ends holding `G1`. -/
theorem arr1_final (c : Dev nD) : (dat1 (F := Ideal) V c).arrAt 5 cfg1.N = G1 V c :=
  (dat1 (F := Ideal) V c).arrAt_eq_of_cover 5 (G1 V c) (fun t _ => flushed1_5_eq V c t) cover1_5_arr

/-- Row `n`, column `j` of the result array after the region. -/
theorem arr1_apply (c : Dev nD) (n : Fin 100000) (j : Fin 128) :
    (dat1 (F := Ideal) V c).arrAt 5 cfg1.N (ix2 n j)
      = combineDense (V c main_v24) (V c main_v13) (V c main_v25) (V c main_v26) (V c main_arg5) n j := by
  rw [arr1_final]
  rfl

end Cert.Bridge

end
-- ==== Proof.Ref.Layers.lean ====
/-
  The reference's two graph-convolution layers read at an index, at the exact instance (floats read as extended reals).

  A gather of the rows of a node array at the normalised source ids reads, at edge e, the row srcRow e: the source id
  read signed and clamped into the node range. A message is the gathered row of the transformed features h times the
  source's weight d. With A the aggregate of the messages at the destination ids (kept as a function of its operands),
  a layer's output at (n, k) is max ((A + h * d) * d + b) 0: the program's A * d + h * (d * d) + b, regrouped, which is
  sound because d is a nonnegative real number and a product by such a number distributes over a sum of extended reals.
-/
import proofs.«401564_j70566312673591_2_alg».proof.Proof.RefImports
import proofs.«401564_j70566312673591_2_alg».proof.Proof.LibRowLayers
import Idealize.ShloMosaic.Lib.IdealHost
import Idealize.ShloMosaic.Lib.ValueIdx
import Mathlib.Data.EReal.Operations

noncomputable section

open scoped BigOperators

namespace Cert.Bridge

open Cert.ReferenceIdeal Cert.ReferenceIdeal.Gen Cert.ReferenceIdeal.Read Idealize.ShloMosaic Idealize.ShloMosaic.ValueIdx

/-! ## The two gathers read at an index -/

/-- A gather of rows of a [100000, 128] array at a column of start indices reads, at (e, j), column j of the row the
    start index e names, read signed and clamped into the node range. -/
theorem gatherRows_at {α : Type} (Y : S100000x128.Idx → α) (idx : IVec S1600000x1 32) (e : Fin 1600000) (j : Fin 128) :
    Host.gather gather_S100000x128_S1600000x1_S1600000x128_1_0_n_n_0_1_1128 Y idx (ix2 e j)
      = Y (ix2 (⟨min (idx (ix2 e (0 : Fin 1))).toInt.toNat (100000 - 1), by omega⟩ : Fin 100000) j) := by
  unfold Host.gather
  congr 1
  funext a
  refine Fin.ext ?_
  match a with
  | ⟨0, _⟩ =>
    show gather_S100000x128_S1600000x1_S1600000x128_1_0_n_n_0_1_1128.start (ix2 e j) idx 0
        + gather_S100000x128_S1600000x1_S1600000x128_1_0_n_n_0_1_1128.batchCoord (ix2 e j) 0
        + gather_S100000x128_S1600000x1_S1600000x128_1_0_n_n_0_1_1128.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S1600000x1_S1600000x128_1_0_n_n_0_1_1128.startIndexMap from
      List.mem_singleton.mpr rfl)]
    have hsi : gather_S100000x128_S1600000x1_S1600000x128_1_0_n_n_0_1_1128.siIdx (ix2 e j)
        ⟨List.idxOf (0 : Fin 2) gather_S100000x128_S1600000x1_S1600000x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S100000x128_S1600000x1_S1600000x128_1_0_n_n_0_1_1128.start (ix2 e j) idx 1
        + gather_S100000x128_S1600000x1_S1600000x128_1_0_n_n_0_1_1128.batchCoord (ix2 e j) 1
        + gather_S100000x128_S1600000x1_S1600000x128_1_0_n_n_0_1_1128.offCoord (ix2 e j) 1 = j.val
    rw [GatherDims.batchCoord_eq_zero _ _ _ List.not_mem_nil]
    have hs : gather_S100000x128_S1600000x1_S1600000x128_1_0_n_n_0_1_1128.start (ix2 e j) idx 1 = 0 := by
      unfold GatherDims.start
      rw [dif_neg (show (1 : Fin 2) ∉ gather_S100000x128_S1600000x1_S1600000x128_1_0_n_n_0_1_1128.startIndexMap from by
        intro h; exact absurd (List.mem_singleton.mp h) (by decide))]
    have ho : gather_S100000x128_S1600000x1_S1600000x128_1_0_n_n_0_1_1128.offCoord (ix2 e j) 1 = j.val := by
      unfold GatherDims.offCoord
      rw [dif_pos ((GatherDims.mem_sKept _ _).mpr ⟨by intro h; exact absurd (List.mem_singleton.mp h) (by decide),
        List.not_mem_nil⟩)]
      rfl
    rw [hs, ho]
    omega

/-- A gather of a [100000] array at a column of start indices reads, at e, the entry the start index e names, read
    signed and clamped into the node range. -/
theorem gatherVec_at {α : Type} (v : S100000.Idx → α) (idx : IVec S1600000x1 32) (e : Fin 1600000) :
    Host.gather gather_S100000_S1600000x1_S1600000_n_0_n_n_0_1_1 v idx (ix1 e)
      = v (ix1 (⟨min (idx (ix2 e (0 : Fin 1))).toInt.toNat (100000 - 1), by omega⟩ : Fin 100000)) := by
  unfold Host.gather
  congr 1
  funext a
  refine Fin.ext ?_
  match a with
  | ⟨0, _⟩ =>
    show gather_S100000_S1600000x1_S1600000_n_0_n_n_0_1_1.start (ix1 e) idx 0
        + gather_S100000_S1600000x1_S1600000_n_0_n_n_0_1_1.batchCoord (ix1 e) 0
        + gather_S100000_S1600000x1_S1600000_n_0_n_n_0_1_1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S100000_S1600000x1_S1600000_n_0_n_n_0_1_1.startIndexMap from
      List.mem_singleton.mpr rfl)]
    have hsi : gather_S100000_S1600000x1_S1600000_n_0_n_n_0_1_1.siIdx (ix1 e)
        ⟨List.idxOf (0 : Fin 1) gather_S100000_S1600000x1_S1600000_n_0_n_n_0_1_1.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The source row of an edge -/

/-- The row of the node arrays that edge e's source id reads: the normalised source id (a negative id wrapped by the
    number of nodes), read signed and clamped into the node range. -/
def srcRow (x1 : (⟨S2x1600000, .i32⟩ : BufTy).Contents (Elt Ideal)) : Fin 1600000 → Fin 100000 :=
  fun e => ⟨min (val_main_v18 (F := Ideal) x1 (ix2 e (0 : Fin 1))).toInt.toNat (100000 - 1), by omega⟩

/-- The program computes the column of normalised source ids once for each gather; the copies are one array. -/
theorem srcCol_v25 (x1 : (⟨S2x1600000, .i32⟩ : BufTy).Contents (Elt Ideal)) :
    val_main_v25 (F := Ideal) x1 = val_main_v18 (F := Ideal) x1 := rfl
theorem srcCol_v51 (x1 : (⟨S2x1600000, .i32⟩ : BufTy).Contents (Elt Ideal)) :
    val_main_v51 (F := Ideal) x1 = val_main_v18 (F := Ideal) x1 := rfl
theorem srcCol_v58 (x1 : (⟨S2x1600000, .i32⟩ : BufTy).Contents (Elt Ideal)) :
    val_main_v58 (F := Ideal) x1 = val_main_v18 (F := Ideal) x1 := rfl

/-- A gather of the rows of any [100000, 128] array at the normalised source ids reads row srcRow e. -/
theorem gatherRows_apply (Y : S100000x128.Idx → EReal) (x1 : (⟨S2x1600000, .i32⟩ : BufTy).Contents (Elt Ideal))
    (e : Fin 1600000) (j : Fin 128) :
    Host.gather gather_S100000x128_S1600000x1_S1600000x128_1_0_n_n_0_1_1128 Y (val_main_v18 (F := Ideal) x1) (ix2 e j)
      = Y (ix2 (srcRow x1 e) j) :=
  gatherRows_at Y (val_main_v18 (F := Ideal) x1) e j

/-- A gather of any [100000] array at the normalised source ids reads entry srcRow e. -/
theorem gatherVec_apply (v : S100000.Idx → EReal) (x1 : (⟨S2x1600000, .i32⟩ : BufTy).Contents (Elt Ideal))
    (e : Fin 1600000) :
    Host.gather gather_S100000_S1600000x1_S1600000_n_0_n_n_0_1_1 v (val_main_v18 (F := Ideal) x1) (ix1 e)
      = v (ix1 (srcRow x1 e)) :=
  gatherVec_at v (val_main_v18 (F := Ideal) x1) e

/-! ## Layer 1 -/

/-- The messages of layer 1: at edge e, the source's row of the transformed features times the source's weight. -/
theorem msg1_apply (x0 : (⟨S100000x128, .f32⟩ : BufTy).Contents (Elt Ideal))
    (x1 : (⟨S2x1600000, .i32⟩ : BufTy).Contents (Elt Ideal)) (x3 : (⟨S128x128, .f32⟩ : BufTy).Contents (Elt Ideal))
    (e : Fin 1600000) (j : Fin 128) :
    val_main_v29 (F := Ideal) x0 x1 x3 (ix2 e j)
      = val_main_v12 (F := Ideal) x0 x3 (ix2 (srcRow x1 e) j) * val_main_v11 (F := Ideal) x1 (ix1 (srcRow x1 e)) := by
  have h19 : val_main_v19 (F := Ideal) x0 x1 x3 (ix2 e j) = val_main_v12 (F := Ideal) x0 x3 (ix2 (srcRow x1 e) j) :=
    gatherRows_apply (val_main_v12 (F := Ideal) x0 x3) x1 e j
  have h26 : val_main_v26 (F := Ideal) x1 (ix1 e) = val_main_v11 (F := Ideal) x1 (ix1 (srcRow x1 e)) := by
    unfold val_main_v26
    rw [srcCol_v25]
    exact gatherVec_apply (val_main_v11 (F := Ideal) x1) x1 e
  have h28 : val_main_v28 (F := Ideal) x1 (ix2 e j) = val_main_v11 (F := Ideal) x1 (ix1 (srcRow x1 e)) := by
    unfold val_main_v28 val_main_v27
    rw [RowLayers.columnAcross_apply, RowLayers.columnBroadcast_apply, h26]
  rw [val_main_v29_apply, Ideal.mulf_def, h19, h28]

/-- Layer 1 at (n, k), with the aggregate kept as the scatter-add of the messages: the program's
    A * d + h * (d * d) + b is (A + h * d) * d + b, for a weight d that is a nonnegative real number. -/
theorem layer1_apply (x0 : (⟨S100000x128, .f32⟩ : BufTy).Contents (Elt Ideal))
    (x1 : (⟨S2x1600000, .i32⟩ : BufTy).Contents (Elt Ideal)) (x3 : (⟨S128x128, .f32⟩ : BufTy).Contents (Elt Ideal))
    (x4 : (⟨S128, .f32⟩ : BufTy).Contents (Elt Ideal)) (n : Fin 100000) (k : Fin 128)
    (hd : ∃ r : ℝ, 0 ≤ r ∧ val_main_v11 (F := Ideal) x1 (ix1 n) = ((r : ℝ) : EReal)) :
    val_main_v44 (F := Ideal) x0 x1 x3 x4 (ix2 n k)
      = max ((val_main_v32 (F := Ideal) x0 x1 x3 (ix2 n k)
              + val_main_v12 (F := Ideal) x0 x3 (ix2 n k) * val_main_v11 (F := Ideal) x1 (ix1 n))
            * val_main_v11 (F := Ideal) x1 (ix1 n) + x4 (ix1 k)) 0 := by
  have h34 : val_main_v34 (F := Ideal) x1 (ix2 n k) = val_main_v11 (F := Ideal) x1 (ix1 n) := by
    unfold val_main_v34 val_main_v33
    rw [RowLayers.columnAcross_apply, RowLayers.columnBroadcast_apply]
  have h38 : val_main_v38 (F := Ideal) x1 (ix2 n k)
      = val_main_v11 (F := Ideal) x1 (ix1 n) * val_main_v11 (F := Ideal) x1 (ix1 n) := by
    unfold val_main_v38 val_main_v37
    rw [RowLayers.columnAcross_apply, RowLayers.columnBroadcast_apply, val_main_v36_apply, Ideal.mulf_def]
  have h42 : val_main_v42 (F := Ideal) x4 (ix2 n k) = x4 (ix1 k) := by
    unfold val_main_v42 val_main_v41
    rw [RowLayers.rowDown_apply, RowLayers.rowBroadcast_apply]
  have h0 : val_main_call0_v0 (F := Ideal) (ix2 n k) = 0 := by
    unfold val_main_call0_v0 val_main_call0_cst
    rw [RowLayers.scalarBroadcast_apply, Ideal.ofBits_zero_f32]
  obtain ⟨r, hr0, hr⟩ := hd
  rw [val_main_v44_apply, Ideal.maximumf_def, h0, val_main_v43_apply, Ideal.addf_def, h42, val_main_v40_apply,
    Ideal.addf_def, val_main_v35_apply, Ideal.mulf_def, h34, val_main_v39_apply, Ideal.mulf_def, h38, hr,
    EReal.right_distrib_of_nonneg_of_ne_top (EReal.coe_nonneg.mpr hr0) (EReal.coe_ne_top r), mul_assoc]

/-! ## Layer 2 -/

/-- The messages of layer 2: at edge e, the source's row of the transformed hidden features times the source's weight. -/
theorem msg2_apply (x0 : (⟨S100000x128, .f32⟩ : BufTy).Contents (Elt Ideal))
    (x1 : (⟨S2x1600000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (e : Fin 1600000) (j : Fin 128) :
    val_main_v62 (F := Ideal) x0 x1 x3 x4 x5 (ix2 e j)
      = val_main_v45 (F := Ideal) x0 x1 x3 x4 x5 (ix2 (srcRow x1 e) j)
        * val_main_v11 (F := Ideal) x1 (ix1 (srcRow x1 e)) := by
  have h52 : val_main_v52 (F := Ideal) x0 x1 x3 x4 x5 (ix2 e j)
      = val_main_v45 (F := Ideal) x0 x1 x3 x4 x5 (ix2 (srcRow x1 e) j) := by
    unfold val_main_v52
    rw [srcCol_v51]
    exact gatherRows_apply (val_main_v45 (F := Ideal) x0 x1 x3 x4 x5) x1 e j
  have h59 : val_main_v59 (F := Ideal) x1 (ix1 e) = val_main_v11 (F := Ideal) x1 (ix1 (srcRow x1 e)) := by
    unfold val_main_v59
    rw [srcCol_v58]
    exact gatherVec_apply (val_main_v11 (F := Ideal) x1) x1 e
  have h61 : val_main_v61 (F := Ideal) x1 (ix2 e j) = val_main_v11 (F := Ideal) x1 (ix1 (srcRow x1 e)) := by
    unfold val_main_v61 val_main_v60
    rw [RowLayers.columnAcross_apply, RowLayers.columnBroadcast_apply, h59]
  rw [val_main_v62_apply, Ideal.mulf_def, h52, h61]

/-- Layer 2 at (n, k), with the aggregate kept as the scatter-add of the messages: the program's
    A * d + h * (d * d) + b is (A + h * d) * d + b, for a weight d that is a nonnegative real number. -/
theorem layer2_apply (x0 : (⟨S100000x128, .f32⟩ : BufTy).Contents (Elt Ideal))
    (x1 : (⟨S2x1600000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (n : Fin 100000) (k : Fin 128)
    (hd : ∃ r : ℝ, 0 ≤ r ∧ val_main_v11 (F := Ideal) x1 (ix1 n) = ((r : ℝ) : EReal)) :
    val_main_v77 (F := Ideal) x0 x1 x3 x4 x5 x6 (ix2 n k)
      = max ((val_main_v65 (F := Ideal) x0 x1 x3 x4 x5 (ix2 n k)
              + val_main_v45 (F := Ideal) x0 x1 x3 x4 x5 (ix2 n k) * val_main_v11 (F := Ideal) x1 (ix1 n))
            * val_main_v11 (F := Ideal) x1 (ix1 n) + x6 (ix1 k)) 0 := by
  have h67 : val_main_v67 (F := Ideal) x1 (ix2 n k) = val_main_v11 (F := Ideal) x1 (ix1 n) := by
    unfold val_main_v67 val_main_v66
    rw [RowLayers.columnAcross_apply, RowLayers.columnBroadcast_apply]
  have h71 : val_main_v71 (F := Ideal) x1 (ix2 n k)
      = val_main_v11 (F := Ideal) x1 (ix1 n) * val_main_v11 (F := Ideal) x1 (ix1 n) := by
    unfold val_main_v71 val_main_v70
    rw [RowLayers.columnAcross_apply, RowLayers.columnBroadcast_apply, val_main_v69_apply, Ideal.mulf_def]
  have h75 : val_main_v75 (F := Ideal) x6 (ix2 n k) = x6 (ix1 k) := by
    unfold val_main_v75 val_main_v74
    rw [RowLayers.rowDown_apply, RowLayers.rowBroadcast_apply]
  have h0 : val_main_call1_v0 (F := Ideal) (ix2 n k) = 0 := by
    unfold val_main_call1_v0 val_main_call1_cst
    rw [RowLayers.scalarBroadcast_apply, Ideal.ofBits_zero_f32]
  obtain ⟨r, hr0, hr⟩ := hd
  rw [val_main_v77_apply, Ideal.maximumf_def, h0, val_main_v76_apply, Ideal.addf_def, h75, val_main_v73_apply,
    Ideal.addf_def, val_main_v68_apply, Ideal.mulf_def, h67, val_main_v72_apply, Ideal.mulf_def, h71, hr,
    EReal.right_distrib_of_nonneg_of_ne_top (EReal.coe_nonneg.mpr hr0) (EReal.coe_ne_top r), mul_assoc]

end Cert.Bridge

end
-- ==== Proof.Val.Arr0.lean ====
/- The output array of pallas_call 0 (`cc0__dense_scale_kernel`) after the region's write-backs, element by element, at the
   exact real-number instance: element `(n, j)` is row `n` of the node features against column `j` of the weight matrix,
   times the row's entry of the weight column. From blocks to the array: at grid point `t` the three row-blocked windows
   (features, weight column, output) sit at rows `5000 t … 5000 t + 4999` of their arrays and the weight matrix's window is
   the whole matrix; so what point `t` writes back is block `t` of ONE whole-array function of the three arrays as the
   region finds them, the 20 blocks cover the output array (row `r` is in the block of point `r / 5000`), and the array ends
   holding that function. -/
import proofs.«401564_j70566312673591_2_alg».proof.Proof.KI.R0
import proofs.«401564_j70566312673591_2_alg».proof.Proof.Val.Pay01
import Idealize.ShloMosaic.Lib.Pipeline.Value
import Idealize.ShloMosaic.Lib.ValueIdx

noncomputable section

open scoped BigOperators

namespace Cert.Bridge

open Cert.KernelIdeal Cert.KernelIdeal.Gen Cert.KernelIdeal.Hand Idealize.ShloMosaic Idealize.ShloMosaic.TcCoe Idealize.ShloMosaic.ValueIdx Idealize.SL.Sem
open Idealize.ShloMosaic.Pipeline (Dat)

-- the TensorCore's buffer contents when pallas_call 0 is entered
variable (V : (c : Dev nD) → (b : Ref sig .tc) → Buf (Elt Ideal) ((c : Thread nD τ).loc b))

namespace Arr0

/-- The whole-buffer rectangles' offsets, spelt as the zero function. -/
theorem zero_offsets : (![0, 0] : Fin 2 → Nat) = fun _ => 0 := funext fun a => by fin_cases a <;> rfl

/-! ## The array the output ends holding, element by element -/

/-- One element of the dense layer scaled by its row's weight: row `n` of the node features against column `j` of the
    weight matrix, times the row's entry of the weight column. -/
def denseScale (x : S100000x128.Idx → EReal) (w : S128x128.Idx → EReal) (d : S100000x1.Idx → EReal) (n : Fin 100000) (j : Fin 128) : EReal :=
  (∑ k : Fin 128, x (ix2 n k) * w (ix2 k j)) * d (ix2 n (0 : Fin 1))

/-- `denseScale` spelt out. -/
theorem denseScale_def (x : S100000x128.Idx → EReal) (w : S128x128.Idx → EReal) (d : S100000x1.Idx → EReal) (n : Fin 100000) (j : Fin 128) :
    denseScale x w d n j = (∑ k : Fin 128, x (ix2 n k) * w (ix2 k j)) * d (ix2 n (0 : Fin 1)) := rfl

/-- The whole array of them. -/
abbrev denseScaleArr (x : S100000x128.Idx → EReal) (w : S128x128.Idx → EReal) (d : S100000x1.Idx → EReal) : S100000x128.Idx → EReal :=
  fun i => denseScale x w d (i 0) (i 1)

/-! ## The printed index maps over the grid -/

/-- At point `t` the three row-blocked windows (features, weight column, output) are at row block `t`, column block 0,
    and the weight matrix at block (0, 0): decided over the 20 points. -/
theorem point_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The grid has 20 points, as a bound on a point's number. -/
theorem point_lt (t : Fin cfg0.N) : t.val < 20 := lt_of_lt_of_eq t.isLt N_0

/-! ## Each input block as rows of its array -/

/-- The features' block at point `t` is rows `5000 t … 5000 t + 4999` of the array. -/
theorem features_block_apply (c : Dev nD) (t : Fin cfg0.N) (p : Fin 5000) (k : Fin 128) (n : Fin 100000) (hn : n.val = 5000 * t.val + p.val) :
    (iblk0 V c 0 t : Vec Ideal S5000x128 .f32) (ix2 p k) = (V c main_arg0 : S100000x128.Idx → EReal) (ix2 n k) := by
  obtain ⟨e0, e1, -⟩ := point_index t
  unfold iblk0
  rw [View.read_apply]
  show V c main_arg0 _ = V c main_arg0 _
  congr 1
  funext a
  apply Fin.ext
  match a with
  | ⟨0, _⟩ => show win0_0.index t (0 : Fin 2) * 5000 + 1 * p.val = n.val; omega
  | ⟨1, _⟩ => show win0_0.index t (1 : Fin 2) * 128 + 1 * k.val = k.val; omega

/-- The weight matrix's block at every point is the whole matrix. -/
theorem weights_block_apply (c : Dev nD) (t : Fin cfg0.N) (k : Fin 128) (q : Fin 128) :
    (iblk0 V c 1 t : Vec Ideal S128x128 .f32) (ix2 k q) = (V c main_arg3 : S128x128.Idx → EReal) (ix2 k q) := by
  obtain ⟨-, -, e0, e1, -⟩ := point_index t
  unfold iblk0
  rw [View.read_apply]
  show V c main_arg3 _ = V c main_arg3 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- The weight column's block at point `t` is rows `5000 t … 5000 t + 4999` of the column. -/
theorem column_block_apply (c : Dev nD) (t : Fin cfg0.N) (p : Fin 5000) (n : Fin 100000) (hn : n.val = 5000 * t.val + p.val) :
    (iblk0 V c 2 t : Vec Ideal S5000x1 .f32) (ix2 p (0 : Fin 1)) = (V c main_v12 : S100000x1.Idx → EReal) (ix2 n (0 : Fin 1)) := by
  obtain ⟨-, -, -, -, e0, e1, -⟩ := point_index t
  unfold iblk0
  rw [View.read_apply]
  show V c main_v12 _ = V c main_v12 _
  congr 1
  funext a
  apply Fin.ext
  match a with
  | ⟨0, _⟩ => show win0_2.index t (0 : Fin 2) * 5000 + 1 * p.val = n.val; omega
  | ⟨1, _⟩ => show win0_2.index t (1 : Fin 2) * 1 + 1 * 0 = 0; omega

/-! ## What a point writes back -/

/-- WHAT POINT `t` WRITES BACK is block `t` of `denseScaleArr` of the three arrays as the region finds them. -/
theorem flushed_out_eq (c : Dev nD) (t : Fin cfg0.N) :
    (dat0 (F := Ideal) V c).flushed 3 t
      = ((cfg0.win 3).blk t).view.read (Elt Ideal) (denseScaleArr (V c main_arg0) (V c main_arg3) (V c main_v12)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  obtain ⟨-, -, -, -, -, -, e0, e1⟩ := point_index t
  have ht : t.val < 20 := point_lt t
  funext y
  obtain ⟨p, q, rfl⟩ : ∃ (p : Fin 5000) (q : Fin 128), y = ix2 p q := ⟨y 0, y 1, eq_ix2 y⟩
  -- the element's row in the array
  have hp : p.val < 5000 := p.isLt
  let n : Fin 100000 := ⟨5000 * t.val + p.val, by omega⟩
  have hemb : ((cfg0.win 3).blk t).view.emb (ix2 p q) = (ix2 n q : S100000x128.Idx) := by
    funext a
    apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  show k0_pay1 (F := Ideal) (iblk0 V c 0 t) (iblk0 V c 1 t) (iblk0 V c 2 t) (ix2 p q)
      = denseScaleArr (V c main_arg0) (V c main_arg3) (V c main_v12) (((cfg0.win 3).blk t).view.emb (ix2 p q))
  rw [hemb, pay0_apply]
  show _ = denseScale (V c main_arg0) (V c main_arg3) (V c main_v12) n q
  unfold denseScale
  rw [column_block_apply V c t p n rfl]
  congr 1
  exact Finset.sum_congr rfl fun k _ => by
    rw [features_block_apply V c t p k n rfl, weights_block_apply V c t k q]

/-! ## The output's blocks cover its array -/

/-- An index of the array is in point `t`'s block iff each coordinate is in the block's range on its axis. -/
theorem mem_out_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Row `r` of the array is in the block of point `r / 5000`, which writes back. -/
theorem out_blocks_cover (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  let t : Fin cfg0.N := ⟨(i 0).val / 5000, lt_of_lt_of_eq (show (i 0).val / 5000 < 20 by omega) N_0.symm⟩
  obtain ⟨-, -, -, -, -, -, e0, e1⟩ := point_index t
  have ht : t.val = (i 0).val / 5000 := rfl
  refine ⟨t, flush0_3 t, ?_⟩
  rw [mem_out_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-! ## The array after the region -/

/-- THE ARRAY after the region's write-backs is `denseScaleArr` of the three arrays as the region finds them. -/
theorem out_array_eq (c : Dev nD) :
    (dat0 (F := Ideal) V c).arrAt 3 cfg0.N = denseScaleArr (V c main_arg0) (V c main_arg3) (V c main_v12) :=
  (dat0 (F := Ideal) V c).arrAt_eq_of_cover 3 (denseScaleArr (V c main_arg0) (V c main_arg3) (V c main_v12))
    (fun t _ => flushed_out_eq V c t) out_blocks_cover

end Arr0

/-- Element `(n, j)` of the output array after pallas_call 0: row `n` of the node features against column `j` of the weight
    matrix, times the row's entry of the weight column (`Arr0.denseScale`, spelt out by `Arr0.denseScale_def`), of the three
    arrays as the region finds them. -/
theorem arr0_apply (c : Dev nD) (n : Fin 100000) (j : Fin 128) :
    (Cert.KernelIdeal.Hand.dat0 (F := Ideal) V c).arrAt 3 cfg0.N (ix2 n j)
      = Arr0.denseScale (V c main_arg0) (V c main_arg3) (V c main_v12) n j := by
  rw [Arr0.out_array_eq V c]

end Cert.Bridge

end
-- ==== Proof.Val.Stage1a.lean ====
/- The first stage of the comparison, first half: what the kernel program holds, up to and including pallas_call 0, read
   against the reference program's own terms of the same arguments.
   The first host stretch computes the degree scale (the number of edges into a node, plus one, to the power −1/2) from
   the edge list; the reference computes the same vector by the same operations, so the two terms are one term. The
   scale's column layout reads the vector. pallas_call 0 then leaves, at row `n` and column `j`, row `n` of the node
   features against column `j` of the first weight matrix, times the row's scale: the reference's matrix product at
   `(n, j)` times its scale at `n`. -/
import proofs.«401564_j70566312673591_2_alg».proof.Proof.KI.Run
import proofs.«401564_j70566312673591_2_alg».proof.Proof.Val.Host
import proofs.«401564_j70566312673591_2_alg».proof.Proof.Val.Arr0
import proofs.«401564_j70566312673591_2_alg».proof.Proof.RefImports
import proofs.«401564_j70566312673591_2_alg».proof.Proof.LibRowLayers

noncomputable section

open scoped BigOperators

namespace Cert.Bridge

open Cert.KernelIdeal Cert.KernelIdeal.Hand Idealize.ShloMosaic Idealize.ShloMosaic.TcCoe Idealize.ShloMosaic.ValueIdx Idealize.SL.Sem

-- the kernel program's launch memory and generator registers, and the core
variable (m : (ℓ : Loc nD τ sig) → Buf (Elt Ideal) ℓ) (ρ : Dev nD → PrngReg) (c : Dev nD)

-- the arguments the first stage reads: the node features, the edge list, the first weight matrix
set_option quotPrecheck false in
local notation "x0" => m ((c : Thread nD τ).loc main_arg0)
set_option quotPrecheck false in
local notation "x1" => m ((c : Thread nD τ).loc main_arg1)
set_option quotPrecheck false in
local notation "x3" => m ((c : Thread nD τ).loc main_arg3)

namespace Stage1a

/-- The kernel program's degree scale of the edge list's destination row IS the reference's: the same operations in the
    same order (the destination row sliced and flattened, laid out as a column of indices, ones scatter-added into zeros
    at it, one added, the power −1/2), each program with its own copy of the operations' dimension records. -/
theorem degScale_eq_ref (e : Vec Ideal S2x1600000 .i32) :
    degScale (edgeRow1 e) = Cert.ReferenceIdeal.Read.val_main_v11 (F := Ideal) e := by
  unfold degScale edgeRow1 idCol
  unfold Cert.ReferenceIdeal.Read.val_main_v11 Cert.ReferenceIdeal.Read.val_main_v9 Cert.ReferenceIdeal.Read.val_main_v10
    Cert.ReferenceIdeal.Read.val_main_v7 Cert.ReferenceIdeal.Read.val_main_v8 Cert.ReferenceIdeal.Read.val_main_v4
    Cert.ReferenceIdeal.Read.val_main_v5 Cert.ReferenceIdeal.Read.val_main_v6 Cert.ReferenceIdeal.Read.val_main_v3
    Cert.ReferenceIdeal.Read.val_main_v2 Cert.ReferenceIdeal.Read.val_main_cst Cert.ReferenceIdeal.Read.val_main_cst_0
    Cert.ReferenceIdeal.Read.val_main_cst_1 Cert.ReferenceIdeal.Read.val_main_cst_2
  rfl

/-- The reference's left operand index of the product at `(n, j)`, term `k`, is `(n, k)`; -/
theorem lidx_eq (n : Fin 100000) (j k : Fin 128) :
    Cert.ReferenceIdeal.Read.lidx_main_v12 (ix2 n j) k = ix2 n k := by
  funext a; apply Fin.ext
  match a with
  | ⟨0, _⟩ => rfl
  | ⟨1, _⟩ => rfl

/-- its right operand index is `(k, j)`. -/
theorem ridx_eq (n : Fin 100000) (j k : Fin 128) :
    Cert.ReferenceIdeal.Read.ridx_main_v12 (ix2 n j) k = ix2 k j := by
  funext a; apply Fin.ext
  match a with
  | ⟨0, _⟩ => rfl
  | ⟨1, _⟩ => rfl

end Stage1a

/-- The degree scale after the first host stretch, entry `n`: the reference's. -/
theorem stage_d11 (n : Fin 100000) :
    W1 m ρ c (Proc.devRef .tc main_v11) (ix1 n) = Cert.ReferenceIdeal.Read.val_main_v11 (F := Ideal) x1 (ix1 n) := by
  show StableHlo.after Gen.hostOps0 (W0 m ρ c) (Proc.devRef .tc main_v11) (ix1 n) = _
  rw [host0_v11]
  exact congrFun (Stage1a.degScale_eq_ref x1) (ix1 n)

/-- The scale's column as pallas_call 0 finds it, at `(n, 0)`: the vector's entry `n`. -/
theorem stage_d (n : Fin 100000) :
    V1 m ρ c main_v12 (ix2 n (0 : Fin 1)) = Cert.ReferenceIdeal.Read.val_main_v11 (F := Ideal) x1 (ix1 n) := by
  show StableHlo.after Gen.hostOps0 (W0 m ρ c) (Proc.devRef .tc main_v12) (ix2 n (0 : Fin 1)) = _
  rw [host0_v12, RowLayers.column_apply]
  exact congrFun (Stage1a.degScale_eq_ref x1) (ix1 n)

/-- What pallas_call 0 leaves at `(n, j)`: the reference's matrix product of the features and the first weight matrix at
    `(n, j)`, times its degree scale at `n`. -/
theorem stage_h1 (n : Fin 100000) (j : Fin 128) :
    W2 m ρ c (Proc.devRef .tc main_v13) (ix2 n j)
      = Cert.ReferenceIdeal.Read.val_main_v12 (F := Ideal) x0 x3 (ix2 n j) * Cert.ReferenceIdeal.Read.val_main_v11 (F := Ideal) x1 (ix1 n) := by
  -- the output window's array after the region, element by element
  refine (congrFun (W2_arr m ρ c 3) (ix2 n j)).trans ?_
  rw [arr0_apply (V1 m ρ) c n j]
  -- the features and the weight matrix come through the first host stretch untouched
  have h0 : V1 m ρ c main_arg0 = x0 := host0_keep (W0 m ρ c) main_arg0 (by decide)
  have h3 : V1 m ρ c main_arg3 = x3 := host0_keep (W0 m ρ c) main_arg3 (by decide)
  rw [h0, h3, Arr0.denseScale_def, stage_d m ρ c n, Cert.ReferenceIdeal.Read.val_main_v12_apply]
  congr 1
  exact Finset.sum_congr rfl fun k _ => by rw [Stage1a.lidx_eq, Stage1a.ridx_eq]

end Cert.Bridge

end
-- ==== Proof.Val.Stage1b.lean ====
/-
  The first stage of the comparison, second half: the sum, over the edges into every node, of the source nodes' rows.

  Both programs add, into row n of a zero matrix, one row per edge whose destination is n. The kernel program adds
  the source node's row of what pallas_call 0 left, which is the transformed features already scaled by the source's
  degree scale; the reference adds the source node's row of the transformed features times the source's degree
  scale, gathered separately. The two columns of normalised source ids, the two columns of destination ids and the
  two zero matrices are the same operations of the edge list, so the two sums have equal operands once the rows
  added are equal edge by edge.
-/
import proofs.«401564_j70566312673591_2_alg».proof.Proof.KI.Run
import proofs.«401564_j70566312673591_2_alg».proof.Proof.Val.Host
import proofs.«401564_j70566312673591_2_alg».proof.Proof.Ref.Layers
import proofs.«401564_j70566312673591_2_alg».proof.Proof.Val.Stage1a
import Idealize.ShloMosaic.Lib.ValueIdx

noncomputable section

namespace Cert.Bridge

open Cert.KernelIdeal Cert.KernelIdeal.Hand Idealize.ShloMosaic Idealize.ShloMosaic.TcCoe Idealize.ShloMosaic.ValueIdx Idealize.SL.Sem
open Cert.KernelIdeal.Gen (hostOps1 bcast_S_S100000x128 bitsLt_bf16_f32)

/-! ## The operands the two programs share -/

/-- The kernel program's column of normalised source ids is the reference's: the same operations of the edge list. -/
theorem kernel_srcCol_eq {F : FTy → Type} [FloatOps F] (x1 : Vec F S2x1600000 .i32) :
    idCol (normIds (edgeRow0 x1)) = Cert.ReferenceIdeal.Read.val_main_v18 (F := F) x1 := rfl

/-- The kernel program's column of destination ids is the reference's. -/
theorem kernel_dstCol_eq {F : FTy → Type} [FloatOps F] (x1 : Vec F S2x1600000 .i32) :
    idCol (edgeRow1 x1) = Cert.ReferenceIdeal.Read.val_main_v31 (F := F) x1 := rfl

/-- The zero matrix the kernel program adds into is the reference's. -/
theorem kernel_zeros_eq {F : FTy → Type} [FloatOps F] :
    (broadcastInDim S100000x128 ![] bcast_S_S100000x128 (constant S_ .f32 0x00000000#32) : Vec F S100000x128 .f32)
      = Cert.ReferenceIdeal.Read.val_main_v30 (F := F) := rfl

/-! ## The sum over the incoming edges -/

/-- The kernel program's sum over the incoming edges of the source rows of `Y` is the reference's scatter-add, at its
    own destination column into its own zero matrix, of any updates `U` that hold at edge `e` the source row of `Y`. -/
theorem aggregate_eq (Y : S100000x128.Idx → EReal) (x1 : Vec Ideal S2x1600000 .i32) (U : S1600000x128.Idx → EReal)
    (hU : ∀ (e : Fin 1600000) (j : Fin 128), U (ix2 e j) = Y (ix2 (srcRow x1 e) j)) :
    aggregate (F := Ideal) Y (edgeRow0 x1) (edgeRow1 x1)
      = Host.scatterAdd (F := Ideal) (φ := .f32) Cert.ReferenceIdeal.scatter_S100000x128_S1600000x1_S1600000x128_1_0_0_1
          (Cert.ReferenceIdeal.Read.val_main_v30 (F := Ideal)) (Cert.ReferenceIdeal.Read.val_main_v31 (F := Ideal) x1) U := by
  -- the rows added: widening is the identity on extended reals, and the gather reads the source row
  have hu : extf (F := Ideal) (φ := .bf16) .f32
      (Host.gather gather_S100000x128_S1600000x1_S1600000x128_1_0_n_n_0_1_1128 Y (idCol (normIds (edgeRow0 x1)))) bitsLt_bf16_f32 = U := by
    funext i
    obtain ⟨e, j, rfl⟩ : ∃ (e : Fin 1600000) (j : Fin 128), i = ix2 e j := ⟨i 0, i 1, eq_ix2 i⟩
    rw [extf_apply, kernel_srcCol_eq, hU]
    exact gatherRows_apply Y x1 e j
  unfold aggregate
  rw [hu, kernel_dstCol_eq, kernel_zeros_eq]
  rfl

-- the kernel program's launch memory and generator registers, and the core
variable (m : (ℓ : Loc nD τ sig) → Buf (Elt Ideal) ℓ) (ρ : Dev nD → PrngReg) (c : Dev nD)

-- the arguments the first stage reads: the node features, the edge list, the first weight matrix
set_option quotPrecheck false in
local notation "x0" => m ((c : Thread nD τ).loc main_arg0)
set_option quotPrecheck false in
local notation "x1" => m ((c : Thread nD τ).loc main_arg1)
set_option quotPrecheck false in
local notation "x3" => m ((c : Thread nD τ).loc main_arg3)

/-- pallas_call 0 leaves the edge list's source row as the first host stretch made it. -/
theorem W2_main_v1 : W2 m ρ c (Proc.devRef .tc main_v1) = edgeRow0 x1 :=
  (W2_of_ne m ρ c main_v1 (by decide)).trans (host0_v1 (W0 m ρ c))

/-- pallas_call 0 leaves the edge list's destination row as the first host stretch made it. -/
theorem W2_main_v3 : W2 m ρ c (Proc.devRef .tc main_v3) = edgeRow1 x1 :=
  (W2_of_ne m ρ c main_v3 (by decide)).trans (host0_v3 (W0 m ρ c))

/-- After the second host stretch the kernel program holds the reference's first aggregate: at edge `e` it adds the
    source's row of what pallas_call 0 left, the transformed features times the source's degree scale, which is the
    reference's message at `e`. -/
theorem stage_agg1 :
    W3 m ρ c (Proc.devRef .tc main_v24) = Cert.ReferenceIdeal.Read.val_main_v32 (F := Ideal) x0 x1 x3 := by
  show StableHlo.after hostOps1 (W2 m ρ c) (Proc.devRef .tc main_v24) = _
  rw [host1_v24, W2_main_v1, W2_main_v3]
  exact aggregate_eq _ x1 _ fun e j => by rw [msg1_apply, stage_h1]

end Cert.Bridge

end
-- ==== Proof.Ref.Dinv.lean ====
/-
  The reference's normalisation weights are nonnegative real numbers.

  A node's weight is (c + 1) ^ (-1/2), where c is the scatter-add of ones into zeros at the node: a finite sum of ones,
  hence a natural number, whatever set of updates lands on the node. A real base that is not negative raised to a real
  exponent is a real that is not negative.
-/
import proofs.«401564_j70566312673591_2_alg».proof.Proof.RefImports
import Idealize.ShloMosaic.PureOps.Ideal.Laws
import Idealize.ShloMosaic.Lib.ValueIdx
import Idealize.ShloMosaic.Lib.IdealHost

noncomputable section

open scoped BigOperators

namespace Cert.Bridge

open Cert.ReferenceIdeal Cert.ReferenceIdeal.Read Idealize.ShloMosaic Idealize.ShloMosaic.ValueIdx

/-- A finite sum of ones is the number of its terms. -/
theorem sum_ones {ι : Type} (S : Finset ι) (f : ι → EReal) (hf : ∀ j, f j = 1) :
    ∑ j ∈ S, f j = ((S.card : ℝ) : EReal) := by
  rw [Finset.sum_congr rfl (fun j _ => hf j), Finset.sum_const, nsmul_one]
  rfl

/-- The exponent's word is the real -1/2. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- An accumulating scatter of ones into zeros reads, at every element, a natural number: the number of updates that
    land there, whichever they are. -/
theorem scatterAdd_ones_nat {s si su : Shape} {w : Nat} (d : ScatterDims s si su) (x : s.Idx → EReal) (idx : IVec si w)
    (upd : su.Idx → EReal) (hx : ∀ i, x i = 0) (hu : ∀ j, upd j = 1) (i : s.Idx) :
    ∃ c : ℕ, Ideal.hostScatterAdd d x idx upd i = ((c : ℝ) : EReal) := by
  unfold Ideal.hostScatterAdd
  exact ⟨_, by rw [hx, zero_add, sum_ones _ _ hu]⟩

/-- The splat of zeros the scatter accumulates into. -/
theorem zeros_apply (i : S100000.Idx) : val_main_v5 (F := Ideal) i = 0 := by
  rw [val_main_v5_apply, val_main_cst_0_apply, Ideal.ofBits_def, Ideal.ofBits_zero_f32]

/-- The splat of ones it scatters. -/
theorem ones_apply (j : S1600000.Idx) : val_main_v4 (F := Ideal) j = 1 := by
  rw [val_main_v4_apply, val_main_cst_apply, Ideal.ofBits_def, Ideal.ofBits_one_f32]

/-- The same for the host's accumulating scatter as a reference program states it. -/
theorem hostScatterAdd_ones_nat {s si su : Shape} {φ : FTy} {w : Nat} (d : ScatterDims s si su) (x : FVec Ideal s φ)
    (idx : IVec si w) (upd : FVec Ideal su φ) (hx : ∀ i, x i = 0) (hu : ∀ j, upd j = 1) (i : s.Idx) :
    ∃ c : ℕ, Host.scatterAdd d x idx upd i = ((c : ℝ) : EReal) :=
  scatterAdd_ones_nat d x idx upd hx hu i

/-- The number of updates that land on a node: the scatter-add of ones into zeros there is a natural number. -/
theorem degree_nat (x1 : (⟨S2x1600000, .i32⟩ : BufTy).Contents (Elt Ideal)) (i : S100000.Idx) :
    ∃ c : ℕ, val_main_v7 (F := Ideal) x1 i = ((c : ℝ) : EReal) := by
  unfold val_main_v7
  have h5 : ∀ i, val_main_v5 (F := Ideal) i = 0 := zeros_apply
  have h4 : ∀ j, val_main_v4 (F := Ideal) j = 1 := ones_apply
  generalize val_main_v5 (F := Ideal) = x at h5 ⊢
  generalize val_main_v4 (F := Ideal) = u at h4 ⊢
  generalize val_main_v6 (F := Ideal) x1 = idx
  exact hostScatterAdd_ones_nat (φ := .f32) _ x idx u h5 h4 i

/-- Every node's weight is a real number that is not negative. -/
theorem dinv_real (x1 : (⟨S2x1600000, .i32⟩ : BufTy).Contents (Elt Ideal)) :
    ∃ r : Fin 100000 → ℝ, (∀ n, 0 ≤ r n) ∧ ∀ n, val_main_v11 (F := Ideal) x1 (ix1 n) = ((r n : ℝ) : EReal) := by
  choose c hc using fun n : Fin 100000 => degree_nat x1 (ix1 n)
  refine ⟨fun n => Real.rpow ((c n : ℝ) + 1) (-(1 / 2 : ℝ)), fun n => Real.rpow_nonneg (by positivity) _, fun n => ?_⟩
  rw [val_main_v11_apply, val_main_v9_apply, hc n, val_main_v8_apply, val_main_cst_1_apply, val_main_v10_apply,
    val_main_cst_2_apply, Ideal.hostPowf_def, Ideal.addf_def, Ideal.ofBits_def, Ideal.ofBits_def, Ideal.ofBits_one_f32,
    ofBits_neg_half_f32, ← EReal.coe_one, ← EReal.coe_add, Ideal.pow_coe_coe]

end Cert.Bridge

end
-- ==== Proof.Val.Stage2.lean ====
import proofs.«401564_j70566312673591_2_alg».proof.Proof.KI.Run
import proofs.«401564_j70566312673591_2_alg».proof.Proof.Val.Host
import proofs.«401564_j70566312673591_2_alg».proof.Proof.Val.Arr1
import proofs.«401564_j70566312673591_2_alg».proof.Proof.Val.Stage1b
import proofs.«401564_j70566312673591_2_alg».proof.Proof.Ref.Layers
import proofs.«401564_j70566312673591_2_alg».proof.Proof.Ref.Dinv

/-! The middle stage of the comparison of the two programs, at the exact instance: after the second kernel region the
    result array holds, at row `n` and column `j`, the reference's product of the first layer's output with the second
    weight matrix, scaled by the row's weight; and after the host operations that follow, the aggregate array is the
    reference's sum of the second layer's messages over the incoming edges. -/

noncomputable section

open scoped BigOperators

namespace Cert.Bridge

open Cert.KernelIdeal Cert.KernelIdeal.Hand Idealize.ShloMosaic Idealize.ShloMosaic.TcCoe Idealize.ShloMosaic.ValueIdx Idealize.SL.Sem

/-! ## The second kernel region's result -/

/-- The kernel's second dense layer at row `n`, column `j`, when its operands read as the reference's intermediate
    values there (the aggregate, the scaled first transform, the row's weight, the bias, the second weight matrix), is
    the reference's product of the first layer's output with the second weight matrix, scaled by the row's weight: the
    first layer's output is `max ((A + h · d) · d + b) 0` because the weight is a nonnegative real. -/
theorem combineDense_ref
    (x0 : (⟨Cert.ReferenceIdeal.S100000x128, .f32⟩ : BufTy).Contents (Elt Ideal))
    (x1 : (⟨Cert.ReferenceIdeal.S2x1600000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (agg hs : S100000x128.Idx → EReal) (d : S100000x1.Idx → EReal) (b : S1x128.Idx → EReal) (w : S128x128.Idx → EReal)
    (n : Fin 100000) (j : Fin 128)
    (hagg : ∀ k : Fin 128, agg (ix2 n k) = Cert.ReferenceIdeal.Read.val_main_v32 (F := Ideal) x0 x1 x3 (ix2 n k))
    (hhs : ∀ k : Fin 128, hs (ix2 n k) = Cert.ReferenceIdeal.Read.val_main_v12 (F := Ideal) x0 x3 (ix2 n k) * Cert.ReferenceIdeal.Read.val_main_v11 (F := Ideal) x1 (ix1 n))
    (hd : d (ix2 n (0 : Fin 1)) = Cert.ReferenceIdeal.Read.val_main_v11 (F := Ideal) x1 (ix1 n))
    (hb : ∀ k : Fin 128, b (ix2 (0 : Fin 1) k) = x4 (ix1 k))
    (hw : ∀ k : Fin 128, w (ix2 k j) = x5 (ix2 k j))
    (hreal : ∃ r : ℝ, 0 ≤ r ∧ Cert.ReferenceIdeal.Read.val_main_v11 (F := Ideal) x1 (ix1 n) = ((r : ℝ) : EReal)) :
    combineDense agg hs d b w n j
      = Cert.ReferenceIdeal.Read.val_main_v45 (F := Ideal) x0 x1 x3 x4 x5 (ix2 n j) * Cert.ReferenceIdeal.Read.val_main_v11 (F := Ideal) x1 (ix1 n) := by
  rw [combineDense_apply, Cert.ReferenceIdeal.Read.val_main_v45_apply, hd]
  refine congrArg (fun s : EReal => s * Cert.ReferenceIdeal.Read.val_main_v11 (F := Ideal) x1 (ix1 n)) (Finset.sum_congr rfl fun k _ => ?_)
  have el : Cert.ReferenceIdeal.Read.lidx_main_v45 (ix2 n j) k = ix2 n k := funext fun a => by
    match a with
    | ⟨0, _⟩ => rfl
    | ⟨1, _⟩ => rfl
  have er : Cert.ReferenceIdeal.Read.ridx_main_v45 (ix2 n j) k = ix2 k j := funext fun a => by
    match a with
    | ⟨0, _⟩ => rfl
    | ⟨1, _⟩ => rfl
  rw [hagg, hhs, hb, hw, ← layer1_apply x0 x1 x3 x4 n k hreal, el, er]

-- the kernel program's launch memory and generator registers, and the core
variable (m : (ℓ : Loc nD τ sig) → Buf (Elt Ideal) ℓ) (ρ : Dev nD → PrngReg) (c : Dev nD)

-- the arguments the middle stage reads: the node features, the edge list, the two weight matrices, the first bias
set_option quotPrecheck false in
local notation "x0" => m ((c : Thread nD τ).loc main_arg0)
set_option quotPrecheck false in
local notation "x1" => m ((c : Thread nD τ).loc main_arg1)
set_option quotPrecheck false in
local notation "x3" => m ((c : Thread nD τ).loc main_arg3)
set_option quotPrecheck false in
local notation "x4" => m ((c : Thread nD τ).loc main_arg4)
set_option quotPrecheck false in
local notation "x5" => m ((c : Thread nD τ).loc main_arg5)
/-- After the second kernel region, its result array at row `n`, column `j`. -/
theorem stage_h2 (n : Fin 100000) (j : Fin 128) :
    W4 m ρ c (Proc.devRef .tc main_v27) (ix2 n j)
      = Cert.ReferenceIdeal.Read.val_main_v45 (F := Ideal) x0 x1 x3 x4 x5 (ix2 n j) * Cert.ReferenceIdeal.Read.val_main_v11 (F := Ideal) x1 (ix1 n) := by
  refine (congrFun (W4_arr m ρ c 5) (ix2 n j)).trans ?_
  rw [arr1_apply (V3 m ρ) c n j]
  refine combineDense_ref x0 x1 x3 x4 x5 _ _ _ _ _ n j ?_ ?_ ?_ ?_ ?_ ?_
  · intro k
    exact congrFun (stage_agg1 m ρ c) (ix2 n k)
  · intro k
    exact (congrFun (host1_keep (W2 m ρ c) main_v13 (by decide)) (ix2 n k)).trans (stage_h1 m ρ c n k)
  · refine (congrFun (host1_v25 (W2 m ρ c)) (ix2 n (0 : Fin 1))).trans ?_
    refine (RowLayers.column_apply _ _ n (0 : Fin 1)).trans ?_
    exact (congrFun (W2_of_ne m ρ c main_v11 (by decide)) (ix1 n)).trans (stage_d11 m ρ c n)
  · intro k
    refine (congrFun (host1_v26 (W2 m ρ c)) (ix2 (0 : Fin 1) k)).trans ?_
    refine (shapeCast_a_1a_apply _ _ (0 : Fin 1) k).trans ?_
    exact congrFun ((W2_of_ne m ρ c main_arg4 (by decide)).trans (host0_keep (W0 m ρ c) main_arg4 (by decide))) (ix1 k)
  · intro k
    exact congrFun ((host1_keep (W2 m ρ c) main_arg5 (by decide)).trans ((W2_of_ne m ρ c main_arg5 (by decide)).trans
      (host0_keep (W0 m ρ c) main_arg5 (by decide)))) (ix2 k j)
  · obtain ⟨r, hr0, hr⟩ := dinv_real x1
    exact ⟨r n, hr0 n, hr n⟩

/-! ## The aggregate of the second layer's messages -/

/-- The second kernel region leaves the edge list's source row as the first host stretch made it. -/
theorem W4_main_v1 : W4 m ρ c (Proc.devRef .tc main_v1) = edgeRow0 x1 :=
  (W4_of_ne m ρ c main_v1 (by decide)).trans ((host1_keep (W2 m ρ c) main_v1 (by decide)).trans (W2_main_v1 m ρ c))

/-- The second kernel region leaves the edge list's destination row as the first host stretch made it. -/
theorem W4_main_v3 : W4 m ρ c (Proc.devRef .tc main_v3) = edgeRow1 x1 :=
  (W4_of_ne m ρ c main_v3 (by decide)).trans ((host1_keep (W2 m ρ c) main_v3 (by decide)).trans (W2_main_v3 m ρ c))

/-- After the third host stretch the kernel program holds the reference's second aggregate: at edge `e` it adds the
    source's row of what the second kernel region left, the second transform times the source's degree scale, which is
    the reference's message at `e`; the reference's zero matrix and destination column are the same operations as the
    first layer's. -/
theorem stage_agg2 :
    W5 m ρ c (Proc.devRef .tc main_v38) = Cert.ReferenceIdeal.Read.val_main_v65 (F := Ideal) x0 x1 x3 x4 x5 := by
  show StableHlo.after Gen.hostOps2 (W4 m ρ c) (Proc.devRef .tc main_v38) = _
  rw [host2_v38, W4_main_v1, W4_main_v3]
  exact (aggregate_eq (W4 m ρ c (Proc.devRef .tc main_v27)) x1 (Cert.ReferenceIdeal.Read.val_main_v62 (F := Ideal) x0 x1 x3 x4 x5)
    fun e j => (msg2_apply x0 x1 x3 x4 x5 e j).trans (stage_h2 m ρ c (srcRow x1 e) j).symm).trans rfl

end Cert.Bridge

end
-- ==== Proof.Spec.lean ====
/-
  The membership weight of graph pooling: a node whose graph id is the 32-bit word w contributes 1 to graph g when w is g's word, and 0 otherwise.
  The pooled sum of graph g is the sum over all nodes of this weight times the node's feature; a word outside 0..63 contributes to no graph.
-/
import Mathlib.Data.EReal.Basic

noncomputable section

namespace GraphPool

/-- 1 when the word w is the word of g, else 0. -/
def onehot (w : BitVec 32) (g : Fin 64) : EReal := if w = BitVec.ofNat 32 g.val then 1 else 0

theorem onehot_pos {w : BitVec 32} {g : Fin 64} (h : w = BitVec.ofNat 32 g.val) : onehot w g = 1 := if_pos h
theorem onehot_neg {w : BitVec 32} {g : Fin 64} (h : w ≠ BitVec.ofNat 32 g.val) : onehot w g = 0 := if_neg h

end GraphPool

end
-- ==== Proof.Val.Pay2.lean ====
/-
  The pooling kernel's stored values read at an index, at the exact instance (floats read as extended reals; a change
  of float format is the identity; a product on the matrix unit into a zero accumulator is a plain sum).

  The membership matrix has entry (r, g) equal to 1 when node r's graph id is the word of g and 0 otherwise: a lane
  count along the graphs compared with the id broadcast along the row, the bit widened and read as a number. The
  pooled sums add, to what was accumulated before, the membership matrix transposed times the rectified features (a
  product contracting the rows of both operands); the counts add the membership matrix transposed times a column
  of ones. At the last step each pooled row is divided by the larger of its count and one, and the two heads are affine
  images of the quotient.
-/
import proofs.«401564_j70566312673591_2_alg».proof.Proof.Gen.KernelIdeal.Skeleton
import proofs.«401564_j70566312673591_2_alg».proof.Proof.Spec
import proofs.«401564_j70566312673591_2_alg».proof.Proof.LibRowLayers
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StableHlo.Predicate

noncomputable section

open scoped BigOperators

namespace Cert.Bridge

open Cert.KernelIdeal Cert.KernelIdeal.Gen Idealize.ShloMosaic Idealize.ShloMosaic.ValueIdx GraphPool

/-! ## The cleared accumulators and the membership matrix -/

/-- The cleared pooled sums are zero everywhere. -/
theorem pay5_apply (i : S64x128.Idx) : k2_pay5 (F := Ideal) i = 0 := Ideal.ofBits_zero_f32
/-- The cleared counts are zero everywhere. -/
theorem pay6_apply (i : S64x1.Idx) : k2_pay6 (F := Ideal) i = 0 := Ideal.ofBits_zero_f32

/-- Entry (r, g) of the membership matrix: 1 when node r's graph id is the word of g, else 0. -/
theorem pay7_apply (bt : Vec Ideal S5000x1 .i32) (r : Fin 5000) (g : Fin 64) :
    k2_pay7 (F := Ideal) bt (ix2 r g) = onehot (bt (ix2 r (0 : Fin 1))) g := by
  show ((((IntOp.cmpi .eq (broadcastTo S5000x64 (shapeCast S5000x1 bt _) _ (ix2 r g))
      (broadcastTo S5000x64 (iota .tc S1x64 32 [1] _) _ (ix2 r g))).setWidth 32).toInt : ℝ) : EReal) = _
  rw [shapeCast_self, RowLayers.broadcastColumn_apply, broadcastTo_1b_ab_apply, iota_single_apply]
  show ((((IntOp.cmpi .eq (bt (ix2 r (0 : Fin 1))) (BitVec.ofNat 32 g.val)).setWidth 32).toInt : ℝ) : EReal) = _
  by_cases h : bt (ix2 r (0 : Fin 1)) = BitVec.ofNat 32 g.val
  · rw [onehot_pos h, StableHlo.Predicate.cmpi_eq_iff.mpr h]
    show (((1 : ℤ) : ℝ) : EReal) = 1
    norm_num
  · rw [onehot_neg h, eq_zero_of_ne_one (fun hc => h (StableHlo.Predicate.cmpi_eq_iff.mp hc))]
    show (((0 : ℤ) : ℝ) : EReal) = 0
    norm_num

/-! ## The matrix unit's product at an index, for the two contractions of this kernel -/

/-- The transpose of an m×p matrix times an m×n matrix (both contracted on their first axis), accumulated into the
    zero splat, at (a, b): the sum over the rows of the products of the entries. -/
theorem matmulAxis0_apply {m p n : ℕ} {φ₁ φ₂ : FTy}
    (w : DotDims.WF ⟨2, ![m, p]⟩ ⟨2, ![m, n]⟩ ⟨2, ![p, n]⟩ [0] [0] [1] [1] [] [])
    (prec : Option ContractPrecision) (A : FVec Ideal ⟨2, ![m, p]⟩ φ₁) (B : FVec Ideal ⟨2, ![m, n]⟩ φ₂) (a : Fin p) (b : Fin n) :
    matmul (⟨[0], [0], [1], [1], [], [], w⟩ : DotDims _ _ _) prec A B (constant ⟨2, ![p, n]⟩ .f32 0x00000000#32) (ix2 a b)
      = ∑ c : Fin m, A (ix2 c a) * B (ix2 c b) := by
  refine (Ideal.matmul_constant_zero_apply (⟨[0], [0], [1], [1], [], [], w⟩ : DotDims _ _ _) prec A B (ix2 a b)).trans ?_
  rw [← Equiv.sum_comp (contrEquiv1 (⟨[0], [0], [1], [1], [], [], w⟩ : DotDims ⟨2, ![m, p]⟩ ⟨2, ![m, n]⟩ ⟨2, ![p, n]⟩) m rfl rfl).symm]
  refine Finset.sum_congr rfl fun c _ => ?_
  have c2 := contrEquiv1_symm_val
    (⟨[0], [0], [1], [1], [], [], w⟩ : DotDims ⟨2, ![m, p]⟩ ⟨2, ![m, n]⟩ ⟨2, ![p, n]⟩) m rfl rfl c
  have l2 : (⟨[0], [0], [1], [1], [], [], w⟩ : DotDims ⟨2, ![m, p]⟩ ⟨2, ![m, n]⟩ ⟨2, ![p, n]⟩).lhsIdx (ix2 a b)
      ((contrEquiv1 _ m rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![m, p]⟩ ⟨2, ![m, n]⟩ ⟨2, ![p, n]⟩).rhsIdx (ix2 a b)
      ((contrEquiv1 _ m rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- An m×k matrix times a k×n matrix, accumulated into the zero splat, at (a, b). -/
theorem matmulPlain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  refine (Ideal.matmul_constant_zero_apply (⟨[1], [0], [0], [1], [], [], w⟩ : DotDims _ _ _) prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The accumulations -/

/-- The pooled sums after a step: what was there plus, over the step's nodes, membership times the rectified feature. -/
theorem pay9_apply (a : Vec Ideal S5000x128 .f32) (hs : Vec Ideal S5000x128 .bf16) (d : Vec Ideal S5000x1 .f32)
    (b : Vec Ideal S1x128 .f32) (bt : Vec Ideal S5000x1 .i32) (acc : Vec Ideal S64x128 .f32) (g : Fin 64) (k : Fin 128) :
    k2_pay9 (F := Ideal) a hs d b bt acc (ix2 g k)
      = acc (ix2 g k) + ∑ r : Fin 5000, onehot (bt (ix2 r (0 : Fin 1))) g
          * max ((a (ix2 r k) + hs (ix2 r k)) * d (ix2 r (0 : Fin 1)) + b (ix2 (0 : Fin 1) k)) 0 := by
  show shapeCast S64x128 (addf acc (matmul dot_S5000x64_S5000x128_S64x128_0_0_1_1_n_n none (k2_pay7 bt) _
    (constant S64x128 .f32 0x00000000#32))) _ (ix2 g k) = _
  rw [shapeCast_self, addf_apply]
  refine congrArg (acc (ix2 g k) + ·) ?_
  refine (matmulAxis0_apply _ none _ _ g k).trans ?_
  refine Finset.sum_congr rfl fun r _ => ?_
  rw [pay7_apply]
  refine congrArg (onehot (bt (ix2 r (0 : Fin 1))) g * ·) ?_
  show max ((shapeCast S5000x128 a _ (ix2 r k) + shapeCast S5000x128 hs _ (ix2 r k))
      * broadcastTo S5000x128 (shapeCast S5000x1 d _) _ (ix2 r k)
      + broadcastTo S5000x128 (shapeCast S1x128 b _) _ (ix2 r k)) (Ideal.ofBits .f32 0x00000000#32) = _
  rw [shapeCast_self, shapeCast_self, shapeCast_self, shapeCast_self, RowLayers.broadcastColumn_apply, broadcastTo_1b_ab_apply, Ideal.ofBits_zero_f32]

/-- The counts after a step: what was there plus the number of the step's nodes in graph g. -/
theorem pay1_count_apply (bt : Vec Ideal S5000x1 .i32) (cnt : Vec Ideal S64x1 .f32) (g : Fin 64) :
    k2_pay1 (F := Ideal) (k2_pay7 bt) (k2_pay8 (F := Ideal)) cnt (ix2 g (0 : Fin 1))
      = cnt (ix2 g (0 : Fin 1)) + ∑ r : Fin 5000, onehot (bt (ix2 r (0 : Fin 1))) g := by
  show shapeCast S64x1 (addf cnt (matmul dot_S5000x64_S5000x1_S64x1_0_0_1_1_n_n none (k2_pay7 bt) k2_pay8
    (constant S64x1 .f32 0x00000000#32))) _ (ix2 g (0 : Fin 1)) = _
  rw [shapeCast_self, addf_apply]
  refine congrArg (cnt (ix2 g (0 : Fin 1)) + ·) ?_
  refine (matmulAxis0_apply _ none _ _ g (0 : Fin 1)).trans ?_
  refine Finset.sum_congr rfl fun r _ => ?_
  rw [pay7_apply]
  show onehot (bt (ix2 r (0 : Fin 1))) g * Ideal.ofBits .bf16 0x3F80#16 = _
  rw [Ideal.ofBits_one_bf16, mul_one]

/-- The pooled sum divided by the larger of the count and one, at (g, k). -/
theorem pay2_apply (cnt : Vec Ideal S64x1 .f32) (acc : Vec Ideal S64x128 .f32) (g : Fin 64) (k : Fin 128) :
    k2_pay2 (F := Ideal) cnt acc (ix2 g k) = Ideal.div (acc (ix2 g k)) (max (cnt (ix2 g (0 : Fin 1))) 1) := by
  show Ideal.div (acc (ix2 g k)) (broadcastTo S64x128 (maximumf cnt (broadcast S64x1 (Scalar.ofBits (F := Ideal) .f32 0x3F800000#32))) _ (ix2 g k)) = _
  rw [RowLayers.broadcastColumn_apply, maximumf_apply]
  show Ideal.div _ (max _ (Ideal.ofBits .f32 0x3F800000#32)) = _
  rw [Ideal.ofBits_one_f32]

/-- The first head at (g, j): the mean row of graph g through the affine layer. -/
theorem pay3_apply (cnt : Vec Ideal S64x1 .f32) (acc : Vec Ideal S64x128 .f32) (wa : Vec Ideal S128x32 .f32)
    (ba : Vec Ideal S1x32 .f32) (g : Fin 64) (j : Fin 32) :
    k2_pay3 (F := Ideal) cnt acc wa ba (ix2 g j)
      = (∑ k : Fin 128, Ideal.div (acc (ix2 g k)) (max (cnt (ix2 g (0 : Fin 1))) 1) * wa (ix2 k j)) + ba (ix2 (0 : Fin 1) j) := by
  show matmul dot_S64x128_S128x32_S64x32_1_0_0_1_n_n none (k2_pay2 cnt acc) (truncf .bf16 wa _) (constant S64x32 .f32 0x00000000#32) (ix2 g j)
    + broadcastTo S64x32 (shapeCast S1x32 ba _) _ (ix2 g j) = _
  rw [shapeCast_self, broadcastTo_1b_ab_apply]
  refine congrArg (· + ba (ix2 (0 : Fin 1) j)) ?_
  refine (matmulPlain_apply _ none _ _ g j).trans ?_
  refine Finset.sum_congr rfl fun k _ => ?_
  rw [pay2_apply, truncf_apply]

/-- The second head at (g, 0): the mean row of graph g through the affine layer with one output. -/
theorem pay4_apply (cnt : Vec Ideal S64x1 .f32) (acc : Vec Ideal S64x128 .f32) (wv : Vec Ideal S128x1 .f32)
    (bv : Vec Ideal S1x1 .f32) (g : Fin 64) :
    k2_pay4 (F := Ideal) cnt acc wv bv (ix2 g (0 : Fin 1))
      = (∑ k : Fin 128, Ideal.div (acc (ix2 g k)) (max (cnt (ix2 g (0 : Fin 1))) 1) * wv (ix2 k (0 : Fin 1)))
        + bv (ix2 (0 : Fin 1) (0 : Fin 1)) := by
  show matmul dot_S64x128_S128x1_S64x1_1_0_0_1_n_n none (k2_pay2 cnt acc) (truncf .bf16 wv _) (constant S64x1 .f32 0x00000000#32) (ix2 g (0 : Fin 1))
    + broadcastTo S64x1 (shapeCast S1x1 bv _) _ (ix2 g (0 : Fin 1)) = _
  rw [shapeCast_self, broadcastTo_1b_ab_apply]
  refine congrArg (· + bv (ix2 (0 : Fin 1) (0 : Fin 1))) ?_
  refine (matmulPlain_apply _ none _ _ g (0 : Fin 1)).trans ?_
  refine Finset.sum_congr rfl fun k _ => ?_
  rw [pay2_apply, truncf_apply]

end Cert.Bridge

end
-- ==== Proof.Val.Arr2.lean ====
/-
  The pooling kernel's two result arrays, entry by entry, at the exact instance (floats read as extended reals).

  The kernel walks twenty blocks of 5000 nodes. At each it adds to a 64 × 128 table the membership matrix transposed
  times the block's rectified features, and to a column of 64 counts the number of the block's nodes in each graph;
  both start from zero. An accumulation from zero is a sum, and twenty blocks of 5000 rows are the 100000 rows, so
  after the last block the table holds, for graph g and feature k, the sum over ALL nodes of membership times the
  rectified feature, and the column holds each graph's number of nodes. Only at the last block are the two heads
  computed and written back, each as one block that is its whole array: the mean row of each graph (the pooled sum over
  the larger of the count and one) through an affine layer.
-/
import proofs.«401564_j70566312673591_2_alg».proof.Proof.Gen.KernelIdeal.Launch
import proofs.«401564_j70566312673591_2_alg».proof.Proof.Gen.KernelIdeal.Skeleton
import proofs.«401564_j70566312673591_2_alg».proof.Proof.Gen.KernelIdeal.Points
import proofs.«401564_j70566312673591_2_alg».proof.Proof.KI.R2
import proofs.«401564_j70566312673591_2_alg».proof.Proof.Val.Pay2
import Idealize.ShloMosaic.Lib.Pipeline.Value
import Idealize.ShloMosaic.Lib.ValueIdx
import Mathlib.Algebra.BigOperators.Fin
import Mathlib.Logic.Equiv.Fin.Basic

noncomputable section

open scoped BigOperators

namespace Cert.Bridge

open Cert.KernelIdeal Cert.KernelIdeal.Gen Cert.KernelIdeal.Hand Idealize.ShloMosaic Idealize.ShloMosaic.TcCoe Idealize.ShloMosaic.ValueIdx Idealize.SL.Sem GraphPool
open Idealize.ShloMosaic.Pipeline (Dat)

/-! ## Twenty blocks of rows are all the rows; an accumulation from zero is a sum -/

/-- The 100000 rows are 20 blocks of 5000: a sum over all rows is the sum over the blocks of the sums over a block's rows. -/
theorem sum_rows (f : Fin 100000 → EReal) :
    ∑ n : Fin 100000, f n = ∑ t : Fin 20, ∑ r : Fin 5000, f ⟨5000 * t.val + r.val, by omega⟩ := by
  have h := Equiv.sum_comp (finProdFinEquiv (m := 20) (n := 5000)) (f : Fin (20 * 5000) → EReal)
  rw [Fintype.sum_prod_type] at h
  rw [← h]
  refine Finset.sum_congr rfl fun t _ => Finset.sum_congr rfl fun r _ => ?_
  refine congrArg f (Fin.ext ?_)
  show r.val + 5000 * t.val = 5000 * t.val + r.val
  omega

/-- A quantity that starts as zero plus the first term and then gains one term per step is, after step n, the sum of
    the terms up to n (steps below a bound N). -/
theorem acc_closed (N : ℕ) (s b : ℕ → EReal) (h0 : 0 < N → s 0 = 0 + b 0)
    (hs : ∀ n, n + 1 < N → s (n + 1) = s n + b (n + 1)) :
    ∀ n, n < N → s n = ∑ t ∈ Finset.range (n + 1), b t := by
  intro n
  induction n with
  | zero =>
    intro h
    rw [h0 h, zero_add, Finset.sum_range_one]
  | succ n ih =>
    intro h
    rw [hs n h, ih (by omega), Finset.sum_range_succ _ (n + 1)]

/-- After the last of twenty steps: the sum of the twenty terms. -/
theorem acc_closed_twenty (s b : ℕ → EReal) (h0 : s 0 = 0 + b 0)
    (hs : ∀ n, n + 1 < 20 → s (n + 1) = s n + b (n + 1)) : s 19 = ∑ t : Fin 20, b t.val := by
  rw [acc_closed 20 s b (fun _ => h0) hs 19 (by omega), Finset.sum_range]

/-! ## The pooled sums and counts of the whole arrays -/

/-- The pooled sum of graph g in feature k: over all nodes, membership times the rectified scaled and biased feature. -/
def poolSum (a hs : S100000x128.Idx → EReal) (d : S100000x1.Idx → EReal) (b : S1x128.Idx → EReal)
    (bt : S100000x1.Idx → BitVec 32) (g : Fin 64) (k : Fin 128) : EReal :=
  ∑ n : Fin 100000, onehot (bt (ix2 n (0 : Fin 1))) g
    * max ((a (ix2 n k) + hs (ix2 n k)) * d (ix2 n (0 : Fin 1)) + b (ix2 (0 : Fin 1) k)) 0

/-- The number of nodes of graph g. -/
def poolCount (bt : S100000x1.Idx → BitVec 32) (g : Fin 64) : EReal :=
  ∑ n : Fin 100000, onehot (bt (ix2 n (0 : Fin 1))) g

section
variable (V : (c : Dev nD) → (b : Ref sig .tc) → Buf (Elt Ideal) ((c : Thread nD τ).loc b))

/-- The grid has 20 points. -/
theorem point_lt (t : Fin cfg2.N) : t.val < 20 := lt_of_lt_of_eq t.isLt N_2

/-- At point t the four row-blocked windows are at row block t, column block 0. -/
theorem point_index_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_4.index t (0 : Fin 2) = t.val ∧ win2_4.index t (1 : Fin 2) = 0 :=
  (by decide +kernel : ∀ t : Fin grid2.N, _)

/-- At every point the other windows are at block (0, 0): each is its whole array. -/
theorem point_index_whole : ∀ t : Fin cfg2.N,
    win2_3.index t (0 : Fin 2) = 0 ∧ win2_3.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

/-! ## Each input block as rows of its array -/

/-- The aggregate's block at point t is rows 5000 t … 5000 t + 4999 of the array. -/
theorem aggregate_block_apply (c : Dev nD) (t : Fin cfg2.N) (p : Fin 5000) (k : Fin 128) (n : Fin 100000) (hn : n.val = 5000 * t.val + p.val) :
    (iblk2 V c 0 t : Vec Ideal S5000x128 .f32) (ix2 p k) = (V c main_v38 : S100000x128.Idx → EReal) (ix2 n k) := by
  obtain ⟨e0, e1, -⟩ := point_index_rows t
  unfold iblk2
  rw [View.read_apply]
  show V c main_v38 _ = V c main_v38 _
  congr 1
  funext a
  apply Fin.ext
  match a with
  | ⟨0, _⟩ => show win2_0.index t (0 : Fin 2) * 5000 + 1 * p.val = n.val; omega
  | ⟨1, _⟩ => show win2_0.index t (1 : Fin 2) * 128 + 1 * k.val = k.val; omega

/-- The scaled transform's block at point t likewise. -/
theorem transform_block_apply (c : Dev nD) (t : Fin cfg2.N) (p : Fin 5000) (k : Fin 128) (n : Fin 100000) (hn : n.val = 5000 * t.val + p.val) :
    (iblk2 V c 1 t : Vec Ideal S5000x128 .bf16) (ix2 p k) = (V c main_v27 : S100000x128.Idx → EReal) (ix2 n k) := by
  obtain ⟨-, -, e0, e1, -⟩ := point_index_rows t
  unfold iblk2
  rw [View.read_apply]
  show V c main_v27 _ = V c main_v27 _
  congr 1
  funext a
  apply Fin.ext
  match a with
  | ⟨0, _⟩ => show win2_1.index t (0 : Fin 2) * 5000 + 1 * p.val = n.val; omega
  | ⟨1, _⟩ => show win2_1.index t (1 : Fin 2) * 128 + 1 * k.val = k.val; omega

/-- The weight column's block at point t is rows 5000 t … of the column. -/
theorem weights_block_apply (c : Dev nD) (t : Fin cfg2.N) (p : Fin 5000) (n : Fin 100000) (hn : n.val = 5000 * t.val + p.val) :
    (iblk2 V c 2 t : Vec Ideal S5000x1 .f32) (ix2 p (0 : Fin 1)) = (V c main_v39 : S100000x1.Idx → EReal) (ix2 n (0 : Fin 1)) := by
  obtain ⟨-, -, -, -, e0, e1, -⟩ := point_index_rows t
  unfold iblk2
  rw [View.read_apply]
  show V c main_v39 _ = V c main_v39 _
  congr 1
  funext a
  apply Fin.ext
  match a with
  | ⟨0, _⟩ => show win2_2.index t (0 : Fin 2) * 5000 + 1 * p.val = n.val; omega
  | ⟨1, _⟩ => show win2_2.index t (1 : Fin 2) * 1 + 1 * 0 = 0; omega

/-- The graph ids' block at point t is rows 5000 t … of the column of ids. -/
theorem ids_block_apply (c : Dev nD) (t : Fin cfg2.N) (p : Fin 5000) (n : Fin 100000) (hn : n.val = 5000 * t.val + p.val) :
    (iblk2 V c 4 t : Vec Ideal S5000x1 .i32) (ix2 p (0 : Fin 1)) = (V c main_v41 : S100000x1.Idx → BitVec 32) (ix2 n (0 : Fin 1)) := by
  obtain ⟨-, -, -, -, -, -, e0, e1⟩ := point_index_rows t
  unfold iblk2
  rw [View.read_apply]
  show V c main_v41 _ = V c main_v41 _
  congr 1
  funext a
  apply Fin.ext
  match a with
  | ⟨0, _⟩ => show win2_4.index t (0 : Fin 2) * 5000 + 1 * p.val = n.val; omega
  | ⟨1, _⟩ => show win2_4.index t (1 : Fin 2) * 1 + 1 * 0 = 0; omega

/-- The bias row's block at every point is the whole row. -/
theorem bias_block_apply (c : Dev nD) (t : Fin cfg2.N) (k : Fin 128) :
    (iblk2 V c 3 t : Vec Ideal S1x128 .f32) (ix2 (0 : Fin 1) k) = (V c main_v40 : S1x128.Idx → EReal) (ix2 (0 : Fin 1) k) := by
  obtain ⟨e0, e1, -⟩ := point_index_whole t
  unfold iblk2
  rw [View.read_apply]
  show V c main_v40 _ = V c main_v40 _
  congr 1
  funext a
  apply Fin.ext
  match a with
  | ⟨0, _⟩ => show win2_3.index t (0 : Fin 2) * 1 + 1 * 0 = 0; omega
  | ⟨1, _⟩ => show win2_3.index t (1 : Fin 2) * 128 + 1 * k.val = k.val; omega

/-- The first head's weight matrix is one block: the whole matrix. -/
theorem actWeights_block_apply (c : Dev nD) (t : Fin cfg2.N) (k : Fin 128) (j : Fin 32) :
    (iblk2 V c 5 t : Vec Ideal S128x32 .f32) (ix2 k j) = (V c main_arg7 : S128x32.Idx → EReal) (ix2 k j) := by
  obtain ⟨-, -, e0, e1, -⟩ := point_index_whole t
  unfold iblk2
  rw [View.read_apply]
  show V c main_arg7 _ = V c main_arg7 _
  congr 1
  funext a
  apply Fin.ext
  match a with
  | ⟨0, _⟩ => show win2_5.index t (0 : Fin 2) * 128 + 1 * k.val = k.val; omega
  | ⟨1, _⟩ => show win2_5.index t (1 : Fin 2) * 32 + 1 * j.val = j.val; omega

/-- The first head's bias row is one block: the whole row. -/
theorem actBias_block_apply (c : Dev nD) (t : Fin cfg2.N) (j : Fin 32) :
    (iblk2 V c 6 t : Vec Ideal S1x32 .f32) (ix2 (0 : Fin 1) j) = (V c main_v42 : S1x32.Idx → EReal) (ix2 (0 : Fin 1) j) := by
  obtain ⟨-, -, -, -, e0, e1, -⟩ := point_index_whole t
  unfold iblk2
  rw [View.read_apply]
  show V c main_v42 _ = V c main_v42 _
  congr 1
  funext a
  apply Fin.ext
  match a with
  | ⟨0, _⟩ => show win2_6.index t (0 : Fin 2) * 1 + 1 * 0 = 0; omega
  | ⟨1, _⟩ => show win2_6.index t (1 : Fin 2) * 32 + 1 * j.val = j.val; omega

/-- The second head's weight column is one block: the whole column. -/
theorem valWeights_block_apply (c : Dev nD) (t : Fin cfg2.N) (k : Fin 128) :
    (iblk2 V c 7 t : Vec Ideal S128x1 .f32) (ix2 k (0 : Fin 1)) = (V c main_arg9 : S128x1.Idx → EReal) (ix2 k (0 : Fin 1)) := by
  obtain ⟨-, -, -, -, -, -, e0, e1, -⟩ := point_index_whole t
  unfold iblk2
  rw [View.read_apply]
  show V c main_arg9 _ = V c main_arg9 _
  congr 1
  funext a
  apply Fin.ext
  match a with
  | ⟨0, _⟩ => show win2_7.index t (0 : Fin 2) * 128 + 1 * k.val = k.val; omega
  | ⟨1, _⟩ => show win2_7.index t (1 : Fin 2) * 1 + 1 * 0 = 0; omega

/-- The second head's bias is one block: the one entry. -/
theorem valBias_block_apply (c : Dev nD) (t : Fin cfg2.N)  :
    (iblk2 V c 8 t : Vec Ideal S1x1 .f32) (ix2 (0 : Fin 1) (0 : Fin 1)) = (V c main_v43 : S1x1.Idx → EReal) (ix2 (0 : Fin 1) (0 : Fin 1)) := by
  obtain ⟨-, -, -, -, -, -, -, -, e0, e1, -⟩ := point_index_whole t
  unfold iblk2
  rw [View.read_apply]
  show V c main_v43 _ = V c main_v43 _
  congr 1
  funext a
  apply Fin.ext
  match a with
  | ⟨0, _⟩ => show win2_8.index t (0 : Fin 2) * 1 + 1 * 0 = 0; omega
  | ⟨1, _⟩ => show win2_8.index t (1 : Fin 2) * 1 + 1 * 0 = 0; omega

end

/-! ## One point's contribution, and the twenty points' -/

/-- Node n's term of the pooled sum. -/
def rowTerm (a hs : S100000x128.Idx → EReal) (d : S100000x1.Idx → EReal) (b : S1x128.Idx → EReal)
    (bt : S100000x1.Idx → BitVec 32) (g : Fin 64) (k : Fin 128) (n : Fin 100000) : EReal :=
  onehot (bt (ix2 n (0 : Fin 1))) g * max ((a (ix2 n k) + hs (ix2 n k)) * d (ix2 n (0 : Fin 1)) + b (ix2 (0 : Fin 1) k)) 0

/-- The same by the node's number, zero from 100000 on. -/
def rowTermN (a hs : S100000x128.Idx → EReal) (d : S100000x1.Idx → EReal) (b : S1x128.Idx → EReal)
    (bt : S100000x1.Idx → BitVec 32) (g : Fin 64) (k : Fin 128) (n : ℕ) : EReal :=
  if h : n < 100000 then rowTerm a hs d b bt g k ⟨n, h⟩ else 0

/-- Node n's term of the count, by the node's number. -/
def rowCountN (bt : S100000x1.Idx → BitVec 32) (g : Fin 64) (n : ℕ) : EReal :=
  if h : n < 100000 then onehot (bt (ix2 (⟨n, h⟩ : Fin 100000) (0 : Fin 1))) g else 0

section
variable (V : (c : Dev nD) → (b : Ref sig .tc) → Buf (Elt Ideal) ((c : Thread nD τ).loc b))

/-- One point adds to the pooled sums the terms of its 5000 nodes. -/
theorem point_sum (c : Dev nD) (t : Fin cfg2.N) (acc : Vec Ideal S64x128 .f32) (g : Fin 64) (k : Fin 128) :
    k2_pay9 (F := Ideal) (iblk2 V c 0 t) (iblk2 V c 1 t) (iblk2 V c 2 t) (iblk2 V c 3 t) (iblk2 V c 4 t) acc (ix2 g k)
      = acc (ix2 g k) + ∑ r : Fin 5000,
          rowTermN (V c main_v38) (V c main_v27) (V c main_v39) (V c main_v40) (V c main_v41) g k (5000 * t.val + r.val) := by
  refine (pay9_apply (iblk2 V c 0 t) (iblk2 V c 1 t) (iblk2 V c 2 t) (iblk2 V c 3 t) (iblk2 V c 4 t) acc g k).trans ?_
  refine congrArg (acc (ix2 g k) + ·) (Finset.sum_congr rfl fun r _ => ?_)
  have hlt : 5000 * t.val + r.val < 100000 := by have := point_lt t; have := r.isLt; omega
  rw [rowTermN, dif_pos hlt, rowTerm]
  rw [ids_block_apply V c t r ⟨_, hlt⟩ rfl, aggregate_block_apply V c t r k ⟨_, hlt⟩ rfl,
    transform_block_apply V c t r k ⟨_, hlt⟩ rfl, weights_block_apply V c t r ⟨_, hlt⟩ rfl, bias_block_apply V c t k]

/-- One point adds to the counts the number of its nodes in each graph. -/
theorem point_count (c : Dev nD) (t : Fin cfg2.N) (cnt : Vec Ideal S64x1 .f32) (g : Fin 64) :
    k2_pay1 (F := Ideal) (k2_pay7 (iblk2 V c 4 t)) (k2_pay8 (F := Ideal)) cnt (ix2 g (0 : Fin 1))
      = cnt (ix2 g (0 : Fin 1)) + ∑ r : Fin 5000, rowCountN (V c main_v41) g (5000 * t.val + r.val) := by
  refine (pay1_count_apply (iblk2 V c 4 t) cnt g).trans ?_
  refine congrArg (cnt (ix2 g (0 : Fin 1)) + ·) (Finset.sum_congr rfl fun r _ => ?_)
  have hlt : 5000 * t.val + r.val < 100000 := by have := point_lt t; have := r.isLt; omega
  rw [rowCountN, dif_pos hlt, ids_block_apply V c t r ⟨_, hlt⟩ rfl]

/-- The pooled sum at (g, k) after point n (zero past the grid). -/
def sumAt (c : Dev nD) (g : Fin 64) (k : Fin 128) (n : ℕ) : EReal :=
  if hn : n < cfg2.N then (pool2 V c n hn).1 (ix2 g k) else 0

/-- The count of graph g after point n (zero past the grid). -/
def countAt (c : Dev nD) (g : Fin 64) (n : ℕ) : EReal :=
  if hn : n < cfg2.N then (pool2 V c n hn).2 (ix2 g (0 : Fin 1)) else 0

/-- AFTER THE LAST POINT the pooled sums are the sums over all 100000 nodes. -/
theorem pool_sum_closed (c : Dev nD) (g : Fin 64) (k : Fin 128) :
    (pool2 V c 19 lt19).1 (ix2 g k)
      = poolSum (V c main_v38) (V c main_v27) (V c main_v39) (V c main_v40) (V c main_v41) g k := by
  have hN : cfg2.N = 20 := N_2
  have h0 : sumAt V c g k 0 = 0 + ∑ r : Fin 5000,
      rowTermN (V c main_v38) (V c main_v27) (V c main_v39) (V c main_v40) (V c main_v41) g k (5000 * 0 + r.val) := by
    have h0N : 0 < cfg2.N := by rw [hN]; decide
    rw [sumAt, dif_pos h0N, pool2_zero]
    refine (point_sum V c ⟨0, h0N⟩ (k2_pay5 (F := Ideal)) g k).trans ?_
    rw [pay5_apply]
  have hstep : ∀ n, n + 1 < 20 → sumAt V c g k (n + 1) = sumAt V c g k n + ∑ r : Fin 5000,
      rowTermN (V c main_v38) (V c main_v27) (V c main_v39) (V c main_v40) (V c main_v41) g k (5000 * (n + 1) + r.val) := by
    intro n hn
    have h1 : n + 1 < cfg2.N := by rw [hN]; exact hn
    have h2 : n < cfg2.N := Nat.lt_of_succ_lt h1
    rw [sumAt, sumAt, dif_pos h1, dif_pos h2, pool2_succ]
    exact point_sum V c ⟨n + 1, h1⟩ (pool2 V c n h2).1 g k
  have key := acc_closed_twenty (sumAt V c g k)
    (fun t => ∑ r : Fin 5000, rowTermN (V c main_v38) (V c main_v27) (V c main_v39) (V c main_v40) (V c main_v41) g k (5000 * t + r.val))
    h0 hstep
  have e19 : sumAt V c g k 19 = (pool2 V c 19 lt19).1 (ix2 g k) := by rw [sumAt, dif_pos lt19]
  rw [← e19, key, poolSum, sum_rows]
  refine Finset.sum_congr rfl fun t _ => Finset.sum_congr rfl fun r _ => ?_
  have hlt : 5000 * t.val + r.val < 100000 := by have := t.isLt; have := r.isLt; omega
  show rowTermN _ _ _ _ _ g k (5000 * t.val + r.val) = _
  rw [rowTermN, dif_pos hlt, rowTerm]

/-- AFTER THE LAST POINT the counts are the numbers of nodes of each graph among all 100000. -/
theorem pool_count_closed (c : Dev nD) (g : Fin 64) :
    (pool2 V c 19 lt19).2 (ix2 g (0 : Fin 1)) = poolCount (V c main_v41) g := by
  have hN : cfg2.N = 20 := N_2
  have h0 : countAt V c g 0 = 0 + ∑ r : Fin 5000, rowCountN (V c main_v41) g (5000 * 0 + r.val) := by
    have h0N : 0 < cfg2.N := by rw [hN]; decide
    rw [countAt, dif_pos h0N, pool2_zero]
    refine (point_count V c ⟨0, h0N⟩ (k2_pay6 (F := Ideal)) g).trans ?_
    rw [pay6_apply]
  have hstep : ∀ n, n + 1 < 20 → countAt V c g (n + 1) = countAt V c g n + ∑ r : Fin 5000,
      rowCountN (V c main_v41) g (5000 * (n + 1) + r.val) := by
    intro n hn
    have h1 : n + 1 < cfg2.N := by rw [hN]; exact hn
    have h2 : n < cfg2.N := Nat.lt_of_succ_lt h1
    rw [countAt, countAt, dif_pos h1, dif_pos h2, pool2_succ]
    exact point_count V c ⟨n + 1, h1⟩ (pool2 V c n h2).2 g
  have key := acc_closed_twenty (countAt V c g)
    (fun t => ∑ r : Fin 5000, rowCountN (V c main_v41) g (5000 * t + r.val)) h0 hstep
  have e19 : countAt V c g 19 = (pool2 V c 19 lt19).2 (ix2 g (0 : Fin 1)) := by rw [countAt, dif_pos lt19]
  rw [← e19, key, poolCount, sum_rows]
  refine Finset.sum_congr rfl fun t _ => Finset.sum_congr rfl fun r _ => ?_
  have hlt : 5000 * t.val + r.val < 100000 := by have := t.isLt; have := r.isLt; omega
  show rowCountN _ g (5000 * t.val + r.val) = _
  rw [rowCountN, dif_pos hlt]

/-! ## What the last point writes back is the whole array -/

/-- The last point. -/
abbrev lastPt : Fin cfg2.N := ⟨19, lt19⟩

/-- What the first head's array ends holding: the head of the pooled sums and counts after the last point. -/
abbrev actArr (c : Dev nD) : Buf (Elt Ideal) ((c : Thread nD τ).loc main_v44_0) :=
  k2_pay3 (pool2 V c 19 lt19).2 (pool2 V c 19 lt19).1 (iblk2 V c 5 lastPt) (iblk2 V c 6 lastPt)

/-- What the second head's array ends holding. -/
abbrev valArr (c : Dev nD) : Buf (Elt Ideal) ((c : Thread nD τ).loc main_v44_1) :=
  k2_pay4 (pool2 V c 19 lt19).2 (pool2 V c 19 lt19).1 (iblk2 V c 7 lastPt) (iblk2 V c 8 lastPt)

/-- The first head's one block, at the last point, is its whole array: whatever the staging buffer holds is written back
    as it is. -/
theorem act_block_whole (c : Dev nD) (X : Buf (Elt Ideal) ((c : Thread nD τ).loc main_v44_0)) :
    (cfg2.win 9).cut (grid2.coords lastPt) X = ((cfg2.win 9).blk lastPt).view.read (Elt Ideal) X := by
  obtain ⟨-, -, -, -, -, -, -, -, -, -, e0, e1, -⟩ := point_index_whole lastPt
  have hz' : (fun a => win2_9.index lastPt a * main_v44_0.ty.shape.size a) = fun _ => 0 := funext fun a => by
    match a with
    | ⟨0, _⟩ => show win2_9.index lastPt (0 : Fin 2) * _ = 0; rw [e0, Nat.zero_mul]
    | ⟨1, _⟩ => show win2_9.index lastPt (1 : Fin 2) * _ = 0; rw [e1, Nat.zero_mul]
  exact (Memref.read_access_unit_zero (Elt Ideal) main_v44_0 hz' (fun a => by rw [congrFun hz' a]; simp) X).symm

/-- The second head's one block likewise. -/
theorem val_block_whole (c : Dev nD) (X : Buf (Elt Ideal) ((c : Thread nD τ).loc main_v44_1)) :
    (cfg2.win 10).cut (grid2.coords lastPt) X = ((cfg2.win 10).blk lastPt).view.read (Elt Ideal) X := by
  obtain ⟨-, -, -, -, -, -, -, -, -, -, -, -, e0, e1⟩ := point_index_whole lastPt
  have hz' : (fun a => win2_10.index lastPt a * main_v44_1.ty.shape.size a) = fun _ => 0 := funext fun a => by
    match a with
    | ⟨0, _⟩ => show win2_10.index lastPt (0 : Fin 2) * _ = 0; rw [e0, Nat.zero_mul]
    | ⟨1, _⟩ => show win2_10.index lastPt (1 : Fin 2) * _ = 0; rw [e1, Nat.zero_mul]
  exact (Memref.read_access_unit_zero (Elt Ideal) main_v44_1 hz' (fun a => by rw [congrFun hz' a]; simp) X).symm

/-- The one write-back of the first head, at the last point, writes the head of the pooled sums and counts. -/
theorem flushed_act_eq (c : Dev nD) (t : Fin cfg2.N) (hf : (cfg2.win 9).flush t = true) :
    (dat2 V c).flushed 9 t = ((cfg2.win 9).blk t).view.read (Elt Ideal) (actArr V c) := by
  have h : t.val = 19 := by have := (flush2_9 t).mp hf; have := point_lt t; omega
  obtain rfl : t = lastPt := Fin.ext h
  show (cfg2.win 9).cut (grid2.coords lastPt) ((dat2 V c).after 9 lastPt) = _
  rw [after2_9_last V c lastPt rfl]
  exact act_block_whole c _

/-- The one write-back of the second head likewise. -/
theorem flushed_val_eq (c : Dev nD) (t : Fin cfg2.N) (hf : (cfg2.win 10).flush t = true) :
    (dat2 V c).flushed 10 t = ((cfg2.win 10).blk t).view.read (Elt Ideal) (valArr V c) := by
  have h : t.val = 19 := by have := (flush2_10 t).mp hf; have := point_lt t; omega
  obtain rfl : t = lastPt := Fin.ext h
  show (cfg2.win 10).cut (grid2.coords lastPt) ((dat2 V c).after 10 lastPt) = _
  rw [after2_10_last V c lastPt rfl]
  exact val_block_whole c _

/-- The last point's block of the first head covers its whole array. -/
theorem act_cover (c : Dev nD) (i : ((cfg2.win 9).arr.view.loc (c.tc : Thread nD τ)).2.ty.Idx) :
    ∃ t : Fin cfg2.N, (cfg2.win 9).flush t = true ∧ i ∈ ((cfg2.win 9).blk t).view.set :=
  ⟨lastPt, (flush2_9 lastPt).mpr rfl, by
    obtain ⟨-, -, -, -, -, -, -, -, -, -, e0, e1, -⟩ := point_index_whole lastPt
    show i ∈ ((View.whole main_v44_0).slice (win2_9.rect lastPt)).set
    rw [View.set_slice_whole, Rect.mem_set_unit]
    intro a
    have h0 : (i 0 : Nat) < 64 := (i 0).isLt
    have h1 : (i 1 : Nat) < 32 := (i 1).isLt
    match a with
    | ⟨0, _⟩ =>
      show win2_9.index lastPt 0 * win2_9.size 0 ≤ (i 0 : Nat) ∧ (i 0 : Nat) < win2_9.index lastPt 0 * win2_9.size 0 + win2_9.xsize (grid2.coords lastPt) 0
      rw [show win2_9.index lastPt 0 * win2_9.size 0 = 0 from by rw [e0, Nat.zero_mul], show win2_9.xsize (grid2.coords lastPt) 0 = 64 from by decide +kernel]; omega
    | ⟨1, _⟩ =>
      show win2_9.index lastPt 1 * win2_9.size 1 ≤ (i 1 : Nat) ∧ (i 1 : Nat) < win2_9.index lastPt 1 * win2_9.size 1 + win2_9.xsize (grid2.coords lastPt) 1
      rw [show win2_9.index lastPt 1 * win2_9.size 1 = 0 from by rw [e1, Nat.zero_mul], show win2_9.xsize (grid2.coords lastPt) 1 = 32 from by decide +kernel]; omega⟩

/-- The last point's block of the second head covers its whole array. -/
theorem val_cover (c : Dev nD) (i : ((cfg2.win 10).arr.view.loc (c.tc : Thread nD τ)).2.ty.Idx) :
    ∃ t : Fin cfg2.N, (cfg2.win 10).flush t = true ∧ i ∈ ((cfg2.win 10).blk t).view.set :=
  ⟨lastPt, (flush2_10 lastPt).mpr rfl, by
    obtain ⟨-, -, -, -, -, -, -, -, -, -, -, -, e0, e1⟩ := point_index_whole lastPt
    show i ∈ ((View.whole main_v44_1).slice (win2_10.rect lastPt)).set
    rw [View.set_slice_whole, Rect.mem_set_unit]
    intro a
    have h0 : (i 0 : Nat) < 64 := (i 0).isLt
    have h1 : (i 1 : Nat) < 1 := (i 1).isLt
    match a with
    | ⟨0, _⟩ =>
      show win2_10.index lastPt 0 * win2_10.size 0 ≤ (i 0 : Nat) ∧ (i 0 : Nat) < win2_10.index lastPt 0 * win2_10.size 0 + win2_10.xsize (grid2.coords lastPt) 0
      rw [show win2_10.index lastPt 0 * win2_10.size 0 = 0 from by rw [e0, Nat.zero_mul], show win2_10.xsize (grid2.coords lastPt) 0 = 64 from by decide +kernel]; omega
    | ⟨1, _⟩ =>
      show win2_10.index lastPt 1 * win2_10.size 1 ≤ (i 1 : Nat) ∧ (i 1 : Nat) < win2_10.index lastPt 1 * win2_10.size 1 + win2_10.xsize (grid2.coords lastPt) 1
      rw [show win2_10.index lastPt 1 * win2_10.size 1 = 0 from by rw [e1, Nat.zero_mul], show win2_10.xsize (grid2.coords lastPt) 1 = 1 from by decide +kernel]; omega⟩

/-- So the first head's array ends holding the head of the pooled sums and counts after the last point. -/
theorem act_array_eq (c : Dev nD) : (dat2 V c).arrAt 9 cfg2.N = actArr V c :=
  (dat2 V c).arrAt_eq_of_cover 9 (actArr V c) (flushed_act_eq V c) (act_cover c)

/-- And the second head's array likewise. -/
theorem val_array_eq (c : Dev nD) : (dat2 V c).arrAt 10 cfg2.N = valArr V c :=
  (dat2 V c).arrAt_eq_of_cover 10 (valArr V c) (flushed_val_eq V c) (val_cover c)

end

/-! ## The two results -/

/-- A head: the mean row of graph g (pooled sums over the larger of the count and one) through an affine layer of n outputs. -/
def headOf {n : ℕ} (P : Fin 64 → Fin 128 → EReal) (C : Fin 64 → EReal) (w : (⟨2, ![128, n]⟩ : Shape).Idx → EReal)
    (b : (⟨2, ![1, n]⟩ : Shape).Idx → EReal) (g : Fin 64) (j : Fin n) : EReal :=
  (∑ k : Fin 128, Ideal.div (P g k) (max (C g) 1) * w (ix2 k j)) + b (ix2 (0 : Fin 1) j)

/-- A head at (g, j) reads the pooled sums and the count in row g only, the weights in column j only, the bias at j only. -/
theorem head_congr {n : ℕ} (P P' : Fin 64 → Fin 128 → EReal) (C C' : Fin 64 → EReal)
    (w w' : (⟨2, ![128, n]⟩ : Shape).Idx → EReal) (b b' : (⟨2, ![1, n]⟩ : Shape).Idx → EReal) (g : Fin 64) (j : Fin n)
    (hP : ∀ k, P g k = P' g k) (hC : C g = C' g) (hw : ∀ k, w (ix2 k j) = w' (ix2 k j))
    (hb : b (ix2 (0 : Fin 1) j) = b' (ix2 (0 : Fin 1) j)) : headOf P C w b g j = headOf P' C' w' b' g j := by
  unfold headOf
  rw [hC, hb]
  refine congrArg (fun x => x + b' (ix2 (0 : Fin 1) j)) (Finset.sum_congr rfl fun k _ => ?_)
  rw [hP k, hw k]

/-- The first head's stored value is a head of the pooled sums and counts it is given. -/
theorem pay3_head (cnt : Vec Ideal S64x1 .f32) (acc : Vec Ideal S64x128 .f32) (wa : Vec Ideal S128x32 .f32)
    (ba : Vec Ideal S1x32 .f32) (g : Fin 64) (j : Fin 32) :
    k2_pay3 (F := Ideal) cnt acc wa ba (ix2 g j)
      = headOf (n := 32) (fun g k => acc (ix2 g k)) (fun g => cnt (ix2 g (0 : Fin 1))) wa ba g j :=
  pay3_apply cnt acc wa ba g j

/-- The second head's stored value likewise. -/
theorem pay4_head (cnt : Vec Ideal S64x1 .f32) (acc : Vec Ideal S64x128 .f32) (wv : Vec Ideal S128x1 .f32)
    (bv : Vec Ideal S1x1 .f32) (g : Fin 64) :
    k2_pay4 (F := Ideal) cnt acc wv bv (ix2 g (0 : Fin 1))
      = headOf (n := 1) (fun g k => acc (ix2 g k)) (fun g => cnt (ix2 g (0 : Fin 1))) wv bv g (0 : Fin 1) :=
  pay4_apply cnt acc wv bv g

section
variable (V : (c : Dev nD) → (b : Ref sig .tc) → Buf (Elt Ideal) ((c : Thread nD τ).loc b))

/-- THE FIRST RESULT, entry by entry: the first head of the pooled sums and counts of the whole arrays. -/
theorem arr2_act (c : Dev nD) (g : Fin 64) (j : Fin 32) :
    (dat2 (F := Ideal) V c).arrAt 9 cfg2.N (ix2 g j)
      = headOf (n := 32) (poolSum (V c main_v38) (V c main_v27) (V c main_v39) (V c main_v40) (V c main_v41))
          (poolCount (V c main_v41)) (V c main_arg7) (V c main_v42) g j :=
  (congrFun (act_array_eq V c) (ix2 g j)).trans
    ((pay3_head (pool2 V c 19 lt19).2 (pool2 V c 19 lt19).1 (iblk2 V c 5 lastPt) (iblk2 V c 6 lastPt) g j).trans
      (head_congr (n := 32) _ _ _ _ _ _ _ _ g j (fun k => pool_sum_closed V c g k) (pool_count_closed V c g)
        (fun k => actWeights_block_apply V c lastPt k j) (actBias_block_apply V c lastPt j)))

/-- THE SECOND RESULT, entry by entry: the second head of the same pooled sums and counts. -/
theorem arr2_val (c : Dev nD) (g : Fin 64) :
    (dat2 (F := Ideal) V c).arrAt 10 cfg2.N (ix2 g (0 : Fin 1))
      = headOf (n := 1) (poolSum (V c main_v38) (V c main_v27) (V c main_v39) (V c main_v40) (V c main_v41))
          (poolCount (V c main_v41)) (V c main_arg9) (V c main_v43) g (0 : Fin 1) :=
  (congrFun (val_array_eq V c) (ix2 g (0 : Fin 1))).trans
    ((pay4_head (pool2 V c 19 lt19).2 (pool2 V c 19 lt19).1 (iblk2 V c 7 lastPt) (iblk2 V c 8 lastPt) g).trans
      (head_congr (n := 1) _ _ _ _ _ _ _ _ g (0 : Fin 1) (fun k => pool_sum_closed V c g k) (pool_count_closed V c g)
        (fun k => valWeights_block_apply V c lastPt k) (valBias_block_apply V c lastPt)))

end
end Cert.Bridge

end
-- ==== Proof.Ref.Pool.lean ====
/-
  The reference's global mean pool and its two heads, read at an index.

  Each node carries a graph id, a 32-bit word. The count of graph g is the number of nodes whose id is g's word, and the
  pooled sum of graph g at feature k is the sum of the nodes' features at k over those nodes: both are segment sums,
  which the reference computes by accumulating scatters into zero arrays. An update of such a scatter lands at the
  operand index "graph id read as a signed integer" (plus the update's own feature coordinate, for the pooled sums), and
  is dropped when that is outside 0..63; so the filtered sum the scatter stands for is the sum over all nodes weighted
  by the membership weight of the node in graph g. The mean divides the pooled sum by the larger of the count and one;
  the two heads are affine maps of the mean.
-/
import proofs.«401564_j70566312673591_2_alg».proof.Proof.RefImports
import proofs.«401564_j70566312673591_2_alg».proof.Proof.Spec
import proofs.«401564_j70566312673591_2_alg».proof.Proof.LibRowLayers
import Idealize.ShloMosaic.PureOps.Ideal.Laws
import Idealize.ShloMosaic.Lib.ValueIdx
import Idealize.ShloMosaic.Lib.ValueIdxRank1
import Idealize.ShloMosaic.Lib.IdealHost

noncomputable section

open scoped BigOperators

namespace Cert.Bridge

open Cert.ReferenceIdeal Cert.ReferenceIdeal.Read Idealize.ShloMosaic Idealize.ShloMosaic.ValueIdx GraphPool

namespace PoolDecode

/-- A 32-bit word read as a signed integer is the number g < 64 exactly when it is g's word. -/
theorem toInt_eq_iff (w : BitVec 32) (g : Fin 64) : w.toInt = (g.val : Int) ↔ w = BitVec.ofNat 32 g.val := by
  have hg := g.isLt
  constructor
  · intro h
    apply BitVec.eq_of_toNat_eq
    rw [BitVec.toNat_ofNat]
    have hw := w.isLt
    unfold BitVec.toInt at h
    split at h <;> omega
  · rintro rfl
    unfold BitVec.toInt
    rw [BitVec.toNat_ofNat]
    split <;> omega

/-! ## Where an update of the counts' scatter lands -/

/-- The start on the one operand axis is the graph id of the update's node, read signed. -/
theorem counts_start (idx : IVec S100000x1 32) (j : S100000.Idx) :
    scatter_S64_S100000x1_S100000_n_0_0_1.start j idx 0 = (idx (ix2 (j 0) (0 : Fin 1))).toInt := by
  unfold ScatterDims.start
  rw [dif_pos (show (0 : Fin S64.rank) ∈ scatter_S64_S100000x1_S100000_n_0_0_1.scatterDimsToOperandDims from List.mem_singleton.mpr rfl)]
  have hsi : scatter_S64_S100000x1_S100000_n_0_0_1.siIdx j ⟨List.idxOf (0 : Fin S64.rank) scatter_S64_S100000x1_S100000_n_0_0_1.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- There is no window axis: the window coordinate is 0. -/
theorem counts_window (j : S100000.Idx) : scatter_S64_S100000x1_S100000_n_0_0_1.window j 0 = 0 := by
  unfold ScatterDims.window
  rw [dif_neg (show ¬(0 : Fin S64.rank) ∈ scatter_S64_S100000x1_S100000_n_0_0_1.sKept by decide)]

/-- The update of a node lands at graph g exactly when the node's graph id, read signed, is g. -/
theorem counts_lands (idx : IVec S100000x1 32) (j : S100000.Idx) (g : Fin 64) :
    scatter_S64_S100000x1_S100000_n_0_0_1.resultIdx? j idx = some (ix1 g) ↔ (idx (ix2 (j 0) (0 : Fin 1))).toInt = (g.val : Int) := by
  have hg := g.isLt
  unfold ScatterDims.resultIdx?
  split
  · rename_i h
    rw [Option.some.injEq]
    constructor
    · intro e
      have e1 : (scatter_S64_S100000x1_S100000_n_0_0_1.start j idx 0 + (scatter_S64_S100000x1_S100000_n_0_0_1.window j 0 : Int)).toNat = g.val :=
        congrArg Fin.val (congrFun e 0)
      have h0 := h 0
      rw [counts_start, counts_window] at h0
      rw [counts_start, counts_window] at e1
      omega
    · intro e
      funext a
      obtain rfl : a = 0 := Subsingleton.elim _ _
      refine Fin.ext ?_
      show (scatter_S64_S100000x1_S100000_n_0_0_1.start j idx 0 + (scatter_S64_S100000x1_S100000_n_0_0_1.window j 0 : Int)).toNat = g.val
      rw [counts_start, counts_window, e]
      omega
  · rename_i h
    constructor
    · intro e; exact absurd e (by simp)
    · intro e
      refine absurd (fun a => ?_) h
      obtain rfl : a = 0 := Subsingleton.elim _ _
      rw [counts_start, counts_window, e]
      show (0 : Int) ≤ (g.val : Int) + ((0 : Nat) : Int) ∧ (g.val : Int) + ((0 : Nat) : Int) < ((64 : Nat) : Int)
      omega

/-! ## Where an update of the pooled sums' scatter lands -/

/-- On the graph axis the start is the graph id of the update's node, read signed … -/
theorem pooled_start_graph (idx : IVec S100000x1 32) (j : S100000x128.Idx) :
    scatter_S64x128_S100000x1_S100000x128_1_0_0_1.start j idx 0 = (idx (ix2 (j 0) (0 : Fin 1))).toInt := by
  unfold ScatterDims.start
  rw [dif_pos (show (0 : Fin S64x128.rank) ∈ scatter_S64x128_S100000x1_S100000x128_1_0_0_1.scatterDimsToOperandDims from List.mem_singleton.mpr rfl)]
  have hsi : scatter_S64x128_S100000x1_S100000x128_1_0_0_1.siIdx j ⟨List.idxOf (0 : Fin S64x128.rank) scatter_S64x128_S100000x1_S100000x128_1_0_0_1.scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and on the feature axis, which the scatter indices do not name, it is 0. -/
theorem pooled_start_feature (idx : IVec S100000x1 32) (j : S100000x128.Idx) :
    scatter_S64x128_S100000x1_S100000x128_1_0_0_1.start j idx 1 = 0 := by
  unfold ScatterDims.start
  rw [dif_neg (show ¬(1 : Fin S64x128.rank) ∈ scatter_S64x128_S100000x1_S100000x128_1_0_0_1.scatterDimsToOperandDims by decide)]

/-- The graph axis is inserted: its window coordinate is 0 … -/
theorem pooled_window_graph (j : S100000x128.Idx) : scatter_S64x128_S100000x1_S100000x128_1_0_0_1.window j 0 = 0 := by
  unfold ScatterDims.window
  rw [dif_neg (show ¬(0 : Fin S64x128.rank) ∈ scatter_S64x128_S100000x1_S100000x128_1_0_0_1.sKept by decide)]

/-- … and the feature axis' window coordinate is the update's own feature coordinate. -/
theorem pooled_window_feature (j : S100000x128.Idx) : scatter_S64x128_S100000x1_S100000x128_1_0_0_1.window j 1 = (j 1).val := by
  unfold ScatterDims.window
  rw [dif_pos (show (1 : Fin S64x128.rank) ∈ scatter_S64x128_S100000x1_S100000x128_1_0_0_1.sKept by decide)]
  rfl

/-- The update (node, feature k') lands at (g, k) exactly when the node's graph id, read signed, is g and k' = k. -/
theorem pooled_lands (idx : IVec S100000x1 32) (j : S100000x128.Idx) (g : Fin 64) (k : Fin 128) :
    scatter_S64x128_S100000x1_S100000x128_1_0_0_1.resultIdx? j idx = some (ix2 g k)
      ↔ (idx (ix2 (j 0) (0 : Fin 1))).toInt = (g.val : Int) ∧ (j 1).val = k.val := by
  have hg := g.isLt
  have hk := k.isLt
  have hj : (j 1).val < 128 := (j 1).isLt
  unfold ScatterDims.resultIdx?
  split
  · rename_i h
    rw [Option.some.injEq]
    constructor
    · intro e
      have e0 : (scatter_S64x128_S100000x1_S100000x128_1_0_0_1.start j idx 0 + (scatter_S64x128_S100000x1_S100000x128_1_0_0_1.window j 0 : Int)).toNat = g.val :=
        congrArg Fin.val (congrFun e 0)
      have e1 : (scatter_S64x128_S100000x1_S100000x128_1_0_0_1.start j idx 1 + (scatter_S64x128_S100000x1_S100000x128_1_0_0_1.window j 1 : Int)).toNat = k.val :=
        congrArg Fin.val (congrFun e 1)
      have h0 := h 0
      rw [pooled_start_graph, pooled_window_graph] at h0
      rw [pooled_start_graph, pooled_window_graph] at e0
      rw [pooled_start_feature, pooled_window_feature] at e1
      exact ⟨by omega, by omega⟩
    · rintro ⟨e, ek⟩
      funext a
      refine Fin.ext ?_
      match a with
      | ⟨0, _⟩ =>
        show (scatter_S64x128_S100000x1_S100000x128_1_0_0_1.start j idx 0 + (scatter_S64x128_S100000x1_S100000x128_1_0_0_1.window j 0 : Int)).toNat = g.val
        rw [pooled_start_graph, pooled_window_graph, e]
        omega
      | ⟨1, _⟩ =>
        show (scatter_S64x128_S100000x1_S100000x128_1_0_0_1.start j idx 1 + (scatter_S64x128_S100000x1_S100000x128_1_0_0_1.window j 1 : Int)).toNat = k.val
        rw [pooled_start_feature, pooled_window_feature]
        omega
  · rename_i h
    constructor
    · intro e; exact absurd e (by simp)
    · rintro ⟨e, ek⟩
      refine absurd (fun a => ?_) h
      match a with
      | ⟨0, _⟩ =>
        show (0 : Int) ≤ scatter_S64x128_S100000x1_S100000x128_1_0_0_1.start j idx 0 + (scatter_S64x128_S100000x1_S100000x128_1_0_0_1.window j 0 : Int)
          ∧ scatter_S64x128_S100000x1_S100000x128_1_0_0_1.start j idx 0 + (scatter_S64x128_S100000x1_S100000x128_1_0_0_1.window j 0 : Int) < ((64 : Nat) : Int)
        rw [pooled_start_graph, pooled_window_graph, e]
        omega
      | ⟨1, _⟩ =>
        show (0 : Int) ≤ scatter_S64x128_S100000x1_S100000x128_1_0_0_1.start j idx 1 + (scatter_S64x128_S100000x1_S100000x128_1_0_0_1.window j 1 : Int)
          ∧ scatter_S64x128_S100000x1_S100000x128_1_0_0_1.start j idx 1 + (scatter_S64x128_S100000x1_S100000x128_1_0_0_1.window j 1 : Int) < ((128 : Nat) : Int)
        rw [pooled_start_feature, pooled_window_feature]
        omega

end PoolDecode

open PoolDecode

/-! ## The graph ids as a column -/

/-- The graph ids broadcast to a column read, at (n, 0), node n's id (the column the counts' scatter reads) … -/
theorem ids_column_counts (x2 : (⟨S100000, .i32⟩ : BufTy).Contents (Elt Ideal)) (n : Fin 100000) :
    val_main_v80 (F := Ideal) x2 (ix2 n (0 : Fin 1)) = x2 (ix1 n) := by
  rw [val_main_v80_apply]
  exact congrArg x2 (funext fun a => by match a with | ⟨0, _⟩ => rfl)

/-- … and so does the column the pooled sums' scatter reads. -/
theorem ids_column_pooled (x2 : (⟨S100000, .i32⟩ : BufTy).Contents (Elt Ideal)) (n : Fin 100000) :
    val_main_v83 (F := Ideal) x2 (ix2 n (0 : Fin 1)) = x2 (ix1 n) := by
  rw [val_main_v83_apply]
  exact congrArg x2 (funext fun a => by match a with | ⟨0, _⟩ => rfl)

/-- Node n's update of the counts lands at graph g exactly when n's graph id is g's word. -/
theorem counts_lands_node (x2 : (⟨S100000, .i32⟩ : BufTy).Contents (Elt Ideal)) (n : Fin 100000) (g : Fin 64) :
    scatter_S64_S100000x1_S100000_n_0_0_1.resultIdx? (ix1 n) (val_main_v80 (F := Ideal) x2) = some (ix1 g) ↔ x2 (ix1 n) = BitVec.ofNat 32 g.val := by
  rw [counts_lands, ← toInt_eq_iff]
  show (val_main_v80 (F := Ideal) x2 (ix2 n (0 : Fin 1))).toInt = _ ↔ _
  rw [ids_column_counts]

/-- Node n's update of the pooled sums at feature k' lands at (g, k) exactly when n's graph id is g's word and k' = k. -/
theorem pooled_lands_node (x2 : (⟨S100000, .i32⟩ : BufTy).Contents (Elt Ideal)) (n : Fin 100000) (k' : Fin 128) (g : Fin 64) (k : Fin 128) :
    scatter_S64x128_S100000x1_S100000x128_1_0_0_1.resultIdx? (ix2 n k') (val_main_v83 (F := Ideal) x2) = some (ix2 g k)
      ↔ x2 (ix1 n) = BitVec.ofNat 32 g.val ∧ k' = k := by
  rw [pooled_lands, ← toInt_eq_iff]
  show (val_main_v83 (F := Ideal) x2 (ix2 n (0 : Fin 1))).toInt = _ ∧ k'.val = k.val ↔ _
  rw [ids_column_pooled, Fin.val_inj]

/-! ## The two segment sums -/

/-- The count of graph g: the sum over all nodes of the node's membership weight in g. -/
theorem counts_apply (x2 : (⟨S100000, .i32⟩ : BufTy).Contents (Elt Ideal)) (g : Fin 64) :
    val_main_v81 (F := Ideal) x2 (ix1 g) = ∑ n : Fin 100000, onehot (x2 (ix1 n)) g := by
  unfold val_main_v81
  simp only [Host.scatterAdd, Ideal.hostScatterAdd_def, Ideal.hostScatterAdd]
  have hz : val_main_v79 (F := Ideal) (ix1 g) = 0 := by
    unfold val_main_v79 val_main_cst_13
    rw [RowLayers.scalarBroadcast_apply, Ideal.ofBits_zero_f32]
  have ho : ∀ j, val_main_v78 (F := Ideal) j = 1 := fun j => by
    unfold val_main_v78 val_main_cst_12
    rw [RowLayers.scalarBroadcast_apply, Ideal.ofBits_one_f32]
  rw [hz, zero_add, Finset.sum_filter, ← Equiv.sum_comp (idxEquiv1 (n := 100000)).symm]
  refine Finset.sum_congr rfl fun n _ => ?_
  show (if scatter_S64_S100000x1_S100000_n_0_0_1.resultIdx? (ix1 n) (val_main_v80 (F := Ideal) x2) = some (ix1 g)
    then val_main_v78 (F := Ideal) (ix1 n) else 0) = _
  rw [ho]
  by_cases hc : x2 (ix1 n) = BitVec.ofNat 32 g.val
  · rw [if_pos ((counts_lands_node x2 n g).2 hc), onehot_pos hc]
  · rw [if_neg (fun h => hc ((counts_lands_node x2 n g).1 h)), onehot_neg hc]

/-- The pooled sum of graph g at feature k, for an arbitrary node array H: the sum over all nodes of the node's
    membership weight in g times the node's feature k. -/
theorem pooledOf_apply (H : S100000x128.Idx → EReal) (x2 : (⟨S100000, .i32⟩ : BufTy).Contents (Elt Ideal)) (g : Fin 64) (k : Fin 128) :
    Host.scatterAdd (F := Ideal) (φ := .f32) scatter_S64x128_S100000x1_S100000x128_1_0_0_1 (val_main_v82 (F := Ideal)) (val_main_v83 (F := Ideal) x2) H (ix2 g k)
      = ∑ n : Fin 100000, onehot (x2 (ix1 n)) g * H (ix2 n k) := by
  simp only [Host.scatterAdd, Ideal.hostScatterAdd_def, Ideal.hostScatterAdd]
  have hz : val_main_v82 (F := Ideal) (ix2 g k) = 0 := by
    unfold val_main_v82 val_main_cst_14
    rw [RowLayers.scalarBroadcast_apply, Ideal.ofBits_zero_f32]
  rw [hz, zero_add, Finset.sum_filter, sum_idx2]
  refine Finset.sum_congr rfl fun n _ => ?_
  by_cases hc : x2 (ix1 n) = BitVec.ofNat 32 g.val
  · rw [onehot_pos hc, one_mul, Finset.sum_eq_single k]
    · rw [if_pos ((pooled_lands_node x2 n k g k).2 ⟨hc, rfl⟩)]
    · intro k' _ hk'
      rw [if_neg (fun h => hk' ((pooled_lands_node x2 n k' g k).1 h).2)]
    · intro h; exact absurd (Finset.mem_univ k) h
  · rw [onehot_neg hc, zero_mul]
    refine Finset.sum_eq_zero fun k' _ => ?_
    rw [if_neg (fun h => hc ((pooled_lands_node x2 n k' g k).1 h).1)]

/-- The reference's pooled sums are that sum of layer 2's output. -/
theorem pooled_apply (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (g : Fin 64) (k : Fin 128) :
    val_main_v84 (F := Ideal) x0 x1 x2 x3 x4 x5 x6 (ix2 g k)
      = ∑ n : Fin 100000, onehot (x2 (ix1 n)) g * val_main_v77 (F := Ideal) x0 x1 x3 x4 x5 x6 (ix2 n k) := by
  unfold val_main_v84
  exact pooledOf_apply (val_main_v77 (F := Ideal) x0 x1 x3 x4 x5 x6) x2 g k

/-! ## The mean and the two heads -/

/-- The mean of graph g at feature k: the pooled sum divided by the larger of the count and one. -/
theorem mean_apply (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (g : Fin 64) (k : Fin 128) :
    val_main_v89 (F := Ideal) x0 x1 x2 x3 x4 x5 x6 (ix2 g k)
      = Ideal.div (val_main_v84 (F := Ideal) x0 x1 x2 x3 x4 x5 x6 (ix2 g k)) (max (val_main_v81 (F := Ideal) x2 (ix1 g)) 1) := by
  have h88 : idx_main_v88 (ix2 g k) = ix2 g (0 : Fin 1) := funext fun a => by
    match a with
    | ⟨0, _⟩ => rfl
    | ⟨1, _⟩ => rfl
  have h87 : idx_main_v87 (ix2 g (0 : Fin 1)) = ix1 g := funext fun a => by
    match a with
    | ⟨0, _⟩ => rfl
  have h85 : val_main_v85 (F := Ideal) (ix1 g) = 1 := by
    unfold val_main_v85 val_main_cst_15
    rw [RowLayers.scalarBroadcast_apply, Ideal.ofBits_one_f32]
  rw [val_main_v89_apply, val_main_v88_apply, h88, val_main_v87_apply, h87, val_main_v86_apply, h85]
  rfl

/-- The action head at (g, j): the mean of graph g times the action weights' column j, plus the action bias. -/
theorem act_apply (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x32, .f32⟩ : BufTy).Contents (Elt Ideal)) (x8 : (⟨S32, .f32⟩ : BufTy).Contents (Elt Ideal)) (g : Fin 64) (j : Fin 32) :
    val_main_v93 (F := Ideal) x0 x1 x2 x3 x4 x5 x6 x7 x8 (ix2 g j)
      = (∑ k : Fin 128, Ideal.div (val_main_v84 (F := Ideal) x0 x1 x2 x3 x4 x5 x6 (ix2 g k)) (max (val_main_v81 (F := Ideal) x2 (ix1 g)) 1)
          * x7 (ix2 k j)) + x8 (ix1 j) := by
  have hl : ∀ k : Fin 128, lidx_main_v90 (ix2 g j) k = ix2 g k := fun k => funext fun a => by
    match a with
    | ⟨0, _⟩ => rfl
    | ⟨1, _⟩ => rfl
  have hr : ∀ k : Fin 128, ridx_main_v90 (ix2 g j) k = ix2 k j := fun k => funext fun a => by
    match a with
    | ⟨0, _⟩ => rfl
    | ⟨1, _⟩ => rfl
  have h92 : idx_main_v92 (ix2 g j) = ix2 (0 : Fin 1) j := funext fun a => by
    match a with
    | ⟨0, _⟩ => rfl
    | ⟨1, _⟩ => rfl
  have h91 : idx_main_v91 (ix2 (0 : Fin 1) j) = ix1 j := funext fun a => by
    match a with
    | ⟨0, _⟩ => rfl
  rw [val_main_v93_apply, val_main_v90_apply, val_main_v92_apply, h92, val_main_v91_apply, h91]
  simp only [hl, hr, mean_apply]
  rfl

/-- The value head at g: the mean of graph g times the value weights' one column, plus the value bias. -/
theorem value_apply (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x9 : (⟨S128x1, .f32⟩ : BufTy).Contents (Elt Ideal)) (x10 : (⟨S1, .f32⟩ : BufTy).Contents (Elt Ideal)) (g : Fin 64) :
    val_main_v98 (F := Ideal) x0 x1 x2 x3 x4 x5 x6 x9 x10 (ix1 g)
      = (∑ k : Fin 128, Ideal.div (val_main_v84 (F := Ideal) x0 x1 x2 x3 x4 x5 x6 (ix2 g k)) (max (val_main_v81 (F := Ideal) x2 (ix1 g)) 1)
          * x9 (ix2 k (0 : Fin 1))) + x10 (ix1 (0 : Fin 1)) := by
  have h98 : idx_main_v98 (ix1 g) = ix2 g (0 : Fin 1) := funext fun a => by
    match a with
    | ⟨0, _⟩ => exact Fin.ext (Nat.div_one _)
    | ⟨1, _⟩ => rfl
  have hl : ∀ k : Fin 128, lidx_main_v94 (ix2 g (0 : Fin 1)) k = ix2 g k := fun k => funext fun a => by
    match a with
    | ⟨0, _⟩ => rfl
    | ⟨1, _⟩ => rfl
  have hr : ∀ k : Fin 128, ridx_main_v94 (ix2 g (0 : Fin 1)) k = ix2 k (0 : Fin 1) := fun k => funext fun a => by
    match a with
    | ⟨0, _⟩ => rfl
    | ⟨1, _⟩ => rfl
  have h96 : idx_main_v96 (ix2 g (0 : Fin 1)) = ix2 (0 : Fin 1) (0 : Fin 1) := funext fun a => by
    match a with
    | ⟨0, _⟩ => rfl
    | ⟨1, _⟩ => rfl
  have h95 : idx_main_v95 (ix2 (0 : Fin 1) (0 : Fin 1)) = ix1 (0 : Fin 1) := funext fun a => by
    match a with
    | ⟨0, _⟩ => rfl
  rw [val_main_v98_apply, h98, val_main_v97_apply, val_main_v94_apply, val_main_v96_apply, h96, val_main_v95_apply, h95]
  simp only [hl, hr, mean_apply]
  rfl

end Cert.Bridge

end
-- ==== Proof.Val.Stage3.lean ====
/-
  The last stage of the comparison: the fused combine, pooling and heads, and the host operations after it.

  The third kernel region reads the aggregate of layer 2's messages, layer 2's transformed features, the degree weights,
  the bias row, the graph ids and the two heads' weights and biases, and leaves the action head's array and the value
  head's column. Each operand is identified with the reference's stage of the same meaning: the arguments are kept from
  the launch, the layouts read the vectors they were made from, and the two arrays of earlier regions are the earlier
  stages' results. Layer 2's output, the segment sums and the two heads are then the reference's, read backwards.
-/
import proofs.«401564_j70566312673591_2_alg».proof.Proof.KI.Run
import proofs.«401564_j70566312673591_2_alg».proof.Proof.Val.Host
import proofs.«401564_j70566312673591_2_alg».proof.Proof.Val.Stage2
import proofs.«401564_j70566312673591_2_alg».proof.Proof.Val.Arr2
import proofs.«401564_j70566312673591_2_alg».proof.Proof.Ref.Pool
import proofs.«401564_j70566312673591_2_alg».proof.Proof.Ref.Layers
import proofs.«401564_j70566312673591_2_alg».proof.Proof.Ref.Dinv
import proofs.«401564_j70566312673591_2_alg».proof.Proof.LibRowLayers
import Idealize.ShloMosaic.Lib.ValueIdx
import Idealize.ShloMosaic.Lib.ValueLayout
import Idealize.ShloMosaic.Lib.Pipeline.Value

set_option maxRecDepth 16384

noncomputable section

open scoped BigOperators

namespace Cert.Bridge

open Cert.KernelIdeal Cert.KernelIdeal.Gen Cert.KernelIdeal.Hand
open Idealize.ShloMosaic Idealize.ShloMosaic.TcCoe Idealize.ShloMosaic.ValueIdx GraphPool
open Cert.ReferenceIdeal.Read

variable (m : (ℓ : Loc nD τ sig) → Buf (Elt Ideal) ℓ) (ρ : Dev nD → PrngReg) (c : Dev nD)

set_option quotPrecheck false in
local notation "X0" => m ((c.tc : Thread nD τ).loc main_arg0)
set_option quotPrecheck false in
local notation "X1" => m ((c.tc : Thread nD τ).loc main_arg1)
set_option quotPrecheck false in
local notation "X2" => m ((c.tc : Thread nD τ).loc main_arg2)
set_option quotPrecheck false in
local notation "X3" => m ((c.tc : Thread nD τ).loc main_arg3)
set_option quotPrecheck false in
local notation "X4" => m ((c.tc : Thread nD τ).loc main_arg4)
set_option quotPrecheck false in
local notation "X5" => m ((c.tc : Thread nD τ).loc main_arg5)
set_option quotPrecheck false in
local notation "X6" => m ((c.tc : Thread nD τ).loc main_arg6)
set_option quotPrecheck false in
local notation "X7" => m ((c.tc : Thread nD τ).loc main_arg7)
set_option quotPrecheck false in
local notation "X8" => m ((c.tc : Thread nD τ).loc main_arg8)
set_option quotPrecheck false in
local notation "X9" => m ((c.tc : Thread nD τ).loc main_arg9)
set_option quotPrecheck false in
local notation "X10" => m ((c.tc : Thread nD τ).loc main_arg10)
set_option quotPrecheck false in
local notation "X11" => m ((c.tc : Thread nD τ).loc main_arg11)

namespace Stage3

/-! ## Buffers kept from the launch -/

/-- A buffer that the first two host stretches do not write and that is no array of the first two regions is, after the
    second region, as launched. -/
theorem W4_keep (b : Ref sig .tc) (h1 : b ∉ hostOps1_W) (h0 : b ∉ hostOps0_W)
    (hr1 : ∀ w, Pipeline.arrRef spec1 w ≠ b) (hr0 : ∀ w, Pipeline.arrRef spec0 w ≠ b) :
    W4 m ρ c (Proc.devRef .tc b) = m ((c.tc : Thread nD τ).loc b) :=
  calc W4 m ρ c (Proc.devRef .tc b)
    _ = W3 m ρ c (Proc.devRef .tc b) := W4_of_ne m ρ c b hr1
    _ = W2 m ρ c (Proc.devRef .tc b) := host1_keep (W2 m ρ c) b h1
    _ = W1 m ρ c (Proc.devRef .tc b) := W2_of_ne m ρ c b hr0
    _ = W0 m ρ c (Proc.devRef .tc b) := host0_keep (W0 m ρ c) b h0
    _ = m ((c.tc : Thread nD τ).loc b) := rfl

/-- The same through the third host stretch. -/
theorem W5_keep (b : Ref sig .tc) (h2 : b ∉ hostOps2_W) (h1 : b ∉ hostOps1_W) (h0 : b ∉ hostOps0_W)
    (hr1 : ∀ w, Pipeline.arrRef spec1 w ≠ b) (hr0 : ∀ w, Pipeline.arrRef spec0 w ≠ b) :
    W5 m ρ c (Proc.devRef .tc b) = m ((c.tc : Thread nD τ).loc b) :=
  (host2_keep (W4 m ρ c) b h2).trans (W4_keep m ρ c b h1 h0 hr1 hr0)

/-- The degree weights are written by the first host stretch and by nothing after it. -/
theorem W4_weights : W4 m ρ c (Proc.devRef .tc main_v11) = W1 m ρ c (Proc.devRef .tc main_v11) :=
  calc W4 m ρ c (Proc.devRef .tc main_v11)
    _ = W3 m ρ c (Proc.devRef .tc main_v11) := W4_of_ne m ρ c main_v11 (by decide)
    _ = W2 m ρ c (Proc.devRef .tc main_v11) := host1_keep (W2 m ρ c) main_v11 (by decide)
    _ = W1 m ρ c (Proc.devRef .tc main_v11) := W2_of_ne m ρ c main_v11 (by decide)

/-! ## The third region's operands -/

/-- The graph ids as a column read, at (n, 0), node n's id. -/
theorem pool_ids (n : Fin 100000) : V5 m ρ c main_v41 (ix2 n (0 : Fin 1)) = X2 (ix1 n) := by
  show W5 m ρ c (Proc.devRef .tc main_v41) (ix2 n (0 : Fin 1)) = _
  rw [show W5 m ρ c (Proc.devRef .tc main_v41) = _ from host2_v41 (W4 m ρ c), RowLayers.column_apply,
    W4_keep m ρ c main_arg2 (by decide) (by decide) (by decide) (by decide)]

/-- Layer 2's bias as a row reads, at (0, k), entry k. -/
theorem pool_bias (k : Fin 128) : V5 m ρ c main_v40 (ix2 (0 : Fin 1) k) = X6 (ix1 k) := by
  show W5 m ρ c (Proc.devRef .tc main_v40) (ix2 (0 : Fin 1) k) = _
  rw [show W5 m ρ c (Proc.devRef .tc main_v40) = _ from host2_v40 (W4 m ρ c), shapeCast_a_1a_apply,
    W4_keep m ρ c main_arg6 (by decide) (by decide) (by decide) (by decide)]

/-- The action head's bias as a row reads, at (0, j), entry j. -/
theorem pool_actBias (j : Fin 32) : V5 m ρ c main_v42 (ix2 (0 : Fin 1) j) = X8 (ix1 j) := by
  show W5 m ρ c (Proc.devRef .tc main_v42) (ix2 (0 : Fin 1) j) = _
  rw [show W5 m ρ c (Proc.devRef .tc main_v42) = _ from host2_v42 (W4 m ρ c), shapeCast_a_1a_apply,
    W4_keep m ρ c main_arg8 (by decide) (by decide) (by decide) (by decide)]

/-- The value head's bias as a 1 × 1 matrix reads its one entry. -/
theorem pool_valBias : V5 m ρ c main_v43 (ix2 (0 : Fin 1) (0 : Fin 1)) = X10 (ix1 (0 : Fin 1)) := by
  show W5 m ρ c (Proc.devRef .tc main_v43) (ix2 (0 : Fin 1) (0 : Fin 1)) = _
  rw [show W5 m ρ c (Proc.devRef .tc main_v43) = _ from host2_v43 (W4 m ρ c), shapeCast_a_1a_apply,
    W4_keep m ρ c main_arg10 (by decide) (by decide) (by decide) (by decide)]

/-- The action head's weights are the argument. -/
theorem pool_actWeights : V5 m ρ c main_arg7 = X7 :=
  W5_keep m ρ c main_arg7 (by decide) (by decide) (by decide) (by decide) (by decide)

/-- The value head's weights are the argument. -/
theorem pool_valWeights : V5 m ρ c main_arg9 = X9 :=
  W5_keep m ρ c main_arg9 (by decide) (by decide) (by decide) (by decide) (by decide)

/-- The degree weights as a column read, at (n, 0), the reference's weight of node n. -/
theorem pool_weight (n : Fin 100000) :
    V5 m ρ c main_v39 (ix2 n (0 : Fin 1)) = val_main_v11 (F := Ideal) X1 (ix1 n) := by
  show W5 m ρ c (Proc.devRef .tc main_v39) (ix2 n (0 : Fin 1)) = _
  rw [show W5 m ρ c (Proc.devRef .tc main_v39) = _ from host2_v39 (W4 m ρ c), RowLayers.column_apply, W4_weights]
  exact stage_d11 m ρ c n

/-- Layer 2's transformed features are kept by the third host stretch. -/
theorem pool_h2_W4 : V5 m ρ c main_v27 = W4 m ρ c (Proc.devRef .tc main_v27) :=
  host2_keep (W4 m ρ c) main_v27 (by decide)

/-! ## The last host stretch -/

/-- The action head's array is kept by the last host stretch: it is what the third region leaves. -/
theorem last_act : W7 m ρ c (Proc.devRef .tc main_v44_0) = (dat2 (V5 m ρ) c).arrAt 9 cfg2.N :=
  (host3_keep (W6 m ρ c) main_v44_0 (by decide)).trans (W6_arr m ρ c 9)

/-- The value head's vector reads, at g, the column the third region leaves at (g, 0). -/
theorem last_value (g : Fin 64) :
    W7 m ρ c (Proc.devRef .tc main_v45) (ix1 g) = (dat2 (V5 m ρ) c).arrAt 10 cfg2.N (ix2 g (0 : Fin 1)) := by
  rw [show W7 m ρ c (Proc.devRef .tc main_v45) = _ from host3_v45 (W6 m ρ c)]
  rw [shapeCast_apply _ shapeCasts_S64x1_S64 (ix1 g) (ix2 g (0 : Fin 1)) (by
    rw [Shape.rowMajor_val_two, Shape.rowMajor_val_one]
    show g.val * 1 + 0 = g.val
    omega)]
  exact congrFun (W6_arr m ρ c 10) (ix2 g (0 : Fin 1))

end Stage3

open Stage3

/-- The standard deviations: the exponential of the last argument. -/
theorem stage_std : W7 m ρ c (Proc.devRef .tc main_v46) = Host.exp (F := Ideal) (s := S32) (φ := .f32) X11 :=
  (host3_v46 (W6 m ρ c)).trans (congrArg (Host.exp (F := Ideal) (s := S32) (φ := .f32))
    ((W6_of_ne m ρ c main_arg11 (by decide)).trans
      (W5_keep m ρ c main_arg11 (by decide) (by decide) (by decide) (by decide) (by decide))))

/-! ## The two heads -/

section Heads

namespace Stage3

/-- What the third region pools for graph g at feature k is the reference's pooled sum. -/
theorem pool_sum (g : Fin 64) (k : Fin 128) :
    poolSum (V5 m ρ c main_v38) (V5 m ρ c main_v27) (V5 m ρ c main_v39) (V5 m ρ c main_v40) (V5 m ρ c main_v41) g k
      = val_main_v84 (F := Ideal) X0 X1 X2 X3 X4 X5 X6 (ix2 g k) := by
  unfold poolSum
  rw [pooled_apply]
  refine Finset.sum_congr rfl fun n _ => ?_
  rw [pool_ids, layer2_apply X0 X1 X3 X4 X5 X6 n k (let ⟨r, h0, h⟩ := dinv_real X1; ⟨r n, h0 n, h n⟩), pool_bias, pool_weight,
    pool_h2_W4, stage_h2 m ρ c n k]
  rw [show V5 m ρ c main_v38 = _ from stage_agg2 m ρ c]

/-- What the third region counts for graph g is the reference's count. -/
theorem pool_count (g : Fin 64) : poolCount (V5 m ρ c main_v41) g = val_main_v81 (F := Ideal) X2 (ix1 g) := by
  unfold poolCount
  rw [counts_apply]
  refine Finset.sum_congr rfl fun n _ => ?_
  rw [pool_ids]

end Stage3

/-- The action head: what the program leaves at (g, j) is the reference's action mean. -/
theorem stage_act (g : Fin 64) (j : Fin 32) :
    W7 m ρ c (Proc.devRef .tc main_v44_0) (ix2 g j) = val_main_v93 (F := Ideal) X0 X1 X2 X3 X4 X5 X6 X7 X8 (ix2 g j) := by
  rw [last_act, arr2_act (V5 m ρ) c g j, act_apply]
  unfold headOf
  refine congrArg₂ (· + ·) (Finset.sum_congr rfl fun k _ => congrArg₂ (· * ·) (congrArg₂ Ideal.div ?_ ?_) ?_) ?_
  · exact pool_sum m ρ c g k
  · exact congrArg (max · 1) (pool_count m ρ c g)
  · exact congrFun (pool_actWeights m ρ c) (ix2 k j)
  · exact pool_actBias m ρ c j

/-- The value head: what the program leaves at g is the reference's value. -/
theorem stage_value (g : Fin 64) :
    W7 m ρ c (Proc.devRef .tc main_v45) (ix1 g) = val_main_v98 (F := Ideal) X0 X1 X2 X3 X4 X5 X6 X9 X10 (ix1 g) := by
  rw [last_value, arr2_val (V5 m ρ) c g, value_apply]
  unfold headOf
  refine congrArg₂ (· + ·) (Finset.sum_congr rfl fun k _ => congrArg₂ (· * ·) (congrArg₂ Ideal.div ?_ ?_) ?_) ?_
  · exact pool_sum m ρ c g k
  · exact congrArg (max · 1) (pool_count m ρ c g)
  · exact congrFun (pool_valWeights m ρ c) (ix2 k (0 : Fin 1))
  · exact pool_valBias m ρ c

end Heads

end Cert.Bridge

end
-- ==== Proof.Val.Final.lean ====
/-
  The closing conjunct: at the exact instance (floats read as extended reals) the kernel program and the reference, from
  memories that agree on the arguments, both run, end with equal results and leave the arguments unchanged.

  The common results are the kernel run's three result buffers at the last boundary. The kernel's run holds every unscoped
  buffer at that boundary's contents and no item writes an argument. The reference's run ends with its results at the
  composed terms of its own arguments: the action means, the exponential of the log standard deviations, and the values.
  Its arguments are the kernel's by hypothesis, and the three stage equations say that the kernel's result buffers hold
  those terms of the kernel's arguments, index by index.
-/
import proofs.«401564_j70566312673591_2_alg».proof.Defs
import proofs.«401564_j70566312673591_2_alg».proof.Proof.Gen.Pre_finite_inputs
import proofs.«401564_j70566312673591_2_alg».proof.Proof.KI.Run
import proofs.«401564_j70566312673591_2_alg».proof.Proof.Val.Stage3
import proofs.«401564_j70566312673591_2_alg».proof.Proof.RefImports
import Idealize.ShloMosaic.Lib.ValueIdx

noncomputable section

namespace Cert.Bridge

open Idealize.ShloMosaic Idealize.ShloMosaic.TcCoe Idealize.SL.Sem Idealize.ShloMosaic.ValueIdx
open Cert.KernelIdeal Cert.KernelIdeal.Gen Cert.KernelIdeal.Hand

section Closing

/-- Both programs run from memories that agree on the arguments, end with equal results, and leave the arguments as
    launched. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => W7 m ρ c (Proc.devRef .tc main_v44_0), fun c => W7 m ρ c (Proc.devRef .tc main_v46),
    fun c => W7 m ρ c (Proc.devRef .tc main_v45), ?_, ?_⟩
  · -- the kernel's run: every unscoped buffer ends at the last boundary's contents, and the arguments' are the launch's
    exact (θ_run defs _ _).mono (fun r h c => ⟨h c _ (mem_uc main_v44_0 (by decide)), h c _ (mem_uc main_v46 (by decide)),
      h c _ (mem_uc main_v45 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c)⟩) (Cert.KernelIdeal.Hand.run m ρ)
  · -- the reference's run: its results are the stage terms of its arguments, which are the kernel's
    refine (θ_run Cert.ReferenceIdeal.defs _ _).mono (fun r h c => ?_) (Cert.ReferenceIdeal.Value.run (F := Ideal) m' ρ')
    obtain ⟨h93, h99, h98, hargs⟩ := h c
    obtain ⟨a0, a1, a2, a3, a4, a5, a6, a7, a8, a9, a10, a11⟩ := hagree c
    refine ⟨h93.trans ?_, h99.trans ?_, h98.trans ?_, hargs⟩
    · rw [Cert.ReferenceIdeal.Read.val_main_v93_eq, a0, a1, a2, a3, a4, a5, a6, a7, a8]
      funext i
      rw [eq_ix2 i]
      exact (stage_act m ρ c (i 0) (i 1)).symm
    · rw [a11]
      exact (stage_std m ρ c).symm
    · rw [Cert.ReferenceIdeal.Read.val_main_v98_eq, a0, a1, a2, a3, a4, a5, a6, a9, a10]
      funext i
      rw [eq_ix1 i]
      exact (stage_value m ρ c (i 0)).symm

end Closing

end Cert.Bridge

end
-- ==== Proof.lean ====
/-
  A two-layer graph convolution with a global mean pool and two linear heads, computed by three tiled kernels among host gathers and
  scatter-adds, against the same network written with whole-array operations.

  The kernels fold the source normalisation d = deg^(-1/2) into each dense transform: layer L stores (H·W)·d row by row, the host gathers those rows
  at the edges' sources and scatter-adds them at the destinations into A, and the next kernel forms relu((A + (H·W)·d)·d + b). The reference forms
  relu(A·d + (H·W)·(d·d) + b) with the same A (its messages (H·W)[src]·d[src] are the gathered rows of (H·W)·d, entry by entry). The two agree at
  the exact instance because every d is a nonnegative real number, so multiplication by it distributes over the sum even when a summand is
  infinite. The pool: the kernel accumulates, over twenty blocks of 5000 nodes, the product of the transposed one-hot matrix of the graph ids
  with the layer's output and with a column of ones; the reference scatter-adds rows and ones at the graph ids; both are the sum over all
  nodes weighted by whether the node's id is the graph's. The heads divide by max(count, 1), multiply by the head matrices and add the biases.

  The frames: the program's run is the fold of its host stretches and kernel regions (Proof/K/Run.lean at the word level, Proof/KI/Run.lean for
  the idealized program: one argument, generic in the float instance), which ends with every argument array as launched; the reference's run is the generated one.
  The idealization rewrote nothing, so nothing is owed for it.
-/
import proofs.«401564_j70566312673591_2_alg».proof.Defs
import proofs.«401564_j70566312673591_2_alg».proof.Proof.Gen.Kernel
import proofs.«401564_j70566312673591_2_alg».proof.Proof.Gen.KernelIdeal
import proofs.«401564_j70566312673591_2_alg».proof.Proof.Gen.ReferenceIdeal
import proofs.«401564_j70566312673591_2_alg».proof.Proof.Gen.Pre_finite_inputs
import proofs.«401564_j70566312673591_2_alg».proof.Proof.K.Run
import proofs.«401564_j70566312673591_2_alg».proof.Proof.KI.Run
import proofs.«401564_j70566312673591_2_alg».proof.Proof.RefImports
import proofs.«401564_j70566312673591_2_alg».proof.Proof.Val.Final

noncomputable section

namespace Cert.Proof

open Idealize.ShloMosaic Idealize.SL.Sem

/-- The word-level program runs to the end, faults nowhere, and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
